-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x64 : Shape := ⟨2, ![800000, 64]⟩
abbrev S50000x64 : Shape := ⟨2, ![50000, 64]⟩
abbrev S2x800000 : Shape := ⟨2, ![2, 800000]⟩
abbrev S50000 : Shape := ⟨1, ![50000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S_ : Shape := ⟨0, ![]⟩

class Facts : Prop where
  bcast_S_S800000x64 : S_.BroadcastsInDim S800000x64 (![] : Fin 0 → Fin S800000x64.rank)
  reducesTo_S800000x64_S_d0_1 : S800000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg2 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg2 main_v69
  let main_c_27 : IVec S_ 32 := constantI S_ 32 50000#32
  let main_v71 : IVec S2x800000 32 := broadcastInDim S2x800000 ![] bcast_S_S2x800000 main_c_27
  let main_v72 : IVec S2x800000 1 := cmpi .slt main_arg2 main_v71
  let main_v73 : IVec S2x800000 1 := andi main_v70 main_v72
  let main_c_28 : IVec S_ 1 := constantI S_ 1 1#1
  let main_v74 : IVec S_ 1 := (fun x v => Host.reduce IntOp.andi x v reducesTo_S2x800000_S_d0_1 h_S_) main_v73 main_c_28
  let main_v75 : IVec S_ 1 := andi main_v68 main_v74
  main_v75

def fn_part3 {F : FTy → Type} [FloatOps F] (main_arg2 : IVec S2x800000 32) (main_arg13 : FVec F S64 .f32) (main_arg14 : FVec F S64 .f32) (main_arg15 : FVec F S64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg2 main_v63 main_v67

def fn_part2 {F : FTy → Type} [FloatOps F] (main_arg2 : IVec S2x800000 32) (main_arg9 : FVec F S64 .f32) (main_arg10 : FVec F S128x128 .f32) (main_arg11 : FVec F S128 .f32) (main_arg12 : FVec F S128x64 .f32) (main_arg13 : FVec F S64 .f32) (main_arg14 : FVec F S64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg2 main_arg13 main_arg14 main_arg15 main_v48 main_v49 main_v50

def fn_part1 {F : FTy → Type} [FloatOps F] (main_arg2 : IVec S2x800000 32) (main_arg6 : FVec F S128x64 .f32) (main_arg7 : FVec F S64 .f32) (main_arg8 : FVec F S64 .f32) (main_arg9 : FVec F S64 .f32) (main_arg10 : FVec F S128x128 .f32) (main_arg11 : FVec F S128 .f32) (main_arg12 : FVec F S128x64 .f32) (main_arg13 : FVec F S64 .f32) (main_arg14 : FVec F S64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg2 main_arg9 main_arg10 main_arg11 main_arg12 main_arg13 main_arg14 main_arg15 main_v33

def fn {F : FTy → Type} [FloatOps F] (main_arg0 : FVec F S800000x64 .f32) (main_arg1 : FVec F S50000x64 .f32) (main_arg2 : IVec S2x800000 32) (main_arg3 : IVec S50000 32) (main_arg4 : FVec F S192x128 .f32) (main_arg5 : FVec F S128 .f32) (main_arg6 : FVec F S128x64 .f32) (main_arg7 : FVec F S64 .f32) (main_arg8 : FVec F S64 .f32) (main_arg9 : FVec F S64 .f32) (main_arg10 : FVec F S128x128 .f32) (main_arg11 : FVec F S128 .f32) (main_arg12 : FVec F S128x64 .f32) (main_arg13 : FVec F S64 .f32) (main_arg14 : FVec F S64 .f32) (main_arg15 : FVec F S64 .f32) : IVec S_ 1 :=
  let main_v0 : FVec F S800000x64 .f32 := Host.absf main_arg0
  let main_cst : FVec F S_ .f32 := constant S_ .f32 0x7F800000#32
  let main_v1 : FVec F S800000x64 .f32 := broadcastInDim S800000x64 ![] bcast_S_S800000x64 main_cst
  let main_v2 : IVec S800000x64 1 := cmpf .olt main_v0 main_v1
  let main_c : IVec S_ 1 := constantI S_ 1 1#1
  let main_v3 : IVec S_ 1 := (fun x v => Host.reduce IntOp.andi x v reducesTo_S800000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S192x128 .f32 := Host.absf main_arg4
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_arg10 main_arg11 main_arg12 main_arg13 main_arg14 main_arg15 main_v13 main_v16
-- ==== Kernel.lean ====
abbrev S800000x64 : Shape := ⟨2, ![800000, 64]⟩
abbrev S50000x64 : Shape := ⟨2, ![50000, 64]⟩
abbrev S2x800000 : Shape := ⟨2, ![2, 800000]⟩
abbrev S50000 : Shape := ⟨1, ![50000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S800000x1 : Shape := ⟨2, ![800000, 1]⟩
abbrev S800000x2 : Shape := ⟨2, ![800000, 2]⟩
abbrev S_ : Shape := ⟨0, ![]⟩
abbrev S800000x2x1 : Shape := ⟨3, ![800000, 2, 1]⟩
abbrev S1 : Shape := ⟨1, ![1]⟩
abbrev S1x1x1 : Shape := ⟨3, ![1, 1, 1]⟩
abbrev S800000x2x64 : Shape := ⟨3, ![800000, 2, 64]⟩
abbrev S800000x128 : Shape := ⟨2, ![800000, 128]⟩
abbrev S64x128 : Shape := ⟨2, ![64, 128]⟩
abbrev S1x128 : Shape := ⟨2, ![1, 128]⟩
abbrev S1x64 : Shape := ⟨2, ![1, 64]⟩
abbrev S8000x128 : Shape := ⟨2, ![8000, 128]⟩
abbrev S8000x64 : Shape := ⟨2, ![8000, 64]⟩
abbrev S8000 : Shape := ⟨1, ![8000]⟩
abbrev S8000x1 : Shape := ⟨2, ![8000, 1]⟩
abbrev S10000x64 : Shape := ⟨2, ![10000, 64]⟩
abbrev S10000x128 : Shape := ⟨2, ![10000, 128]⟩
abbrev S10000 : Shape := ⟨1, ![10000]⟩
abbrev S10000x1 : Shape := ⟨2, ![10000, 1]⟩

abbrev nBuf : Space → Nat
  | .hbm => 71
  | .vmem => 26
  | .smem => 0
  | _ => 0

abbrev bufTy : (tb : Table) → Fin (tcTables nBuf tb) → BufTy
  | .hbm, ⟨0, _⟩ => ⟨S800000x64, .f32⟩
  | .hbm, ⟨1, _⟩ => ⟨S50000x64, .f32⟩
  | .hbm, ⟨2, _⟩ => ⟨S2x800000, .i32⟩
  | .hbm, ⟨3, _⟩ => ⟨S50000, .i32⟩
  | .hbm, ⟨4, _⟩ => ⟨S192x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S128x128, .f32⟩
  | .hbm, ⟨11, _⟩ => ⟨S128, .f32⟩
  | .hbm, ⟨12, _⟩ => ⟨S128x64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S800000x1, .i32⟩
  | .hbm, ⟨21, _⟩ => ⟨S800000x1, .i32⟩
  | .hbm, ⟨22, _⟩ => ⟨S800000x2, .i32⟩
  | .hbm, ⟨23, _⟩ => ⟨S_, .i32⟩
  | .hbm, ⟨24, _⟩ => ⟨S800000x2, .i32⟩
  | .hbm, ⟨25, _⟩ => ⟨S800000x2, .i1⟩
  | .hbm, ⟨26, _⟩ => ⟨S_, .i32⟩
  | .hbm, ⟨27, _⟩ => ⟨S800000x2, .i32⟩
  | .hbm, ⟨28, _⟩ => ⟨S800000x2, .i32⟩
  | .hbm, ⟨29, _⟩ => ⟨S800000x2, .i32⟩
  | .hbm, ⟨30, _⟩ => ⟨S800000x2x1, .i32⟩
  | .hbm, ⟨31, _⟩ => ⟨S1, .i32⟩
  | .hbm, ⟨32, _⟩ => ⟨S_, .i32⟩
  | .hbm, ⟨33, _⟩ => ⟨S800000x2x1, .i32⟩
  | .hbm, ⟨34, _⟩ => ⟨S800000x2x1, .i1⟩
  | .hbm, ⟨35, _⟩ => ⟨S1x1x1, .i32⟩
  | .hbm, ⟨36, _⟩ => ⟨S800000x2x1, .i32⟩
  | .hbm, ⟨37, _⟩ => ⟨S800000x2x1, .i1⟩
  | .hbm, ⟨38, _⟩ => ⟨S800000x2x1, .i1⟩
  | .hbm, ⟨39, _⟩ => ⟨S_, .i1⟩
  | .hbm, ⟨40, _⟩ => ⟨S800000x2, .i1⟩
  | .hbm, ⟨41, _⟩ => ⟨S800000x2x64, .f32⟩
  | .hbm, ⟨42, _⟩ => ⟨S800000x2x64, .i1⟩
  | .hbm, ⟨43, _⟩ => ⟨S_, .f32⟩
  | .hbm, ⟨44, _⟩ => ⟨S800000x2x64, .f32⟩
  | .hbm, ⟨45, _⟩ => ⟨S800000x2x64, .f32⟩
  | .hbm, ⟨46, _⟩ => ⟨S800000x128, .f32⟩
  | .hbm, ⟨47, _⟩ => ⟨S128x128, .f32⟩
  | .hbm, ⟨48, _⟩ => ⟨S128x128, .bf16⟩
  | .hbm, ⟨49, _⟩ => ⟨S64x128, .f32⟩
  | .hbm, ⟨50, _⟩ => ⟨S64x128, .bf16⟩
  | .hbm, ⟨51, _⟩ => ⟨S128x64, .bf16⟩
  | .hbm, ⟨52, _⟩ => ⟨S1x128, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S64x128, .f32⟩
  | .hbm, ⟨62, _⟩ => ⟨S64x128, .bf16⟩
  | .hbm, ⟨63, _⟩ => ⟨S64x128, .f32⟩
  | .hbm, ⟨64, _⟩ => ⟨S64x128, .bf16⟩
  | .hbm, ⟨65, _⟩ => ⟨S128x64, .bf16⟩
  | .hbm, ⟨66, _⟩ => ⟨S1x128, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S50000x64, .f32⟩
  | .local _ .vmem, ⟨0, _⟩ => ⟨S8000x128, .f32⟩
  | .local _ .vmem, ⟨1, _⟩ => ⟨S8000x128, .f32⟩
  | .local _ .vmem, ⟨2, _⟩ => ⟨S8000x64, .f32⟩
  | .local _ .vmem, ⟨3, _⟩ => ⟨S8000x64, .f32⟩
  | .local _ .vmem, ⟨4, _⟩ => ⟨S128x128, .bf16⟩
  | .local _ .vmem, ⟨5, _⟩ => ⟨S64x128, .bf16⟩
  | .local _ .vmem, ⟨6, _⟩ => ⟨S1x128, .f32⟩
  | .local _ .vmem, ⟨7, _⟩ => ⟨S128x64, .bf16⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S8000x64, .f32⟩
  | .local _ .vmem, ⟨12, _⟩ => ⟨S8000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x128, .bf16⟩
  | .local _ .vmem, ⟨18, _⟩ => ⟨S64x128, .bf16⟩
  | .local _ .vmem, ⟨19, _⟩ => ⟨S1x128, .f32⟩
  | .local _ .vmem, ⟨20, _⟩ => ⟨S128x64, .bf16⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | _, _ => ⟨S800000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_cst : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  concatenates_S800000x1_S800000x1_S800000x2_d1 : Shape.Concatenates [S800000x1, S800000x1] S800000x2 1
  bcast_S_S800000x2 : S_.BroadcastsInDim S800000x2 (![] : Fin 0 → Fin S800000x2.rank)
  bcast_S800000x2_S800000x2x1_0_1 : S800000x2.BroadcastsInDim S800000x2x1 (![0, 1] : Fin 2 → Fin S800000x2x1.rank)
  bcast_S_S800000x2x1 : S_.BroadcastsInDim S800000x2x1 (![] : Fin 0 → Fin S800000x2x1.rank)
  bcast_S1_S1x1x1_2 : S1.BroadcastsInDim S1x1x1 (![2] : Fin 1 → Fin S1x1x1.rank)
  bcast_S1x1x1_S800000x2x1_0_1_2 : S1x1x1.BroadcastsInDim S800000x2x1 (![0, 1, 2] : Fin 3 → Fin S800000x2x1.rank)
  reducesTo_S800000x2x1_S800000x2_d2 : S800000x2x1.ReducesTo [2] S800000x2
  h_S_ : 0 < S_.numel
  bcast_S800000x2_S800000x2x64_0_1 : S800000x2.BroadcastsInDim S800000x2x64 (![0, 1] : Fin 2 → Fin S800000x2x64.rank)
  bcast_S_S800000x2x64 : S_.BroadcastsInDim S800000x2x64 (![] : Fin 0 → Fin S800000x2x64.rank)
  shapeCasts_S800000x2x64_S800000x128 : S800000x2x64.ShapeCasts S800000x128
  slices_S192x128_S128x128_0_0 : S192x128.Slices ![0, 0] S128x128
  bitsLt_bf16_f32 : FTy.bits .bf16 < FTy.bits .f32
  slices_S192x128_S64x128_128_0 : S192x128.Slices ![128, 0] S64x128
  shapeCasts_S128_S1x128 : S128.ShapeCasts S1x128
  shapeCasts_S64_S1x64 : S64.ShapeCasts S1x64
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x64_S8000x64_0_0 : ∀ a, (![0, 0] : Fin 2 → Nat) a + S8000x64.size a ≤ S8000x64.size a
  h_S8000x64 : 0 < S8000x64.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  reduces_S8000x64_S8000 : S8000x64.Reduces [1] S8000
  shapeCasts_S8000_S8000x1 : S8000.ShapeCasts S8000x1
  broadcasts_S8000x1_S8000x64 : S8000x1.Broadcasts S8000x64
  bcast_S_S50000x64 : S_.BroadcastsInDim S50000x64 (![] : Fin 0 → Fin S50000x64.rank)
  slices_S128x128_S64x128_0_0 : S128x128.Slices ![0, 0] S64x128
  slices_S128x128_S64x128_64_0 : S128x128.Slices ![64, 0] S64x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x128_S10000x128 : S1x128.Broadcasts S10000x128
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  gather_S50000x64_S800000x2x1_S800000x2x64_2_0_n_n_0_2_164_wf : GatherDims.WF S50000x64 S800000x2x1 S800000x2x64 [2] [0] [] [0] [] 2 ![1, 64]
  dot_S8000x128_S128x128_S8000x128_1_0_0_1_n_n_wf : DotDims.WF S8000x128 S128x128 S8000x128 [1] [0] [0] [1] [] []
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  scatter_S50000x64_S800000x1_S800000x64_1_0_0_1_wf : ScatterDims.WF S50000x64 S800000x1 S800000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .bf16 = 32 ∨ (Rect.block (s := S64x128) S64x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S50000x64.size a
  hwx1_9 : ∀ i : grid1.Coords, EltTy.bits .f32 = 32 ∨ (Rect.block (s := S50000x64) S10000x64.size (cc1_transform_9 i) (hinb1_9 i)).WholeWords (EltTy.packing .f32)

variable [Facts₀]

def gather_S50000x64_S800000x2x1_S800000x2x64_2_0_n_n_0_2_164 : GatherDims S50000x64 S800000x2x1 S800000x2x64 where
  offsetDims := [2]
  collapsedSliceDims := [0]
  operandBatchingDims := []
  startIndicesBatchingDims := []
  startIndexMap := [0]
  indexVectorDim := 2
  sliceSizes := ![1, 64]
  wf := gather_S50000x64_S800000x2x1_S800000x2x64_2_0_n_n_0_2_164_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v8) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v30) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v31) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S800000x64 : Shape := ⟨2, ![800000, 64]⟩
abbrev S50000x64 : Shape := ⟨2, ![50000, 64]⟩
abbrev S2x800000 : Shape := ⟨2, ![2, 800000]⟩
abbrev S50000 : Shape := ⟨1, ![50000]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩
abbrev S50000x1 : Shape := ⟨2, ![50000, 1]⟩

abbrev nBuf : Space → Nat
  | .hbm => 160
  | .vmem => 0
  | .smem => 0
  | _ => 0

abbrev hbmTy0_0 (i : Nat) : BufTy := match i % 128 with
  | 0 => ⟨S800000x64, .f32⟩
  | 1 => ⟨S50000x64, .f32⟩
  | 2 => ⟨S2x800000, .i32⟩
  | 3 => ⟨S50000, .i32⟩
  | 4 => ⟨S192x128, .f32⟩
  | 5 => ⟨S128, .f32⟩
  | 6 => ⟨S128x64, .f32⟩
  | 7 => ⟨S64, .f32⟩
  | 8 => ⟨S64, .f32⟩
  | 9 => ⟨S64, .f32⟩
  | 10 => ⟨S128x128, .f32⟩
  | 11 => ⟨S128, .f32⟩
  | 12 => ⟨S128x64, .f32⟩
  | 13 => ⟨S64, .f32⟩
  | 14 => ⟨S64, .f32⟩
  | 15 => ⟨S64, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S800000x192, .f32⟩
  | 39 => ⟨S800000x128, .f32⟩
  | 40 => ⟨S1x128, .f32⟩
  | 41 => ⟨S800000x128, .f32⟩
  | 42 => ⟨S800000x128, .f32⟩
  | 43 => ⟨S_, .f32⟩
  | 44 => ⟨S800000x128, .f32⟩
  | 45 => ⟨S800000x128, .f32⟩
  | 46 => ⟨S800000x64, .f32⟩
  | 47 => ⟨S1x64, .f32⟩
  | 48 => ⟨S800000x64, .f32⟩
  | 49 => ⟨S800000x64, .f32⟩
  | 50 => ⟨S_, .f32⟩
  | 51 => ⟨S800000x64, .f32⟩
  | 52 => ⟨S800000x64, .f32⟩
  | 53 => ⟨S_, .f32⟩
  | 54 => ⟨S800000, .f32⟩
  | 55 => ⟨S800000x1, .f32⟩
  | 56 => ⟨S_, .f32⟩
  | 57 => ⟨S800000x1, .f32⟩
  | 58 => ⟨S800000x1, .f32⟩
  | 59 => ⟨S_, .i32⟩
  | 60 => ⟨S_, .f32⟩
  | 61 => ⟨S800000, .f32⟩
  | 62 => ⟨S800000x1, .f32⟩
  | 63 => ⟨S_, .f32⟩
  | 64 => ⟨S800000x1, .f32⟩
  | 65 => ⟨S800000x1, .f32⟩
  | 66 => ⟨S800000x64, .f32⟩
  | 67 => ⟨S800000x64, .f32⟩
  | 68 => ⟨S800000x64, .f32⟩
  | 69 => ⟨S_, .f32⟩
  | 70 => ⟨S_, .f32⟩
  | 71 => ⟨S_, .f32⟩
  | 72 => ⟨S_, .f32⟩
  | 73 => ⟨S800000, .f32⟩
  | 74 => ⟨S800000x1, .f32⟩
  | 75 => ⟨S800000x1, .f32⟩
  | 76 => ⟨S800000x1, .f32⟩
  | 77 => ⟨S_, .f32⟩
  | 78 => ⟨S_, .i1⟩
  | 79 => ⟨S_, .f32⟩
  | 80 => ⟨S_, .f32⟩
  | 81 => ⟨S800000x1, .f32⟩
  | 82 => ⟨S800000x1, .f32⟩
  | 83 => ⟨S800000x64, .f32⟩
  | 84 => ⟨S800000x64, .f32⟩
  | 85 => ⟨S_, .f32⟩
  | 86 => ⟨S800000x1, .f32⟩
  | 87 => ⟨S800000x1, .f32⟩
  | 88 => ⟨S800000x1, .f32⟩
  | 89 => ⟨S800000x64, .f32⟩
  | 90 => ⟨S800000x64, .f32⟩
  | 91 => ⟨S1x64, .f32⟩
  | 92 => ⟨S800000x64, .f32⟩
  | 93 => ⟨S800000x64, .f32⟩
  | 94 => ⟨S1x64, .f32⟩
  | 95 => ⟨S800000x64, .f32⟩
  | 96 => ⟨S800000x64, .f32⟩
  | 97 => ⟨S_, .f32⟩
  | 98 => ⟨S50000x64, .f32⟩
  | 99 => ⟨S800000x1, .i32⟩
  | 100 => ⟨S50000x64, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S_, .f32⟩
  | 117 => ⟨S50000, .f32⟩
  | 118 => ⟨S50000x1, .f32⟩
  | 119 => ⟨S_, .f32⟩
  | 120 => ⟨S50000x1, .f32⟩
  | 121 => ⟨S50000x1, .f32⟩
  | 122 => ⟨S_, .i32⟩
  | 123 => ⟨S_, .f32⟩
  | 124 => ⟨S50000, .f32⟩
  | 125 => ⟨S50000x1, .f32⟩
  | 126 => ⟨S_, .f32⟩
  | 127 => ⟨S50000x1, .f32⟩
  | _ => ⟨S800000x64, .f32⟩

abbrev hbmTy0_1 (i : Nat) : BufTy := match i % 128 with
  | 0 => ⟨S50000x1, .f32⟩
  | 1 => ⟨S50000x64, .f32⟩
  | 2 => ⟨S50000x64, .f32⟩
  | 3 => ⟨S50000x64, .f32⟩
  | 4 => ⟨S_, .f32⟩
  | 5 => ⟨S_, .f32⟩
  | 6 => ⟨S_, .f32⟩
  | 7 => ⟨S_, .f32⟩
  | 8 => ⟨S50000, .f32⟩
  | 9 => ⟨S50000x1, .f32⟩
  | 10 => ⟨S50000x1, .f32⟩
  | 11 => ⟨S50000x1, .f32⟩
  | 12 => ⟨S_, .f32⟩
  | 13 => ⟨S_, .i1⟩
  | 14 => ⟨S_, .f32⟩
  | 15 => ⟨S_, .f32⟩
  | 16 => ⟨S50000x1, .f32⟩
  | 17 => ⟨S50000x1, .f32⟩
  | 18 => ⟨S50000x64, .f32⟩
  | 19 => ⟨S50000x64, .f32⟩
  | 20 => ⟨S_, .f32⟩
  | 21 => ⟨S50000x1, .f32⟩
  | 22 => ⟨S50000x1, .f32⟩
  | 23 => ⟨S50000x1, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S1x64, .f32⟩
  | 30 => ⟨S50000x64, .f32⟩
  | 31 => ⟨S50000x64, .f32⟩
  | _ => ⟨S800000x64, .f32⟩

abbrev hbmTy (i : Nat) : BufTy := match i / 128 with
  | 0 => hbmTy0_0 i
  | 1 => hbmTy0_1 i
  | _ => ⟨S800000x64, .f32⟩

abbrev bufTy : (tb : Table) → Fin (tcTables nBuf tb) → BufTy
  | .hbm, ⟨i, _⟩ => hbmTy i
  | _, _ => ⟨S800000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_cst : Ref sig .tc := ⟨.hbm, 50, rfl⟩
abbrev main_call1_v0 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_cst_3 : Ref sig .tc := ⟨.hbm, 56, rfl⟩
abbrev main_v31 : Ref sig .tc := ⟨.hbm, 57, rfl⟩
abbrev main_v32 : Ref sig .tc := ⟨.hbm, 58, rfl⟩
abbrev main_c_4 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_cst_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_cst_1 : Ref sig .tc := ⟨.hbm, 70, rfl⟩
abbrev main_call2_v8 : Ref sig .tc := ⟨.hbm, 71, rfl⟩
abbrev main_call2_cst_2 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_cst_3 : Ref sig .tc := ⟨.hbm, 77, rfl⟩
abbrev main_call2_v13 : Ref sig .tc := ⟨.hbm, 78, rfl⟩
abbrev main_call2_cst_4 : Ref sig .tc := ⟨.hbm, 79, rfl⟩
abbrev main_call2_call0_v0 : Ref sig .tc := ⟨.hbm, 80, rfl⟩
abbrev main_call2_call0_v1 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_cst_5 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_6 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_call3_cst : Ref sig .tc := ⟨.hbm, 106, rfl⟩
abbrev main_call3_v0 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_call4_cst : Ref sig .tc := ⟨.hbm, 113, rfl⟩
abbrev main_call4_v0 : Ref sig .tc := ⟨.hbm, 114, rfl⟩
abbrev main_v60 : Ref sig .tc := ⟨.hbm, 115, rfl⟩
abbrev main_cst_7 : Ref sig .tc := ⟨.hbm, 116, rfl⟩
abbrev main_v61 : Ref sig .tc := ⟨.hbm, 117, rfl⟩
abbrev main_v62 : Ref sig .tc := ⟨.hbm, 118, rfl⟩
abbrev main_cst_8 : Ref sig .tc := ⟨.hbm, 119, rfl⟩
abbrev main_v63 : Ref sig .tc := ⟨.hbm, 120, rfl⟩
abbrev main_v64 : Ref sig .tc := ⟨.hbm, 121, rfl⟩
abbrev main_c_9 : Ref sig .tc := ⟨.hbm, 122, rfl⟩
abbrev main_call5_cst : Ref sig .tc := ⟨.hbm, 123, rfl⟩
abbrev main_call5_v0 : Ref sig .tc := ⟨.hbm, 124, rfl⟩
abbrev main_call5_v1 : Ref sig .tc := ⟨.hbm, 125, rfl⟩
abbrev main_call5_cst_0 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_v6 : Ref sig .tc := ⟨.hbm, 131, rfl⟩
abbrev main_call5_v7 : Ref sig .tc := ⟨.hbm, 132, rfl⟩
abbrev main_call5_cst_1 : Ref sig .tc := ⟨.hbm, 133, rfl⟩
abbrev main_call5_v8 : Ref sig .tc := ⟨.hbm, 134, rfl⟩
abbrev main_call5_cst_2 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_v12 : Ref sig .tc := ⟨.hbm, 139, rfl⟩
abbrev main_call5_cst_3 : Ref sig .tc := ⟨.hbm, 140, rfl⟩
abbrev main_call5_v13 : Ref sig .tc := ⟨.hbm, 141, rfl⟩
abbrev main_call5_cst_4 : Ref sig .tc := ⟨.hbm, 142, rfl⟩
abbrev main_call5_call0_v0 : Ref sig .tc := ⟨.hbm, 143, rfl⟩
abbrev main_call5_call0_v1 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_cst_10 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_v75 : Ref sig .tc := ⟨.hbm, 156, rfl⟩
abbrev main_v76 : Ref sig .tc := ⟨.hbm, 157, rfl⟩
abbrev main_v77 : Ref sig .tc := ⟨.hbm, 158, rfl⟩
abbrev main_v78 : Ref sig .tc := ⟨.hbm, 159, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  reducesTo_S800000x64_S800000_d1 : S800000x64.ReducesTo [1] S800000
  h_S_ : 0 < S_.numel
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x128_S800000x128_1_0_0_1_n_n_wf : DotDims.WF S800000x192 S192x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  What both programs compute, row by row, on the extended reals.

  A row of inputs comes in two pieces `a` (length `Ka`) and `b` (length `Kb`); the first layer's weight matrix is cut
  at the same place into `Wa` and `Wb`.  The hidden row is `max (a·Wa + b·Wb + b₁) 0`, the second row
  `max (h₁·W₂ + b₂) 0`, and the result is that row normalised over its 64 places: centred at its mean, scaled by
  `rsqrt (variance + ε)`, then by `g`, shifted by `bt`.  The divisor 64 and the offset ε are the float words both
  programs spell; neither is ever evaluated here, except that 64 is positive (`c64_pos`).

  The one law of sums used: a sum over `Ka + Kb` places is the sum over the first `Ka` plus the sum over the last `Kb`
  (`sum_cut`); on the extended reals addition is commutative and associative, so no finiteness is needed for it.
-/
import Idealize.ShloMosaic.PureOps.Ideal
import Mathlib.Algebra.BigOperators.Fin

noncomputable section

open scoped BigOperators
open Idealize.ShloMosaic

namespace Cert.Spec

/-- The float word `64.0`, the length of a normalised row, as both programs divide by it. -/
def c64 : EReal := Ideal.ofBits .f32 0x42800000#32
/-- The float word both programs add to the variance. -/
def ceps : EReal := Ideal.ofBits .f32 0x3727C5AC#32

/-- Hidden unit `j` of the first layer, the input row given as two pieces. -/
def layer1 {Ka Kb : ℕ} (a : Fin Ka → EReal) (b : Fin Kb → EReal) (Wa : Fin Ka → Fin 128 → EReal)
    (Wb : Fin Kb → Fin 128 → EReal) (b1 : Fin 128 → EReal) (j : Fin 128) : EReal :=
  max (((∑ k, a k * Wa k j) + ∑ k, b k * Wb k j) + b1 j) 0

/-- Unit `l` of the second layer. -/
def layer2 (h1 : Fin 128 → EReal) (W2 : Fin 128 → Fin 64 → EReal) (b2 : Fin 64 → EReal) (l : Fin 64) : EReal :=
  max ((∑ j, h1 j * W2 j l) + b2 l) 0

/-- The mean of a row of 64. -/
def mean (h : Fin 64 → EReal) : EReal := Ideal.div (∑ l, h l) c64
/-- The row less its mean. -/
def centred (h : Fin 64 → EReal) (l : Fin 64) : EReal := h l - mean h
/-- The mean of the squares of the centred row. -/
def variance (h : Fin 64 → EReal) : EReal := Ideal.div (∑ l, centred h l * centred h l) c64
/-- The normalised row at place `l`. -/
def layerNorm (h g bt : Fin 64 → EReal) (l : Fin 64) : EReal :=
  centred h l * Ideal.rsqrt (variance h + ceps) * g l + bt l

/-- The whole row function: two layers, then the normalisation. -/
def rowOut {Ka Kb : ℕ} (a : Fin Ka → EReal) (b : Fin Kb → EReal) (Wa : Fin Ka → Fin 128 → EReal)
    (Wb : Fin Kb → Fin 128 → EReal) (b1 : Fin 128 → EReal) (W2 : Fin 128 → Fin 64 → EReal) (b2 g bt : Fin 64 → EReal)
    (l : Fin 64) : EReal :=
  layerNorm (layer2 (layer1 a b Wa Wb b1) W2 b2) g bt l

/-- A sum over `Ka + Kb` places, cut after the first `Ka`. -/
theorem sum_cut (Ka Kb : ℕ) (f : Fin (Ka + Kb) → EReal) :
    ∑ k, f k = (∑ k : Fin Ka, f (Fin.castAdd Kb k)) + ∑ k : Fin Kb, f (Fin.natAdd Ka k) :=
  Fin.sum_univ_add f

/-- The features of an edge's two end nodes side by side: the receiver's 64, then the sender's 64. -/
def ends (na : Fin 50000 → Fin 64 → EReal) (rc sn : Fin 50000) (k : Fin 128) : EReal :=
  if h : k.val < 64 then na rc ⟨k.val, h⟩ else na sn ⟨k.val - 64, by omega⟩

/-- The row of node `w` a 32-bit index word names (for a word in `[0, 50000)`, which is all the programs are asked about). -/
def nodeOf (w : BitVec 32) : Fin 50000 := ⟨w.toNat % 50000, Nat.mod_lt _ (by decide)⟩

/-- THE UPDATED EDGE FEATURES at edge `e`, place `q`: the row function of (receiver | sender) and the edge's own features,
    the first weight matrix cut after its first 128 rows. -/
def edgeOut (ea : Fin 800000 → Fin 64 → EReal) (na : Fin 50000 → Fin 64 → EReal) (recv send : Fin 800000 → Fin 50000)
    (W1 : Fin 192 → Fin 128 → EReal) (b1 : Fin 128 → EReal) (W2 : Fin 128 → Fin 64 → EReal) (b2 g bt : Fin 64 → EReal)
    (e : Fin 800000) (q : Fin 64) : EReal :=
  rowOut (ends na (recv e) (send e)) (ea e) (fun k j => W1 ⟨k.val, by omega⟩ j) (fun k j => W1 ⟨128 + k.val, by omega⟩ j)
    b1 W2 b2 g bt q

/-- THE UPDATED NODE FEATURES at node `n`, place `q`: the row function of the node's features and what its incoming
    edges summed to (`agg`), the first weight matrix cut after its first 64 rows. -/
def nodeOut (na agg : Fin 50000 → Fin 64 → EReal) (W1 : Fin 128 → Fin 128 → EReal) (b1 : Fin 128 → EReal)
    (W2 : Fin 128 → Fin 64 → EReal) (b2 g bt : Fin 64 → EReal) (n : Fin 50000) (q : Fin 64) : EReal :=
  rowOut (na n) (agg n) (fun k j => W1 ⟨k.val, by omega⟩ j) (fun k j => W1 ⟨64 + k.val, by omega⟩ j) b1 W2 b2 g bt q

end Cert.Spec

end
-- ==== Proof.KValue0.lean ====
import proofs.«425826_j50044958933334_3_alg».proof.Proof.Gen.KernelIdeal.Frame
import proofs.«425826_j50044958933334_3_alg».proof.Proof.Spec
import Idealize.ShloMosaic.Lib.ValueIdx
import Idealize.ShloMosaic.Lib.Pipeline.Value

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The edge kernel's arithmetic, read at row `p`, place `q` of a block, is the row function of the loaded blocks' rows. -/
def Pay0 : Prop := ∀ (v0 : Vec Ideal S8000x128 .f32) (v3 : Vec Ideal S8000x64 .f32) (v5 : Vec Ideal S128x128 .bf16) (v8 : Vec Ideal S64x128 .bf16) (v12 : Vec Ideal S1x128 .f32) (v19 : Vec Ideal S128x64 .bf16) (v22 v44 v48 : Vec Ideal S1x64 .f32) (p : Fin 8000) (q : Fin 64),
    k0_pay1 (k0_pay2 v0 v3 v5 v8 v12 v19 v22) (k0_pay3 v0 v3 v5 v8 v12 v19 v22) v44 v48 (ix2 p q)
      = Cert.Spec.rowOut (fun k : Fin 128 => v0 (ix2 p k)) (fun k : Fin 64 => v3 (ix2 p k)) (fun (k : Fin 128) (j : Fin 128) => v5 (ix2 k j)) (fun (k : Fin 64) (j : Fin 128) => v8 (ix2 k j)) (fun j : Fin 128 => v12 (ix2 0 j)) (fun (j : Fin 128) (l : Fin 64) => v19 (ix2 j l)) (fun l : Fin 64 => v22 (ix2 0 l)) (fun l : Fin 64 => v44 (ix2 0 l)) (fun l : Fin 64 => v48 (ix2 0 l)) q

/-- The whole edge array the region leaves: at edge `e`, place `q`, the row function of row `e` of the two streamed
    arrays and of the seven resident ones, as the region finds them. -/
def G0 (c : Dev nD) : S800000x64.Idx → EReal := fun i =>
  Cert.Spec.rowOut (fun k : Fin 128 => V c main_v8 (ix2 (i 0) k)) (fun k : Fin 64 => V c main_arg0 (ix2 (i 0) k))
    (fun (k : Fin 128) (j : Fin 128) => V c main_v10 (ix2 k j)) (fun (k : Fin 64) (j : Fin 128) => V c main_v12 (ix2 k j))
    (fun j : Fin 128 => V c main_v14 (ix2 0 j)) (fun (j : Fin 128) (l : Fin 64) => V c main_v13 (ix2 j l))
    (fun l : Fin 64 => V c main_v15 (ix2 0 l)) (fun l : Fin 64 => V c main_v16 (ix2 0 l)) (fun l : Fin 64 => V c main_v17 (ix2 0 l)) (i 1)

/-- The edge region's grid has 100 points. -/
theorem tlt0 (t : Fin cfg0.N) : t.val < 100 := by
  have h := t.isLt
  have e : cfg0.N = 100 := N_0
  omega

/-- The printed index maps over the grid: the two streamed inputs and the output move together, one block of 8000 rows a
    point (block `t` at point `t`), and the seven resident inputs are read whole at every point. -/
theorem idx_facts0 : ∀ t : Fin cfg0.N,
    win0_9.index t (0 : Fin 2) = t.val ∧ win0_9.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Row `p` of point `t`'s block of the gathered (receiver | sender) array is row `8000 t + p` of the array. -/
theorem blk0_0 (c : Dev nD) (t : Fin cfg0.N) (p : Fin 8000) (k : Fin 128) :
    iblk0 V c 0 t (ix2 p k) = V c main_v8 (ix2 ⟨t.val * 8000 + p.val, by have := tlt0 t; omega⟩ k) := by
  show V c main_v8 (((cfg0.win 0).blk t).view.emb (ix2 p k)) = _
  refine congrArg (V c main_v8) ?_
  obtain ⟨-, -, e0, e1, -⟩ := idx_facts0 t
  funext a; apply Fin.ext
  match a with
  | ⟨0, _⟩ => show win0_0.index t (0 : Fin 2) * 8000 + 1 * p.val = t.val * 8000 + p.val; omega
  | ⟨1, _⟩ => show win0_0.index t (1 : Fin 2) * 128 + 1 * k.val = k.val; omega

/-- Likewise for the edges' own features. -/
theorem blk0_1 (c : Dev nD) (t : Fin cfg0.N) (p : Fin 8000) (k : Fin 64) :
    iblk0 V c 1 t (ix2 p k) = V c main_arg0 (ix2 ⟨t.val * 8000 + p.val, by have := tlt0 t; omega⟩ k) := by
  show V c main_arg0 (((cfg0.win 1).blk t).view.emb (ix2 p k)) = _
  refine congrArg (V c main_arg0) ?_
  obtain ⟨-, -, -, -, e0, e1, -⟩ := idx_facts0 t
  funext a; apply Fin.ext
  match a with
  | ⟨0, _⟩ => show win0_1.index t (0 : Fin 2) * 8000 + 1 * p.val = t.val * 8000 + p.val; omega
  | ⟨1, _⟩ => show win0_1.index t (1 : Fin 2) * 64 + 1 * k.val = k.val; omega

/-- A resident input's block at any point is the whole array. -/
theorem blk0_2 (c : Dev nD) (t : Fin cfg0.N) (k : Fin 128) (j : Fin 128) : iblk0 V c 2 t (ix2 k j) = V c main_v10 (ix2 k j) := by
  show V c main_v10 (((cfg0.win 2).blk t).view.emb (ix2 k j)) = _
  refine congrArg (V c main_v10) ?_
  obtain ⟨-, -, -, -, -, -, e0, e1, -⟩ := idx_facts0 t
  funext a; apply Fin.ext
  match a with
  | ⟨0, _⟩ => show win0_2.index t (0 : Fin 2) * 128 + 1 * k.val = k.val; omega
  | ⟨1, _⟩ => show win0_2.index t (1 : Fin 2) * 128 + 1 * j.val = j.val; omega
theorem blk0_3 (c : Dev nD) (t : Fin cfg0.N) (k : Fin 64) (j : Fin 128) : iblk0 V c 3 t (ix2 k j) = V c main_v12 (ix2 k j) := by
  show V c main_v12 (((cfg0.win 3).blk t).view.emb (ix2 k j)) = _
  refine congrArg (V c main_v12) ?_
  obtain ⟨-, -, -, -, -, -, -, -, e0, e1, -⟩ := idx_facts0 t
  funext a; apply Fin.ext
  match a with
  | ⟨0, _⟩ => show win0_3.index t (0 : Fin 2) * 64 + 1 * k.val = k.val; omega
  | ⟨1, _⟩ => show win0_3.index t (1 : Fin 2) * 128 + 1 * j.val = j.val; omega
theorem blk0_4 (c : Dev nD) (t : Fin cfg0.N) (j : Fin 128) : iblk0 V c 4 t (ix2 0 j) = V c main_v14 (ix2 0 j) := by
  show V c main_v14 (((cfg0.win 4).blk t).view.emb (ix2 0 j)) = _
  refine congrArg (V c main_v14) ?_
  obtain ⟨-, -, -, -, -, -, -, -, -, -, e0, e1, -⟩ := idx_facts0 t
  funext a; apply Fin.ext
  match a with
  | ⟨0, _⟩ => show win0_4.index t (0 : Fin 2) * 1 + 1 * 0 = 0; omega
  | ⟨1, _⟩ => show win0_4.index t (1 : Fin 2) * 128 + 1 * j.val = j.val; omega
theorem blk0_5 (c : Dev nD) (t : Fin cfg0.N) (j : Fin 128) (l : Fin 64) : iblk0 V c 5 t (ix2 j l) = V c main_v13 (ix2 j l) := by
  show V c main_v13 (((cfg0.win 5).blk t).view.emb (ix2 j l)) = _
  refine congrArg (V c main_v13) ?_
  obtain ⟨-, -, -, -, -, -, -, -, -, -, -, -, e0, e1, -⟩ := idx_facts0 t
  funext a; apply Fin.ext
  match a with
  | ⟨0, _⟩ => show win0_5.index t (0 : Fin 2) * 128 + 1 * j.val = j.val; omega
  | ⟨1, _⟩ => show win0_5.index t (1 : Fin 2) * 64 + 1 * l.val = l.val; omega
theorem blk0_6 (c : Dev nD) (t : Fin cfg0.N) (l : Fin 64) : iblk0 V c 6 t (ix2 0 l) = V c main_v15 (ix2 0 l) := by
  show V c main_v15 (((cfg0.win 6).blk t).view.emb (ix2 0 l)) = _
  refine congrArg (V c main_v15) ?_
  obtain ⟨-, -, -, -, -, -, -, -, -, -, -, -, -, -, e0, e1, -⟩ := idx_facts0 t
  funext a; apply Fin.ext
  match a with
  | ⟨0, _⟩ => show win0_6.index t (0 : Fin 2) * 1 + 1 * 0 = 0; omega
  | ⟨1, _⟩ => show win0_6.index t (1 : Fin 2) * 64 + 1 * l.val = l.val; omega
theorem blk0_7 (c : Dev nD) (t : Fin cfg0.N) (l : Fin 64) : iblk0 V c 7 t (ix2 0 l) = V c main_v16 (ix2 0 l) := by
  show V c main_v16 (((cfg0.win 7).blk t).view.emb (ix2 0 l)) = _
  refine congrArg (V c main_v16) ?_
  obtain ⟨-, -, -, -, -, -, -, -, -, -, -, -, -, -, -, -, e0, e1, -⟩ := idx_facts0 t
  funext a; apply Fin.ext
  match a with
  | ⟨0, _⟩ => show win0_7.index t (0 : Fin 2) * 1 + 1 * 0 = 0; omega
  | ⟨1, _⟩ => show win0_7.index t (1 : Fin 2) * 64 + 1 * l.val = l.val; omega
theorem blk0_8 (c : Dev nD) (t : Fin cfg0.N) (l : Fin 64) : iblk0 V c 8 t (ix2 0 l) = V c main_v17 (ix2 0 l) := by
  show V c main_v17 (((cfg0.win 8).blk t).view.emb (ix2 0 l)) = _
  refine congrArg (V c main_v17) ?_
  obtain ⟨-, -, -, -, -, -, -, -, -, -, -, -, -, -, -, -, -, -, e0, e1⟩ := idx_facts0 t
  funext a; apply Fin.ext
  match a with
  | ⟨0, _⟩ => show win0_8.index t (0 : Fin 2) * 1 + 1 * 0 = 0; omega
  | ⟨1, _⟩ => show win0_8.index t (1 : Fin 2) * 64 + 1 * l.val = l.val; omega

/-- Where point `t`'s output block puts its row `p`, place `q`. -/
theorem emb0_9 (t : Fin cfg0.N) (p : Fin 8000) (q : Fin 64) :
    ((cfg0.win 9).blk t).view.emb (ix2 p q) = ix2 ⟨t.val * 8000 + p.val, by have := tlt0 t; omega⟩ q := by
  obtain ⟨e0, e1, -⟩ := idx_facts0 t
  funext a; apply Fin.ext
  match a with
  | ⟨0, _⟩ => show win0_9.index t (0 : Fin 2) * 8000 + 1 * p.val = t.val * 8000 + p.val; omega
  | ⟨1, _⟩ => show win0_9.index t (1 : Fin 2) * 64 + 1 * q.val = q.val; omega

/-- WHAT POINT `t` WRITES BACK is block `t` of `G0`: each row of the block is computed from the same row of the two
    streamed blocks, which is row `8000 t + p` of their arrays. -/
theorem flushed_eq0 (hpay : Pay0) (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  unfold out0_9
  rw [View.canon_unit_zero hz]
  simp only [View.ld_unit_zero (S := S8000x128) hz, View.ld_unit_zero (S := S8000x64) hz, View.ld_unit_zero (S := S128x128) hz, View.ld_unit_zero (S := S64x128) hz, View.ld_unit_zero (S := S1x128) hz, View.ld_unit_zero (S := S128x64) hz, View.ld_unit_zero (S := S1x64) hz]
  have key : ∀ y : S8000x64.Idx,
      k0_pay1 (k0_pay2 (iblk0 V c 0 t) (iblk0 V c 1 t) (iblk0 V c 2 t) (iblk0 V c 3 t) (iblk0 V c 4 t) (iblk0 V c 5 t) (iblk0 V c 6 t))
        (k0_pay3 (iblk0 V c 0 t) (iblk0 V c 1 t) (iblk0 V c 2 t) (iblk0 V c 3 t) (iblk0 V c 4 t) (iblk0 V c 5 t) (iblk0 V c 6 t))
        (iblk0 V c 7 t) (iblk0 V c 8 t) y = G0 V c (((cfg0.win 9).blk t).view.emb y) := by
    intro y
    obtain ⟨p, q, rfl⟩ : ∃ (p : Fin 8000) (q : Fin 64), y = ix2 p q := ⟨y 0, y 1, eq_ix2 y⟩
    refine (hpay (iblk0 V c 0 t) (iblk0 V c 1 t) (iblk0 V c 2 t) (iblk0 V c 3 t) (iblk0 V c 4 t) (iblk0 V c 5 t) (iblk0 V c 6 t) (iblk0 V c 7 t) (iblk0 V c 8 t) p q).trans ?_
    rw [emb0_9 t p q]
    unfold G0
    simp only [blk0_0 V c t p, blk0_1 V c t p, blk0_2 V c t, blk0_3 V c t, blk0_4 V c t, blk0_5 V c t, blk0_6 V c t, blk0_7 V c t, blk0_8 V c t]
  funext y
  exact key y

/-- An index of the edge array is in point `t`'s block iff each coordinate is in the block's range on its axis. -/
theorem mem_blk0 (t : Fin cfg0.N) (i : S800000x64.Idx) :
    i ∈ ((cfg0.win 9).blk t).view.set ↔ ∀ a : Fin 2, win0_9.index t a * S8000x64.size a ≤ (i a).val ∧ (i a).val < win0_9.index t a * S8000x64.size a + S8000x64.size a := by
  show i ∈ ((View.whole main_v18).slice (win0_9.rect t)).set ↔ _
  rw [View.set_slice_whole, Rect.mem_set_unit]
  exact Iff.rfl

/-- Every edge row lies in some point's block: row `r` in block `r / 8000`. -/
theorem cover0 (i : S800000x64.Idx) : ∃ t : Fin cfg0.N, (cfg0.win 9).flush t = true ∧ i ∈ ((cfg0.win 9).blk t).view.set := by
  have hi0 : (i 0).val < 800000 := (i 0).isLt
  have hi1 : (i 1).val < 64 := (i 1).isLt
  let t : Fin cfg0.N := ⟨(i 0).val / 8000, by have e : cfg0.N = 100 := N_0; omega⟩
  obtain ⟨e0, e1, -⟩ := idx_facts0 t
  have ht : t.val = (i 0).val / 8000 := rfl
  refine ⟨t, flush0_9 t, ?_⟩
  rw [mem_blk0]
  intro a
  match a with
  | ⟨0, _⟩ => show win0_9.index t (0 : Fin 2) * 8000 ≤ (i 0).val ∧ (i 0).val < win0_9.index t (0 : Fin 2) * 8000 + 8000; omega
  | ⟨1, _⟩ => show win0_9.index t (1 : Fin 2) * 64 ≤ (i 1).val ∧ (i 1).val < win0_9.index t (1 : Fin 2) * 64 + 64; omega

/-- THE EDGE ARRAY after the region: `G0` of the arrays as the region finds them. -/
theorem final0 (hpay : Pay0) (c : Dev nD) : (dat0 V c).arrAt 9 cfg0.N = G0 V c :=
  (dat0 V c).arrAt_eq_of_cover 9 (G0 V c) (fun t _ => flushed_eq0 V hpay c t) cover0

end Cert.KernelIdeal.KValue

end
-- ==== Proof.KValue1.lean ====
import proofs.«425826_j50044958933334_3_alg».proof.Proof.Gen.KernelIdeal.Frame
import proofs.«425826_j50044958933334_3_alg».proof.Proof.Spec
import Idealize.ShloMosaic.Lib.ValueIdx
import Idealize.ShloMosaic.Lib.Pipeline.Value

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The node kernel's arithmetic, read at row `p`, place `q` of a block, is the row function of the loaded blocks' rows. -/
def Pay1 : Prop := ∀ (v0 : Vec Ideal S10000x64 .f32) (v3 : Vec Ideal S10000x64 .f32) (v5 : Vec Ideal S64x128 .bf16) (v8 : Vec Ideal S64x128 .bf16) (v12 : Vec Ideal S1x128 .f32) (v19 : Vec Ideal S128x64 .bf16) (v22 v44 v48 : Vec Ideal S1x64 .f32) (p : Fin 10000) (q : Fin 64),
    k1_pay1 (k1_pay2 v0 v3 v5 v8 v12 v19 v22) (k1_pay3 v0 v3 v5 v8 v12 v19 v22) v44 v48 (ix2 p q)
      = Cert.Spec.rowOut (fun k : Fin 64 => v0 (ix2 p k)) (fun k : Fin 64 => v3 (ix2 p k)) (fun (k : Fin 64) (j : Fin 128) => v5 (ix2 k j)) (fun (k : Fin 64) (j : Fin 128) => v8 (ix2 k j)) (fun j : Fin 128 => v12 (ix2 0 j)) (fun (j : Fin 128) (l : Fin 64) => v19 (ix2 j l)) (fun l : Fin 64 => v22 (ix2 0 l)) (fun l : Fin 64 => v44 (ix2 0 l)) (fun l : Fin 64 => v48 (ix2 0 l)) q

/-- The whole node array the region leaves: at node `e`, place `q`, the row function of row `e` of the two streamed
    arrays and of the seven resident ones, as the region finds them. -/
def G1 (c : Dev nD) : S50000x64.Idx → EReal := fun i =>
  Cert.Spec.rowOut (fun k : Fin 64 => V c main_arg1 (ix2 (i 0) k)) (fun k : Fin 64 => V c main_v21 (ix2 (i 0) k))
    (fun (k : Fin 64) (j : Fin 128) => V c main_v23 (ix2 k j)) (fun (k : Fin 64) (j : Fin 128) => V c main_v25 (ix2 k j))
    (fun j : Fin 128 => V c main_v27 (ix2 0 j)) (fun (j : Fin 128) (l : Fin 64) => V c main_v26 (ix2 j l))
    (fun l : Fin 64 => V c main_v28 (ix2 0 l)) (fun l : Fin 64 => V c main_v29 (ix2 0 l)) (fun l : Fin 64 => V c main_v30 (ix2 0 l)) (i 1)

/-- The node region's grid has 5 points. -/
theorem tlt1 (t : Fin cfg1.N) : t.val < 5 := by
  have h := t.isLt
  have e : cfg1.N = 5 := N_1
  omega

/-- The printed index maps over the grid: the two streamed inputs and the output move together, one block of 10000 rows a
    point (block `t` at point `t`), and the seven resident inputs are read whole at every point. -/
theorem idx_facts1 : ∀ t : Fin cfg1.N,
    win1_9.index t (0 : Fin 2) = t.val ∧ win1_9.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- Row `p` of point `t`'s block of the nodes' own features is row `10000 t + p` of the array. -/
theorem blk1_0 (c : Dev nD) (t : Fin cfg1.N) (p : Fin 10000) (k : Fin 64) :
    iblk1 V c 0 t (ix2 p k) = V c main_arg1 (ix2 ⟨t.val * 10000 + p.val, by have := tlt1 t; omega⟩ k) := by
  show V c main_arg1 (((cfg1.win 0).blk t).view.emb (ix2 p k)) = _
  refine congrArg (V c main_arg1) ?_
  obtain ⟨-, -, e0, e1, -⟩ := idx_facts1 t
  funext a; apply Fin.ext
  match a with
  | ⟨0, _⟩ => show win1_0.index t (0 : Fin 2) * 10000 + 1 * p.val = t.val * 10000 + p.val; omega
  | ⟨1, _⟩ => show win1_0.index t (1 : Fin 2) * 64 + 1 * k.val = k.val; omega

/-- Likewise for what each node's incoming edges summed to. -/
theorem blk1_1 (c : Dev nD) (t : Fin cfg1.N) (p : Fin 10000) (k : Fin 64) :
    iblk1 V c 1 t (ix2 p k) = V c main_v21 (ix2 ⟨t.val * 10000 + p.val, by have := tlt1 t; omega⟩ k) := by
  show V c main_v21 (((cfg1.win 1).blk t).view.emb (ix2 p k)) = _
  refine congrArg (V c main_v21) ?_
  obtain ⟨-, -, -, -, e0, e1, -⟩ := idx_facts1 t
  funext a; apply Fin.ext
  match a with
  | ⟨0, _⟩ => show win1_1.index t (0 : Fin 2) * 10000 + 1 * p.val = t.val * 10000 + p.val; omega
  | ⟨1, _⟩ => show win1_1.index t (1 : Fin 2) * 64 + 1 * k.val = k.val; omega

/-- A resident input's block at any point is the whole array. -/
theorem blk1_2 (c : Dev nD) (t : Fin cfg1.N) (k : Fin 64) (j : Fin 128) : iblk1 V c 2 t (ix2 k j) = V c main_v23 (ix2 k j) := by
  show V c main_v23 (((cfg1.win 2).blk t).view.emb (ix2 k j)) = _
  refine congrArg (V c main_v23) ?_
  obtain ⟨-, -, -, -, -, -, e0, e1, -⟩ := idx_facts1 t
  funext a; apply Fin.ext
  match a with
  | ⟨0, _⟩ => show win1_2.index t (0 : Fin 2) * 64 + 1 * k.val = k.val; omega
  | ⟨1, _⟩ => show win1_2.index t (1 : Fin 2) * 128 + 1 * j.val = j.val; omega
theorem blk1_3 (c : Dev nD) (t : Fin cfg1.N) (k : Fin 64) (j : Fin 128) : iblk1 V c 3 t (ix2 k j) = V c main_v25 (ix2 k j) := by
  show V c main_v25 (((cfg1.win 3).blk t).view.emb (ix2 k j)) = _
  refine congrArg (V c main_v25) ?_
  obtain ⟨-, -, -, -, -, -, -, -, e0, e1, -⟩ := idx_facts1 t
  funext a; apply Fin.ext
  match a with
  | ⟨0, _⟩ => show win1_3.index t (0 : Fin 2) * 64 + 1 * k.val = k.val; omega
  | ⟨1, _⟩ => show win1_3.index t (1 : Fin 2) * 128 + 1 * j.val = j.val; omega
theorem blk1_4 (c : Dev nD) (t : Fin cfg1.N) (j : Fin 128) : iblk1 V c 4 t (ix2 0 j) = V c main_v27 (ix2 0 j) := by
  show V c main_v27 (((cfg1.win 4).blk t).view.emb (ix2 0 j)) = _
  refine congrArg (V c main_v27) ?_
  obtain ⟨-, -, -, -, -, -, -, -, -, -, e0, e1, -⟩ := idx_facts1 t
  funext a; apply Fin.ext
  match a with
  | ⟨0, _⟩ => show win1_4.index t (0 : Fin 2) * 1 + 1 * 0 = 0; omega
  | ⟨1, _⟩ => show win1_4.index t (1 : Fin 2) * 128 + 1 * j.val = j.val; omega
theorem blk1_5 (c : Dev nD) (t : Fin cfg1.N) (j : Fin 128) (l : Fin 64) : iblk1 V c 5 t (ix2 j l) = V c main_v26 (ix2 j l) := by
  show V c main_v26 (((cfg1.win 5).blk t).view.emb (ix2 j l)) = _
  refine congrArg (V c main_v26) ?_
  obtain ⟨-, -, -, -, -, -, -, -, -, -, -, -, e0, e1, -⟩ := idx_facts1 t
  funext a; apply Fin.ext
  match a with
  | ⟨0, _⟩ => show win1_5.index t (0 : Fin 2) * 128 + 1 * j.val = j.val; omega
  | ⟨1, _⟩ => show win1_5.index t (1 : Fin 2) * 64 + 1 * l.val = l.val; omega
theorem blk1_6 (c : Dev nD) (t : Fin cfg1.N) (l : Fin 64) : iblk1 V c 6 t (ix2 0 l) = V c main_v28 (ix2 0 l) := by
  show V c main_v28 (((cfg1.win 6).blk t).view.emb (ix2 0 l)) = _
  refine congrArg (V c main_v28) ?_
  obtain ⟨-, -, -, -, -, -, -, -, -, -, -, -, -, -, e0, e1, -⟩ := idx_facts1 t
  funext a; apply Fin.ext
  match a with
  | ⟨0, _⟩ => show win1_6.index t (0 : Fin 2) * 1 + 1 * 0 = 0; omega
  | ⟨1, _⟩ => show win1_6.index t (1 : Fin 2) * 64 + 1 * l.val = l.val; omega
theorem blk1_7 (c : Dev nD) (t : Fin cfg1.N) (l : Fin 64) : iblk1 V c 7 t (ix2 0 l) = V c main_v29 (ix2 0 l) := by
  show V c main_v29 (((cfg1.win 7).blk t).view.emb (ix2 0 l)) = _
  refine congrArg (V c main_v29) ?_
  obtain ⟨-, -, -, -, -, -, -, -, -, -, -, -, -, -, -, -, e0, e1, -⟩ := idx_facts1 t
  funext a; apply Fin.ext
  match a with
  | ⟨0, _⟩ => show win1_7.index t (0 : Fin 2) * 1 + 1 * 0 = 0; omega
  | ⟨1, _⟩ => show win1_7.index t (1 : Fin 2) * 64 + 1 * l.val = l.val; omega
theorem blk1_8 (c : Dev nD) (t : Fin cfg1.N) (l : Fin 64) : iblk1 V c 8 t (ix2 0 l) = V c main_v30 (ix2 0 l) := by
  show V c main_v30 (((cfg1.win 8).blk t).view.emb (ix2 0 l)) = _
  refine congrArg (V c main_v30) ?_
  obtain ⟨-, -, -, -, -, -, -, -, -, -, -, -, -, -, -, -, -, -, e0, e1⟩ := idx_facts1 t
  funext a; apply Fin.ext
  match a with
  | ⟨0, _⟩ => show win1_8.index t (0 : Fin 2) * 1 + 1 * 0 = 0; omega
  | ⟨1, _⟩ => show win1_8.index t (1 : Fin 2) * 64 + 1 * l.val = l.val; omega

/-- Where point `t`'s output block puts its row `p`, place `q`. -/
theorem emb1_9 (t : Fin cfg1.N) (p : Fin 10000) (q : Fin 64) :
    ((cfg1.win 9).blk t).view.emb (ix2 p q) = ix2 ⟨t.val * 10000 + p.val, by have := tlt1 t; omega⟩ q := by
  obtain ⟨e0, e1, -⟩ := idx_facts1 t
  funext a; apply Fin.ext
  match a with
  | ⟨0, _⟩ => show win1_9.index t (0 : Fin 2) * 10000 + 1 * p.val = t.val * 10000 + p.val; omega
  | ⟨1, _⟩ => show win1_9.index t (1 : Fin 2) * 64 + 1 * q.val = q.val; omega

/-- WHAT POINT `t` WRITES BACK is block `t` of `G1`: each row of the block is computed from the same row of the two
    streamed blocks, which is row `10000 t + p` of their arrays. -/
theorem flushed_eq1 (hpay : Pay1) (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  unfold out1_9
  rw [View.canon_unit_zero hz]
  simp only [View.ld_unit_zero (S := S10000x64) hz, View.ld_unit_zero (S := S64x128) hz, View.ld_unit_zero (S := S1x128) hz, View.ld_unit_zero (S := S128x64) hz, View.ld_unit_zero (S := S1x64) hz]
  have key : ∀ y : S10000x64.Idx,
      k1_pay1 (k1_pay2 (iblk1 V c 0 t) (iblk1 V c 1 t) (iblk1 V c 2 t) (iblk1 V c 3 t) (iblk1 V c 4 t) (iblk1 V c 5 t) (iblk1 V c 6 t))
        (k1_pay3 (iblk1 V c 0 t) (iblk1 V c 1 t) (iblk1 V c 2 t) (iblk1 V c 3 t) (iblk1 V c 4 t) (iblk1 V c 5 t) (iblk1 V c 6 t))
        (iblk1 V c 7 t) (iblk1 V c 8 t) y = G1 V c (((cfg1.win 9).blk t).view.emb y) := by
    intro y
    obtain ⟨p, q, rfl⟩ : ∃ (p : Fin 10000) (q : Fin 64), y = ix2 p q := ⟨y 0, y 1, eq_ix2 y⟩
    refine (hpay (iblk1 V c 0 t) (iblk1 V c 1 t) (iblk1 V c 2 t) (iblk1 V c 3 t) (iblk1 V c 4 t) (iblk1 V c 5 t) (iblk1 V c 6 t) (iblk1 V c 7 t) (iblk1 V c 8 t) p q).trans ?_
    rw [emb1_9 t p q]
    unfold G1
    simp only [blk1_0 V c t p, blk1_1 V c t p, blk1_2 V c t, blk1_3 V c t, blk1_4 V c t, blk1_5 V c t, blk1_6 V c t, blk1_7 V c t, blk1_8 V c t]
  funext y
  exact key y

/-- An index of the node array is in point `t`'s block iff each coordinate is in the block's range on its axis. -/
theorem mem_blk1 (t : Fin cfg1.N) (i : S50000x64.Idx) :
    i ∈ ((cfg1.win 9).blk t).view.set ↔ ∀ a : Fin 2, win1_9.index t a * S10000x64.size a ≤ (i a).val ∧ (i a).val < win1_9.index t a * S10000x64.size a + S10000x64.size a := by
  show i ∈ ((View.whole main_v31).slice (win1_9.rect t)).set ↔ _
  rw [View.set_slice_whole, Rect.mem_set_unit]
  exact Iff.rfl

/-- Every node row lies in some point's block: row `r` in block `r / 10000`. -/
theorem cover1 (i : S50000x64.Idx) : ∃ t : Fin cfg1.N, (cfg1.win 9).flush t = true ∧ i ∈ ((cfg1.win 9).blk t).view.set := by
  have hi0 : (i 0).val < 50000 := (i 0).isLt
  have hi1 : (i 1).val < 64 := (i 1).isLt
  let t : Fin cfg1.N := ⟨(i 0).val / 10000, by have e : cfg1.N = 5 := N_1; omega⟩
  obtain ⟨e0, e1, -⟩ := idx_facts1 t
  have ht : t.val = (i 0).val / 10000 := rfl
  refine ⟨t, flush1_9 t, ?_⟩
  rw [mem_blk1]
  intro a
  match a with
  | ⟨0, _⟩ => show win1_9.index t (0 : Fin 2) * 10000 ≤ (i 0).val ∧ (i 0).val < win1_9.index t (0 : Fin 2) * 10000 + 10000; omega
  | ⟨1, _⟩ => show win1_9.index t (1 : Fin 2) * 64 ≤ (i 1).val ∧ (i 1).val < win1_9.index t (1 : Fin 2) * 64 + 64; omega

/-- THE NODE ARRAY after the region: `G1` of the arrays as the region finds them. -/
theorem final1 (hpay : Pay1) (c : Dev nD) : (dat1 V c).arrAt 9 cfg1.N = G1 V c :=
  (dat1 V c).arrAt_eq_of_cover 9 (G1 V c) (fun t _ => flushed_eq1 V hpay c t) cover1

end Cert.KernelIdeal.KValue

end
-- ==== Proof.KFinal.lean ====
/-
  The kernel's two results after its run, as whole-array functions of what each region finds at its entry.

  The edge result is written by the first region and by nothing after it: the second stretch of host operations and the
  second region leave its buffer alone, so at the end it still holds what the first region's write-backs left, which is
  `G0` of the first region's entry contents.  The node result is what the second region's write-backs leave: `G1` of the
  second region's entry contents.
-/
import proofs.«425826_j50044958933334_3_alg».proof.Proof.KRun
import proofs.«425826_j50044958933334_3_alg».proof.Proof.KValue0
import proofs.«425826_j50044958933334_3_alg».proof.Proof.KValue1

set_option maxRecDepth 16384

noncomputable section

namespace Cert.KernelIdeal.KFinal

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- At the first region's exit the edge result's buffer holds `G0` of the region's entry contents. -/
theorem W4_v18 (hpay : KValue.Pay0) (c : Dev nD) : W4 m ρ c (Proc.devRef .tc main_v18) = KValue.G0 (V3 m ρ) c :=
  (W4_arr m ρ c 9).trans (KValue.final0 (V3 m ρ) hpay c)

/-- No host operation after the first region and no window of the second region writes the edge result. -/
theorem W6_v18 (hpay : KValue.Pay0) (c : Dev nD) : W6 m ρ c (Proc.devRef .tc main_v18) = KValue.G0 (V3 m ρ) c :=
  calc W6 m ρ c (Proc.devRef .tc main_v18)
    _ = W5 m ρ c (Proc.devRef .tc main_v18) := W6_of_ne m ρ c main_v18 (by decide)
    _ = W4 m ρ c (Proc.devRef .tc main_v18) := StableHlo.after_of_forall_not_mem (b := Proc.devRef .tc main_v18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = KValue.G0 (V3 m ρ) c := W4_v18 m ρ hpay c

/-- At the second region's exit the node result's buffer holds `G1` of that region's entry contents. -/
theorem W6_v31 (hpay : KValue.Pay1) (c : Dev nD) : W6 m ρ c (Proc.devRef .tc main_v31) = KValue.G1 (V5 m ρ) c :=
  (W6_arr m ρ c 9).trans (KValue.final1 (V5 m ρ) hpay c)

/-- THE KERNEL'S RUN: every weakly fair execution terminates without a fault, the edge result at `G0` of the first
    region's entry contents, the node result at `G1` of the second's, the sixteen arguments as launched. -/
theorem run (hpay0 : KValue.Pay0) (hpay1 : KValue.Pay1) :
    θ_run defs (onTc (τ := τ) (main (F := Ideal))) ⟨m, fun _ => 0, ρ⟩ (fun r => ∀ c : Dev nD,
      r.2.mem ((c.tc : Thread nD τ).loc main_v18) = KValue.G0 (V3 m ρ) c
      ∧ r.2.mem ((c.tc : Thread nD τ).loc main_v31) = KValue.G1 (V5 m ρ) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (W6_v18 m ρ hpay0 c), (h c).2.1.trans (W6_v31 m ρ hpay1 c), (h c).2.2⟩)
    (KRun.run_main m ρ)

end Cert.KernelIdeal.KFinal

end
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.LibTakeGather.lean ====
import Idealize.ShloMosaic.PureOps.Ideal
import Idealize.ShloMosaic.Lib.ValueIdx
import proofs.«425826_j50044958933334_3_alg».proof.Proof.LibGatherScatter

/-!
# A gather of row pairs, read at an index

`table[pairs]` for a table of `N` rows of length `C` and an `[n, 2]` array of ids lowers to a gather whose start
indices are the ids as an `[n, 2, 1]` array and whose result is `[n, 2, C]`: result row `(t, s)` is the table's row at
the id in place `(t, s)`, read as a signed integer and clamped into `[0, N - 1]`.
-/

noncomputable section

open Idealize.ShloMosaic Idealize.ShloMosaic.ValueIdx

namespace Cert.Lib

/-- The dimension numbers of a gather of row pairs: operand `[N, C]`, start indices `[n, 2, 1]`, result `[n, 2, C]`. -/
abbrev takeGatherDims (N C n : Nat)
    (wf : GatherDims.WF ⟨2, ![N, C]⟩ ⟨3, ![n, 2, 1]⟩ ⟨3, ![n, 2, C]⟩ [2] [0] [] [0] [] 2 ![1, C]) :
    GatherDims ⟨2, ![N, C]⟩ ⟨3, ![n, 2, 1]⟩ ⟨3, ![n, 2, C]⟩ where
  offsetDims := [2]
  collapsedSliceDims := [0]
  operandBatchingDims := []
  startIndicesBatchingDims := []
  startIndexMap := [0]
  indexVectorDim := 2
  sliceSizes := ![1, C]
  wf := wf

/-- THE GATHER OF ROW PAIRS READ AT `(t, s, k)`: the operand's row at the clamped start word in place `(t, s)` of the
    start indices, place `k` of that row. -/
theorem take_gather_apply {α : Type} {N C n : Nat} (hN : 0 < N)
    (wf : GatherDims.WF ⟨2, ![N, C]⟩ ⟨3, ![n, 2, 1]⟩ ⟨3, ![n, 2, C]⟩ [2] [0] [] [0] [] 2 ![1, C])
    (x : (⟨2, ![N, C]⟩ : Shape).Idx → α) (idx : IVec ⟨3, ![n, 2, 1]⟩ 32) (t : Fin n) (s : Fin 2) (k : Fin C) :
    Host.gather (takeGatherDims N C n wf) x idx (ix3 t s k) = x (ix2 (clampRow N hN (idx (ix3 t s 0))) k) := by
  unfold Host.gather
  congr 1
  -- axis 0 is collapsed and start-indexed: the clamped start word, no batching and no offset coordinate
  have h0 : (takeGatherDims N C n wf).start (ix3 t s k) idx (0 : Fin 2) + (takeGatherDims N C n wf).batchCoord (ix3 t s k) (0 : Fin 2)
      + (takeGatherDims N C n wf).offCoord (ix3 t s k) (0 : Fin 2) = (clampRow N hN (idx (ix3 t s 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeGatherDims N C n wf).startIndexMap from List.mem_singleton.mpr rfl)]
    -- the start word is read at the result's two batch coordinates, place 0 of the index vector's axis
    have hsi : (takeGatherDims N C n wf).siIdx (ix3 t s k) ⟨List.idxOf (0 : Fin 2) (takeGatherDims N C n wf).startIndexMap,
        List.idxOf_lt_length_iff.2 (List.mem_singleton.mpr rfl)⟩ = ix3 t s 0 := by
      funext b; refine Fin.ext ?_
      match b with
      | ⟨0, _⟩ => rfl
      | ⟨1, _⟩ => rfl
      | ⟨2, _⟩ => rfl
    rw [hsi]
    rfl
  -- axis 1 is kept and not start-indexed: start 0, and the offset coordinate is the result's third coordinate
  have h1 : (takeGatherDims N C n wf).start (ix3 t s k) idx (1 : Fin 2) + (takeGatherDims N C n wf).batchCoord (ix3 t s k) (1 : Fin 2)
      + (takeGatherDims N C n wf).offCoord (ix3 t s k) (1 : Fin 2) = k.val := by
    rw [GatherDims.batchCoord_eq_zero _ _ _ List.not_mem_nil]
    have hnot : (1 : Fin 2) ∉ (takeGatherDims N C n wf).startIndexMap := by
      show (1 : Fin 2) ∉ ([0] : List (Fin 2))
      decide
    have hk : (1 : Fin 2) ∈ (takeGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

end Cert.Lib

end
-- ==== Proof.KHost0.lean ====
/-
  What the host operations before the first region leave in the buffers its windows read, at the ideal instance:
  slices of the first weight matrix, the narrowing to the shorter float type (the identity on the extended reals),
  vectors recast as one-row matrices, and the gathered end-node features.
-/
import proofs.«425826_j50044958933334_3_alg».proof.Proof.Gen.KernelIdeal.Frame
import proofs.«425826_j50044958933334_3_alg».proof.Proof.Spec
import proofs.«425826_j50044958933334_3_alg».proof.Proof.LibTakeGather
import Idealize.ShloMosaic.Lib.StableHlo.Run
import Idealize.ShloMosaic.Lib.ValueLayout
import Idealize.ShloMosaic.Lib.StableHlo.Predicate
import Idealize.ShloMosaic.Lib.ReduceAll

set_option maxRecDepth 16384

noncomputable section

namespace Cert.KernelIdeal.KHost

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The edge features reach the first region as launched: no host operation writes them. -/
theorem V3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results

/-- Rows 0 to 127 of the first weight matrix. -/
theorem V3_v10 (c : Dev nD) (k : Fin 128) (j : Fin 128) :
    V3 m ρ c main_v10 (ix2 k j) = m ((c : Thread nD τ).loc main_arg4) (ix2 ⟨k.val, by omega⟩ j) := by
  show StableHlo.after hostOps0_2 (StableHlo.after hostOps0_1 (StableHlo.after hostOps0 (W0 m ρ c))) (Proc.devRef .tc main_v10) (ix2 k j) = _
  dsimp only [hostOps0_2, hostOps0_1, hostOps0]
  after_results
  show extractStridedSlice S128x128 ![0, 0] (W0 m ρ c (Proc.devRef .tc main_arg4)) slices_S192x128_S128x128_0_0 (ix2 k j) = _
  exact slice2_axis0_apply 0 _ _ k j ⟨k.val, by omega⟩ (Nat.zero_add _).symm

/-- Rows 128 to 191 of the first weight matrix. -/
theorem V3_v12 (c : Dev nD) (k : Fin 64) (j : Fin 128) :
    V3 m ρ c main_v12 (ix2 k j) = m ((c : Thread nD τ).loc main_arg4) (ix2 ⟨128 + k.val, by omega⟩ j) := by
  show StableHlo.after hostOps0_2 (StableHlo.after hostOps0_1 (StableHlo.after hostOps0 (W0 m ρ c))) (Proc.devRef .tc main_v12) (ix2 k j) = _
  dsimp only [hostOps0_2, hostOps0_1, hostOps0]
  after_results
  show extractStridedSlice S64x128 ![128, 0] (W0 m ρ c (Proc.devRef .tc main_arg4)) slices_S192x128_S64x128_128_0 (ix2 k j) = _
  exact slice2_axis0_apply 128 _ _ k j ⟨128 + k.val, by omega⟩ rfl

/-- The second weight matrix. -/
theorem V3_v13 (c : Dev nD) (j : Fin 128) (l : Fin 64) :
    V3 m ρ c main_v13 (ix2 j l) = m ((c : Thread nD τ).loc main_arg6) (ix2 j l) := by
  show StableHlo.after hostOps0_2 (StableHlo.after hostOps0_1 (StableHlo.after hostOps0 (W0 m ρ c))) (Proc.devRef .tc main_v13) (ix2 j l) = _
  dsimp only [hostOps0_2, hostOps0_1, hostOps0]
  after_results
  rfl

/-- The first bias as a one-row matrix. -/
theorem V3_v14 (c : Dev nD) (j : Fin 128) :
    V3 m ρ c main_v14 (ix2 0 j) = m ((c : Thread nD τ).loc main_arg5) (ix1 j) := by
  show StableHlo.after hostOps0_2 (StableHlo.after hostOps0_1 (StableHlo.after hostOps0 (W0 m ρ c))) (Proc.devRef .tc main_v14) (ix2 0 j) = _
  dsimp only [hostOps0_2, hostOps0_1, hostOps0]
  after_results
  exact shapeCast_a_1a_apply _ _ 0 j

/-- The second bias as a one-row matrix. -/
theorem V3_v15 (c : Dev nD) (l : Fin 64) :
    V3 m ρ c main_v15 (ix2 0 l) = m ((c : Thread nD τ).loc main_arg7) (ix1 l) := by
  show StableHlo.after hostOps0_2 (StableHlo.after hostOps0_1 (StableHlo.after hostOps0 (W0 m ρ c))) (Proc.devRef .tc main_v15) (ix2 0 l) = _
  dsimp only [hostOps0_2, hostOps0_1, hostOps0]
  after_results
  exact shapeCast_a_1a_apply _ _ 0 l

/-- The normalisation's scale as a one-row matrix. -/
theorem V3_v16 (c : Dev nD) (l : Fin 64) :
    V3 m ρ c main_v16 (ix2 0 l) = m ((c : Thread nD τ).loc main_arg8) (ix1 l) := by
  show StableHlo.after hostOps0_2 (StableHlo.after hostOps0_1 (StableHlo.after hostOps0 (W0 m ρ c))) (Proc.devRef .tc main_v16) (ix2 0 l) = _
  dsimp only [hostOps0_2, hostOps0_1, hostOps0]
  after_results
  exact shapeCast_a_1a_apply _ _ 0 l

/-- The normalisation's shift as a one-row matrix. -/
theorem V3_v17 (c : Dev nD) (l : Fin 64) :
    V3 m ρ c main_v17 (ix2 0 l) = m ((c : Thread nD τ).loc main_arg9) (ix1 l) := by
  show StableHlo.after hostOps0_2 (StableHlo.after hostOps0_1 (StableHlo.after hostOps0 (W0 m ρ c))) (Proc.devRef .tc main_v17) (ix2 0 l) = _
  dsimp only [hostOps0_2, hostOps0_1, hostOps0]
  after_results
  exact shapeCast_a_1a_apply _ _ 0 l

/-! ## Index words below 50000 -/

/-- An index word below 50000 is not negative: the wrap of negatives keeps it. -/
theorem wrap_eq (w : BitVec 32) (hw : w.toNat < 50000) :
    Scalar.select (IntOp.cmpi .slt w 0#32) (IntOp.addi w 50000#32) w = w := by
  have h : ¬ IntOp.cmpi .slt w 0#32 = 1#1 := by
    rw [StableHlo.Predicate.slt_iff_toNat (by omega) (by decide)]
    exact Nat.not_lt_zero _
  unfold Scalar.select
  exact if_neg h

/-- An index word below 50000 passes the range test `0 ≤ w ≤ 49999`. -/
theorem inRange_eq (w : BitVec 32) (hw : w.toNat < 50000) :
    IntOp.andi (IntOp.cmpi .sge w 0#32) (IntOp.cmpi .sle w 49999#32) = 1#1 := by
  rw [IntOp.andi_eq_one]
  refine ⟨(StableHlo.Predicate.sge_iff_toNat (by omega) (by decide)).2 (Nat.zero_le _),
    (StableHlo.Predicate.sle_iff_toNat (by omega) (by decide)).2 ?_⟩
  show w.toNat ≤ 49999
  omega

/-- For an index word below 50000 the gather's clamp is the word's node. -/
theorem clampRow_eq (w : BitVec 32) (hw : w.toNat < 50000) :
    Cert.Lib.clampRow 50000 (by decide) w = Cert.Spec.nodeOf w := by
  apply Fin.ext
  show min w.toInt.toNat (50000 - 1) = w.toNat % 50000
  rw [StableHlo.Predicate.toInt_eq_toNat_of_lt (by omega), Int.toNat_natCast, Nat.mod_eq_of_lt hw]
  omega

/-! ## A reduction by `and` of all ones -/

theorem foldl_andi_one {ι : Type} (x : ι → BitVec 1) (hx : ∀ i, x i = 1#1) :
    ∀ l : List ι, l.foldl (fun r i => IntOp.andi r (x i)) 1#1 = 1#1
  | [] => rfl
  | a :: l => by
    have h1 : IntOp.andi 1#1 1#1 = 1#1 := by decide
    rw [List.foldl_cons, hx a, h1]
    exact foldl_andi_one x hx l

/-- A reduction by `and`, from 1, of an array of ones is 1 everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_one x hx _

/-! ## The pair of index words of an edge, and the node features, after the first stretch -/

theorem W1_arg1 (c : Dev nD) : W1 m ρ c (Proc.devRef .tc main_arg1) = m ((c : Thread nD τ).loc main_arg1) := by
  show StableHlo.after hostOps0 (W0 m ρ c) (Proc.devRef .tc main_arg1) = _
  dsimp only [hostOps0]
  after_results

set_option maxHeartbeats 2000000 in
/-- The pair array at `(e, s)`: the receiver's word (row 1 of the index array) first, then the sender's (row 0). -/
theorem W1_v6 (c : Dev nD) (e : Fin 800000) (s : Fin 2) :
    W1 m ρ c (Proc.devRef .tc main_v6) (ix2 e s)
      = m ((c : Thread nD τ).loc main_arg2) (ix2 (if s.val = 0 then 1 else 0) e) := by
  show StableHlo.after hostOps0 (W0 m ρ c) (Proc.devRef .tc main_v6) (ix2 e s) = _
  dsimp only [hostOps0]
  after_results
  obtain ⟨sv, hs⟩ := s
  match sv, hs with
  | 0, _ =>
    refine (concatenate_pair_apply_left (t := S800000x2) (s₁ := S800000x1) (s₂ := S800000x1) (1 : Fin 2) _ _ _ (ix2 e (0 : Fin 2)) rfl (ix2 e (0 : Fin 1))
      (fun b => by match b with | ⟨0, _⟩ => rfl | ⟨1, _⟩ => rfl)).trans ?_
    refine (broadcastInDim_apply _ _ _ (ix2 e (0 : Fin 1)) (ix1 e) (fun a => by match a with | ⟨0, _⟩ => rfl)).trans ?_
    show shapeCast S800000 (extractStridedSlice S1x800000 ![1, 0] (m ((c : Thread nD τ).loc main_arg2)) slices_S2x800000_S1x800000_1_0)
      shapeCasts_S1x800000_S800000 (ix1 e) = _
    refine (shapeCast_1a_a_apply _ _ e).trans ?_
    exact slice2_axis0_apply 1 _ _ (0 : Fin 1) e ⟨1, by omega⟩ rfl
  | 1, _ =>
    refine (concatenate_pair_apply_right (t := S800000x2) (s₁ := S800000x1) (s₂ := S800000x1) (1 : Fin 2) _ _ _ (ix2 e (1 : Fin 2)) rfl rfl (ix2 e (0 : Fin 1))
      (fun b hb => by match b with | ⟨0, _⟩ => rfl | ⟨1, _⟩ => exact absurd rfl hb) rfl).trans ?_
    refine (broadcastInDim_apply _ _ _ (ix2 e (0 : Fin 1)) (ix1 e) (fun a => by match a with | ⟨0, _⟩ => rfl)).trans ?_
    show shapeCast S800000 (extractStridedSlice S1x800000 ![0, 0] (m ((c : Thread nD τ).loc main_arg2)) slices_S2x800000_S1x800000_0_0)
      shapeCasts_S1x800000_S800000 (ix1 e) = _
    refine (shapeCast_1a_a_apply _ _ e).trans ?_
    exact slice2_axis0_apply 0 _ _ (0 : Fin 1) e ⟨0, by omega⟩ rfl

/-! ## The take, as a function of the pair array and the table -/

/-- The take's start indices: the pair array, a negative word counted from the end, as an `[800000, 2, 1]` array. -/
def startIdx (w6 : IVec S800000x2 32) : IVec S800000x2x1 32 :=
  broadcastInDim S800000x2x1 ![0, 1] bcast_S800000x2_S800000x2x1_0_1
    (select (cmpi .slt w6 (broadcastInDim S800000x2 ![] bcast_S_S800000x2 (constantI S_ 32 0#32)))
      (addi w6 (broadcastInDim S800000x2 ![] bcast_S_S800000x2 (constantI S_ 32 50000#32))) w6)

/-- The take's range mask: 1 where the start word lies in `[0, 49999]`. -/
def rangeMask (w6 : IVec S800000x2 32) : IVec S800000x2 1 :=
  Host.reduce IntOp.andi
    (andi (cmpi .sge (startIdx w6) (broadcastInDim S800000x2x1 ![] bcast_S_S800000x2x1 (constantI S_ 32 0#32)))
      (cmpi .sle (startIdx w6) (broadcastInDim S800000x2x1 ![0, 1, 2] bcast_S1x1x1_S800000x2x1_0_1_2
        (broadcastInDim S1x1x1 ![2] bcast_S1_S1x1x1_2 (constantI S1 32 49999#32)))))
    (constantI S_ 1 1#1) reducesTo_S800000x2x1_S800000x2_d2 h_S_

/-- The take: the gathered rows where the mask is 1, the fill elsewhere. -/
def takeTerm (A : S50000x64.Idx → EReal) (w6 : IVec S800000x2 32) : S800000x2x64.Idx → EReal :=
  select (broadcastInDim S800000x2x64 ![0, 1] bcast_S800000x2_S800000x2x64_0_1 (rangeMask w6))
    (Host.gather gather_S50000x64_S800000x2x1_S800000x2x64_2_0_n_n_0_2_164 A (startIdx w6))
    (broadcastInDim S800000x2x64 ![] bcast_S_S800000x2x64 (constant (F := Ideal) S_ .f32 0x7FC00000#32))

/-- A select of arrays at an index is the select of the elements. -/
theorem select_apply {s : Shape} {α : Type} (c : IVec s 1) (a b : s.Idx → α) (i : s.Idx) :
    select c a b i = Scalar.select (c i) (a i) (b i) := rfl

/-- With every word below 50000 no word is wrapped: the start word at `(e, s)` is the pair array's. -/
theorem startIdx_apply (w6 : IVec S800000x2 32) (hw : ∀ i, (w6 i).toNat < 50000) (e : Fin 800000) (s : Fin 2) (z : Fin 1) :
    startIdx w6 (ix3 e s z) = w6 (ix2 e s) := by
  unfold startIdx
  refine (broadcastInDim_apply _ _ _ (ix3 e s z) (ix2 e s) (fun a => by match a with | ⟨0, _⟩ => rfl | ⟨1, _⟩ => rfl)).trans ?_
  show Scalar.select (IntOp.cmpi .slt (w6 (ix2 e s)) 0#32) (IntOp.addi (w6 (ix2 e s)) 50000#32) (w6 (ix2 e s)) = _
  exact wrap_eq _ (hw _)

/-- With every word below 50000 the range mask is all ones. -/
theorem rangeMask_apply (w6 : IVec S800000x2 32) (hw : ∀ i, (w6 i).toNat < 50000) (j : S800000x2.Idx) :
    rangeMask w6 j = 1#1 := by
  unfold rangeMask
  refine reduce_andi_ones _ _ _ _ (fun i => ?_) (fun _ => rfl) j
  obtain ⟨e, s, z, rfl⟩ : ∃ e s z, i = ix3 e s z := ⟨_, _, _, eq_ix3 i⟩
  show IntOp.andi (IntOp.cmpi .sge (startIdx w6 (ix3 e s z)) 0#32) (IntOp.cmpi .sle (startIdx w6 (ix3 e s z)) 49999#32) = 1#1
  rw [startIdx_apply w6 hw]
  exact inRange_eq _ (hw _)

/-- THE TAKE READ AT `(e, s, f)`, every word below 50000: the table's row at the word's node, place `f`. -/
theorem takeTerm_apply (A : S50000x64.Idx → EReal) (w6 : IVec S800000x2 32) (hw : ∀ i, (w6 i).toNat < 50000)
    (e : Fin 800000) (s : Fin 2) (f : Fin 64) :
    takeTerm A w6 (ix3 e s f) = A (ix2 (Cert.Spec.nodeOf (w6 (ix2 e s))) f) := by
  have hm : broadcastInDim S800000x2x64 ![0, 1] bcast_S800000x2_S800000x2x64_0_1 (rangeMask w6) (ix3 e s f) = 1#1 :=
    (broadcastInDim_apply _ _ _ (ix3 e s f) (ix2 e s) (fun a => by match a with | ⟨0, _⟩ => rfl | ⟨1, _⟩ => rfl)).trans
      (rangeMask_apply w6 hw _)
  rw [takeTerm, select_apply, hm]
  unfold Scalar.select
  refine (if_pos rfl).trans ?_
  refine (Cert.Lib.take_gather_apply (by decide) gather_S50000x64_S800000x2x1_S800000x2x64_2_0_n_n_0_2_164_wf A (startIdx w6) e s f).trans ?_
  rw [startIdx_apply w6 hw, clampRow_eq _ (hw _)]

/-! ## Contents moved between a buffer's own type and the type of the value it holds: the identity -/

theorem ofBuf_toBuf {T : BufTy} (x : StableHlo.TRef sig T) (v : T.Contents (Elt Ideal)) : x.ofBuf (x.toBuf v) = v := by
  obtain ⟨r, rfl, _, _⟩ := x
  rfl

theorem ofBuf_v6 (p1 p2 p3) (v : main_v6.ty.Contents (Elt Ideal)) :
    (StableHlo.TRef.of (T := ⟨S800000x2, .i32⟩) main_v6 p1 p2 p3).ofBuf v = v := rfl

theorem ofBuf_arg1 (p1 p2 p3) (v : main_arg1.ty.Contents (Elt Ideal)) :
    (StableHlo.TRef.of (T := ⟨S50000x64, .f32⟩) main_arg1 p1 p2 p3).ofBuf v = v := rfl

theorem toBuf_v7 (p1 p2 p3) (v : (⟨S800000x2x64, .f32⟩ : BufTy).Contents (Elt Ideal)) :
    (StableHlo.TRef.of (T := ⟨S800000x2x64, .f32⟩) main_v7 p1 p2 p3).toBuf v = v := rfl

set_option maxHeartbeats 2000000 in
/-- After the take's stretch its result buffer holds the take of the node features at the pair array. -/
theorem W2_v7 (c : Dev nD) :
    (W2 m ρ c (Proc.devRef .tc main_v7) : S800000x2x64.Idx → EReal)
      = takeTerm (W1 m ρ c (Proc.devRef .tc main_arg1)) (W1 m ρ c (Proc.devRef .tc main_v6)) := by
  show StableHlo.after hostOps0_1 (W1 m ρ c) (Proc.devRef .tc main_v7) = _
  generalize W1 m ρ c = X
  dsimp only [hostOps0_1]
  after_results_simp
  simp only [ofBuf_toBuf, ofBuf_v6, ofBuf_arg1, toBuf_v7]
  rfl

/-! ## Window 0 of the first region: the two end nodes' features side by side -/

set_option maxHeartbeats 2000000 in
/-- THE GATHERED END-NODE FEATURES: at edge `e`, place `k`, the receiver's features at places 0 to 63 and the sender's
    at places 64 to 127, every index word naming a node. -/
theorem V3_v8 (c : Dev nD) (hidx : ∀ i, (m ((c : Thread nD τ).loc main_arg2) i).toNat < 50000) (e : Fin 800000) (k : Fin 128) :
    V3 m ρ c main_v8 (ix2 e k)
      = Cert.Spec.ends (fun n k => m ((c : Thread nD τ).loc main_arg1) (ix2 n k))
          (Cert.Spec.nodeOf (m ((c : Thread nD τ).loc main_arg2) (ix2 1 e)))
          (Cert.Spec.nodeOf (m ((c : Thread nD τ).loc main_arg2) (ix2 0 e))) k := by
  -- every word of the pair array names a node
  have hX : ∀ i, ((W1 m ρ c (Proc.devRef .tc main_v6) : S800000x2.Idx → BitVec 32) i).toNat < 50000 := fun i => by
    obtain ⟨e', s', rfl⟩ : ∃ e' s', i = ix2 e' s' := ⟨_, _, eq_ix2 i⟩
    rw [W1_v6]
    exact hidx _
  -- the recast `[800000, 2, 64] → [800000, 128]` puts `(s, f)` at place `64 s + f`
  have hcast : ∀ (s : Fin 2) (f : Fin 64), k.val = 64 * s.val + f.val →
      V3 m ρ c main_v8 (ix2 e k)
        = takeTerm (W1 m ρ c (Proc.devRef .tc main_arg1)) (W1 m ρ c (Proc.devRef .tc main_v6)) (ix3 e s f) := by
    intro s f hk
    rw [← W2_v7]
    show StableHlo.after hostOps0_2 (W2 m ρ c) (Proc.devRef .tc main_v8) (ix2 e k) = _
    generalize W2 m ρ c = Y
    dsimp only [hostOps0_2]
    after_results
    show shapeCast S800000x128 (Y (Proc.devRef .tc main_v7)) shapeCasts_S800000x2x64_S800000x128 (ix2 e k) = _
    exact shapeCast_apply _ _ (ix2 e k) (ix3 e s f) (by
      rw [Shape.rowMajor_val_three, Shape.rowMajor_val_two]
      show (e.val * 2 + s.val) * 64 + f.val = e.val * 128 + k.val
      omega)
  unfold Cert.Spec.ends
  split
  · rename_i h
    rw [hcast 0 ⟨k.val, h⟩ (by simp), takeTerm_apply _ _ hX, W1_arg1, W1_v6]
    rfl
  · rename_i h
    rw [hcast 1 ⟨k.val - 64, by omega⟩ (by simp; omega), takeTerm_apply _ _ hX, W1_arg1, W1_v6]
    rfl

end Cert.KernelIdeal.KHost

end
-- ==== Proof.KHost1.lean ====
/-
  What the host operations between the two regions leave in the buffers the second region's windows read, at the ideal
  instance: the node features as launched, the scatter-add of the first region's result onto the receivers (kept as
  one term), slices of the node network's first weight matrix, and vectors recast as one-row matrices.
-/
import proofs.«425826_j50044958933334_3_alg».proof.Proof.Gen.KernelIdeal.Frame
import proofs.«425826_j50044958933334_3_alg».proof.Proof.Spec
import proofs.«425826_j50044958933334_3_alg».proof.Proof.LibTakeGather
import Idealize.ShloMosaic.Lib.StableHlo.Run
import Idealize.ShloMosaic.Lib.ValueLayout

set_option maxRecDepth 16384

noncomputable section

namespace Cert.KernelIdeal.KHost

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-! ## An argument no operation writes, at the first region's exit -/

theorem W4_arg1 (c : Dev nD) : W4 m ρ c (Proc.devRef .tc main_arg1) = m ((c : Thread nD τ).loc main_arg1) := by
  rw [W4_of_ne m ρ c main_arg1 (by decide)]
  show StableHlo.after hostOps0_2 (StableHlo.after hostOps0_1 (StableHlo.after hostOps0 (W0 m ρ c))) (Proc.devRef .tc main_arg1) = _
  dsimp only [hostOps0_2, hostOps0_1, hostOps0]
  after_results

theorem W4_arg10 (c : Dev nD) : W4 m ρ c (Proc.devRef .tc main_arg10) = m ((c : Thread nD τ).loc main_arg10) := by
  rw [W4_of_ne m ρ c main_arg10 (by decide)]
  show StableHlo.after hostOps0_2 (StableHlo.after hostOps0_1 (StableHlo.after hostOps0 (W0 m ρ c))) (Proc.devRef .tc main_arg10) = _
  dsimp only [hostOps0_2, hostOps0_1, hostOps0]
  after_results

theorem W4_arg11 (c : Dev nD) : W4 m ρ c (Proc.devRef .tc main_arg11) = m ((c : Thread nD τ).loc main_arg11) := by
  rw [W4_of_ne m ρ c main_arg11 (by decide)]
  show StableHlo.after hostOps0_2 (StableHlo.after hostOps0_1 (StableHlo.after hostOps0 (W0 m ρ c))) (Proc.devRef .tc main_arg11) = _
  dsimp only [hostOps0_2, hostOps0_1, hostOps0]
  after_results

theorem W4_arg12 (c : Dev nD) : W4 m ρ c (Proc.devRef .tc main_arg12) = m ((c : Thread nD τ).loc main_arg12) := by
  rw [W4_of_ne m ρ c main_arg12 (by decide)]
  show StableHlo.after hostOps0_2 (StableHlo.after hostOps0_1 (StableHlo.after hostOps0 (W0 m ρ c))) (Proc.devRef .tc main_arg12) = _
  dsimp only [hostOps0_2, hostOps0_1, hostOps0]
  after_results

theorem W4_arg13 (c : Dev nD) : W4 m ρ c (Proc.devRef .tc main_arg13) = m ((c : Thread nD τ).loc main_arg13) := by
  rw [W4_of_ne m ρ c main_arg13 (by decide)]
  show StableHlo.after hostOps0_2 (StableHlo.after hostOps0_1 (StableHlo.after hostOps0 (W0 m ρ c))) (Proc.devRef .tc main_arg13) = _
  dsimp only [hostOps0_2, hostOps0_1, hostOps0]
  after_results

theorem W4_arg14 (c : Dev nD) : W4 m ρ c (Proc.devRef .tc main_arg14) = m ((c : Thread nD τ).loc main_arg14) := by
  rw [W4_of_ne m ρ c main_arg14 (by decide)]
  show StableHlo.after hostOps0_2 (StableHlo.after hostOps0_1 (StableHlo.after hostOps0 (W0 m ρ c))) (Proc.devRef .tc main_arg14) = _
  dsimp only [hostOps0_2, hostOps0_1, hostOps0]
  after_results

theorem W4_arg15 (c : Dev nD) : W4 m ρ c (Proc.devRef .tc main_arg15) = m ((c : Thread nD τ).loc main_arg15) := by
  rw [W4_of_ne m ρ c main_arg15 (by decide)]
  show StableHlo.after hostOps0_2 (StableHlo.after hostOps0_1 (StableHlo.after hostOps0 (W0 m ρ c))) (Proc.devRef .tc main_arg15) = _
  dsimp only [hostOps0_2, hostOps0_1, hostOps0]
  after_results

/-- The receivers' index words at the first region's exit: row 1 of the index array, as a vector. -/
theorem W4_v3 (c : Dev nD) : W4 m ρ c (Proc.devRef .tc main_v3)
    = shapeCast S800000 (extractStridedSlice S1x800000 ![1, 0] (m ((c : Thread nD τ).loc main_arg2)) slices_S2x800000_S1x800000_1_0)
        shapeCasts_S1x800000_S800000 := by
  rw [W4_of_ne m ρ c main_v3 (by decide)]
  show StableHlo.after hostOps0_2 (StableHlo.after hostOps0_1 (StableHlo.after hostOps0 (W0 m ρ c))) (Proc.devRef .tc main_v3) = _
  dsimp only [hostOps0_2, hostOps0_1, hostOps0]
  after_results
  rfl

/-! ## The second region's windows -/

/-- The node features reach the second region as launched. -/
theorem V5_arg1 (c : Dev nD) : V5 m ρ c main_arg1 = m ((c : Thread nD τ).loc main_arg1) := by
  show StableHlo.after hostOps1 (W4 m ρ c) (Proc.devRef .tc main_arg1) = _
  dsimp only [hostOps1]
  after_results
  exact W4_arg1 m ρ c

/-- The aggregated edge features: the scatter-add, onto zeros, of the first region's result at the receivers' index
    words.  The scatter-add is kept as one term. -/
theorem V5_v21 (c : Dev nD) : V5 m ρ c main_v21
    = Host.scatterAdd scatter_S50000x64_S800000x1_S800000x64_1_0_0_1
        (broadcastInDim S50000x64 ![] bcast_S_S50000x64 (constant (F := Ideal) S_ .f32 0x00000000#32))
        (broadcastInDim S800000x1 ![0] bcast_S800000_S800000x1_0
          (shapeCast S800000 (extractStridedSlice S1x800000 ![1, 0] (m ((c : Thread nD τ).loc main_arg2)) slices_S2x800000_S1x800000_1_0)
            shapeCasts_S1x800000_S800000))
        (W4 m ρ c (Proc.devRef .tc main_v18)) := by
  show StableHlo.after hostOps1 (W4 m ρ c) (Proc.devRef .tc main_v21) = _
  dsimp only [hostOps1]
  after_results
  rw [W4_v3]

/-- The scatter's index word of edge `e`: the receiver's word, row 1 of the index array. -/
theorem recvIdx_apply (c : Dev nD) (e : Fin 800000) :
    broadcastInDim S800000x1 ![0] bcast_S800000_S800000x1_0
        (shapeCast S800000 (extractStridedSlice S1x800000 ![1, 0] (m ((c : Thread nD τ).loc main_arg2)) slices_S2x800000_S1x800000_1_0)
          shapeCasts_S1x800000_S800000) (ix2 e (0 : Fin 1))
      = m ((c : Thread nD τ).loc main_arg2) (ix2 1 e) := by
  refine (broadcastInDim_apply _ _ _ (ix2 e (0 : Fin 1)) (ix1 e) (fun a => by match a with | ⟨0, _⟩ => rfl)).trans ?_
  refine (shapeCast_1a_a_apply _ _ e).trans ?_
  exact slice2_axis0_apply 1 _ _ (0 : Fin 1) e ⟨1, by omega⟩ rfl

/-- Rows 0 to 63 of the node network's first weight matrix. -/
theorem V5_v23 (c : Dev nD) (k : Fin 64) (j : Fin 128) :
    V5 m ρ c main_v23 (ix2 k j) = m ((c : Thread nD τ).loc main_arg10) (ix2 ⟨k.val, by omega⟩ j) := by
  show StableHlo.after hostOps1 (W4 m ρ c) (Proc.devRef .tc main_v23) (ix2 k j) = _
  dsimp only [hostOps1]
  after_results
  rw [W4_arg10]
  show extractStridedSlice S64x128 ![0, 0] (m ((c : Thread nD τ).loc main_arg10)) slices_S128x128_S64x128_0_0 (ix2 k j) = _
  exact slice2_axis0_apply 0 _ _ k j ⟨k.val, by omega⟩ (Nat.zero_add _).symm

/-- Rows 64 to 127 of the node network's first weight matrix. -/
theorem V5_v25 (c : Dev nD) (k : Fin 64) (j : Fin 128) :
    V5 m ρ c main_v25 (ix2 k j) = m ((c : Thread nD τ).loc main_arg10) (ix2 ⟨64 + k.val, by omega⟩ j) := by
  show StableHlo.after hostOps1 (W4 m ρ c) (Proc.devRef .tc main_v25) (ix2 k j) = _
  dsimp only [hostOps1]
  after_results
  rw [W4_arg10]
  show extractStridedSlice S64x128 ![64, 0] (m ((c : Thread nD τ).loc main_arg10)) slices_S128x128_S64x128_64_0 (ix2 k j) = _
  exact slice2_axis0_apply 64 _ _ k j ⟨64 + k.val, by omega⟩ rfl

/-- The node network's second weight matrix. -/
theorem V5_v26 (c : Dev nD) (j : Fin 128) (l : Fin 64) :
    V5 m ρ c main_v26 (ix2 j l) = m ((c : Thread nD τ).loc main_arg12) (ix2 j l) := by
  show StableHlo.after hostOps1 (W4 m ρ c) (Proc.devRef .tc main_v26) (ix2 j l) = _
  dsimp only [hostOps1]
  after_results
  rw [W4_arg12]
  rfl

/-- The node network's first bias as a one-row matrix. -/
theorem V5_v27 (c : Dev nD) (j : Fin 128) :
    V5 m ρ c main_v27 (ix2 0 j) = m ((c : Thread nD τ).loc main_arg11) (ix1 j) := by
  show StableHlo.after hostOps1 (W4 m ρ c) (Proc.devRef .tc main_v27) (ix2 0 j) = _
  dsimp only [hostOps1]
  after_results
  rw [W4_arg11]
  exact shapeCast_a_1a_apply _ _ 0 j

/-- The node network's second bias as a one-row matrix. -/
theorem V5_v28 (c : Dev nD) (l : Fin 64) :
    V5 m ρ c main_v28 (ix2 0 l) = m ((c : Thread nD τ).loc main_arg13) (ix1 l) := by
  show StableHlo.after hostOps1 (W4 m ρ c) (Proc.devRef .tc main_v28) (ix2 0 l) = _
  dsimp only [hostOps1]
  after_results
  rw [W4_arg13]
  exact shapeCast_a_1a_apply _ _ 0 l

/-- The node network's normalisation's scale as a one-row matrix. -/
theorem V5_v29 (c : Dev nD) (l : Fin 64) :
    V5 m ρ c main_v29 (ix2 0 l) = m ((c : Thread nD τ).loc main_arg14) (ix1 l) := by
  show StableHlo.after hostOps1 (W4 m ρ c) (Proc.devRef .tc main_v29) (ix2 0 l) = _
  dsimp only [hostOps1]
  after_results
  rw [W4_arg14]
  exact shapeCast_a_1a_apply _ _ 0 l

/-- The node network's normalisation's shift as a one-row matrix. -/
theorem V5_v30 (c : Dev nD) (l : Fin 64) :
    V5 m ρ c main_v30 (ix2 0 l) = m ((c : Thread nD τ).loc main_arg15) (ix1 l) := by
  show StableHlo.after hostOps1 (W4 m ρ c) (Proc.devRef .tc main_v30) (ix2 0 l) = _
  dsimp only [hostOps1]
  after_results
  rw [W4_arg15]
  exact shapeCast_a_1a_apply _ _ 0 l

end Cert.KernelIdeal.KHost

end
-- ==== Proof.KBridge.lean ====
/-
  The kernel's two results as the specification's arrays.

  What the first region finds: the gathered array holds, in row `e`, the features of edge `e`'s receiver and then of its
  sender (every index word names a node, so the range test keeps every gathered row); the bf16 copies of the weight
  matrices hold the matrices' entries (a change of format is the identity on the extended reals); the reshaped vectors hold
  the vectors.  So the first region's array is the updated edge features.  The second region finds the nodes' features,
  the scatter-add of those updated edge features onto their receivers, and its own weights: its array is the updated node
  features.
-/
import proofs.«425826_j50044958933334_3_alg».proof.Proof.KFinal
import proofs.«425826_j50044958933334_3_alg».proof.Proof.KHost0
import proofs.«425826_j50044958933334_3_alg».proof.Proof.KHost1

set_option maxRecDepth 16384

noncomputable section

namespace Cert.KernelIdeal.KBridge
open Cert.KernelIdeal Cert.KernelIdeal.Gen Idealize.ShloMosaic Idealize.ShloMosaic.TcCoe Idealize.ShloMosaic.ValueIdx Idealize.SL.Sem
variable (m : (ℓ : Loc nD τ sig) → Buf (Elt Ideal) ℓ) (ρ : Dev nD → PrngReg)

/-- THE UPDATED EDGE FEATURES as one array: the specification's row function of the argument arrays. -/
def edgeArr (c : Dev nD) : S800000x64.Idx → EReal := fun i =>
  Cert.Spec.edgeOut (fun e k => (m ((c : Thread nD τ).loc main_arg0)) (ix2 e k)) (fun n k => (m ((c : Thread nD τ).loc main_arg1)) (ix2 n k))
    (fun e => Cert.Spec.nodeOf ((m ((c : Thread nD τ).loc main_arg2)) (ix2 1 e))) (fun e => Cert.Spec.nodeOf ((m ((c : Thread nD τ).loc main_arg2)) (ix2 0 e)))
    (fun k j => (m ((c : Thread nD τ).loc main_arg4)) (ix2 k j)) (fun j => (m ((c : Thread nD τ).loc main_arg5)) (ix1 j)) (fun j l => (m ((c : Thread nD τ).loc main_arg6)) (ix2 j l))
    (fun l => (m ((c : Thread nD τ).loc main_arg7)) (ix1 l)) (fun l => (m ((c : Thread nD τ).loc main_arg8)) (ix1 l)) (fun l => (m ((c : Thread nD τ).loc main_arg9)) (ix1 l)) (i 0) (i 1)

/-- What the first region leaves is that array, when every index word names a node: the gathered rows are the two end
    nodes' features, the bf16 copies of the weights are the weights, the reshaped rows are the vectors. -/
theorem G0_eq (c : Dev nD) (hidx : ∀ i, ((m ((c : Thread nD τ).loc main_arg2)) i).toNat < 50000) : KValue.G0 (V3 m ρ) c = edgeArr m c := by
  funext i
  obtain ⟨e, q, rfl⟩ : ∃ (e : Fin 800000) (q : Fin 64), i = ix2 e q := ⟨i 0, i 1, eq_ix2 i⟩
  show Cert.Spec.rowOut (fun k : Fin 128 => V3 m ρ c main_v8 (ix2 e k)) (fun k : Fin 64 => V3 m ρ c main_arg0 (ix2 e k))
    (fun (k : Fin 128) (j : Fin 128) => V3 m ρ c main_v10 (ix2 k j)) (fun (k : Fin 64) (j : Fin 128) => V3 m ρ c main_v12 (ix2 k j))
    (fun j : Fin 128 => V3 m ρ c main_v14 (ix2 0 j)) (fun (j : Fin 128) (l : Fin 64) => V3 m ρ c main_v13 (ix2 j l))
    (fun l : Fin 64 => V3 m ρ c main_v15 (ix2 0 l)) (fun l : Fin 64 => V3 m ρ c main_v16 (ix2 0 l)) (fun l : Fin 64 => V3 m ρ c main_v17 (ix2 0 l)) q
    = Cert.Spec.edgeOut (fun e k => (m ((c : Thread nD τ).loc main_arg0)) (ix2 e k)) (fun n k => (m ((c : Thread nD τ).loc main_arg1)) (ix2 n k))
    (fun e => Cert.Spec.nodeOf ((m ((c : Thread nD τ).loc main_arg2)) (ix2 1 e))) (fun e => Cert.Spec.nodeOf ((m ((c : Thread nD τ).loc main_arg2)) (ix2 0 e)))
    (fun k j => (m ((c : Thread nD τ).loc main_arg4)) (ix2 k j)) (fun j => (m ((c : Thread nD τ).loc main_arg5)) (ix1 j)) (fun j l => (m ((c : Thread nD τ).loc main_arg6)) (ix2 j l))
    (fun l => (m ((c : Thread nD τ).loc main_arg7)) (ix1 l)) (fun l => (m ((c : Thread nD τ).loc main_arg8)) (ix1 l)) (fun l => (m ((c : Thread nD τ).loc main_arg9)) (ix1 l)) e q
  unfold Cert.Spec.edgeOut
  simp only [KHost.V3_v8 m ρ c hidx, KHost.V3_arg0 m ρ c, KHost.V3_v10 m ρ c, KHost.V3_v12 m ρ c, KHost.V3_v13 m ρ c, KHost.V3_v14 m ρ c, KHost.V3_v15 m ρ c, KHost.V3_v16 m ρ c, KHost.V3_v17 m ρ c]

/-- What every node's incoming edges sum to: the scatter-add of an edge array onto zeros at the receiver column of the
    index pairs. It is carried as this one term and never opened. -/
def aggOf (c : Dev nD) (E : S800000x64.Idx → EReal) : S50000x64.Idx → EReal :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0
      (shapeCast S800000 (extractStridedSlice S1x800000 ![1, 0] (m ((c : Thread nD τ).loc main_arg2)) slices_S2x800000_S1x800000_1_0) shapeCasts_S1x800000_S800000))
    E

/-- THE UPDATED NODE FEATURES as one array: the row function of each node's features and of what its incoming (updated)
    edges sum to. -/
def nodeArr (c : Dev nD) : S50000x64.Idx → EReal := fun i =>
  Cert.Spec.nodeOut (fun n k => (m ((c : Thread nD τ).loc main_arg1)) (ix2 n k)) (fun n k => aggOf m c (edgeArr m c) (ix2 n k))
    (fun k j => (m ((c : Thread nD τ).loc main_arg10)) (ix2 k j)) (fun j => (m ((c : Thread nD τ).loc main_arg11)) (ix1 j)) (fun j l => (m ((c : Thread nD τ).loc main_arg12)) (ix2 j l))
    (fun l => (m ((c : Thread nD τ).loc main_arg13)) (ix1 l)) (fun l => (m ((c : Thread nD τ).loc main_arg14)) (ix1 l)) (fun l => (m ((c : Thread nD τ).loc main_arg15)) (ix1 l)) (i 0) (i 1)

/-- What the second region finds as the aggregated edge features. -/
theorem V5_v21_eq (hpay : KValue.Pay0) (c : Dev nD) (hidx : ∀ i, ((m ((c : Thread nD τ).loc main_arg2)) i).toNat < 50000) :
    V5 m ρ c main_v21 = aggOf m c (edgeArr m c) := by
  rw [KHost.V5_v21 m ρ c, KFinal.W4_v18 m ρ hpay c, G0_eq m ρ c hidx]
  rfl

/-- What the second region leaves is that array. -/
theorem G1_eq (hpay : KValue.Pay0) (c : Dev nD) (hidx : ∀ i, ((m ((c : Thread nD τ).loc main_arg2)) i).toNat < 50000) : KValue.G1 (V5 m ρ) c = nodeArr m c := by
  funext i
  obtain ⟨n, q, rfl⟩ : ∃ (n : Fin 50000) (q : Fin 64), i = ix2 n q := ⟨i 0, i 1, eq_ix2 i⟩
  show Cert.Spec.rowOut (fun k : Fin 64 => V5 m ρ c main_arg1 (ix2 n k)) (fun k : Fin 64 => V5 m ρ c main_v21 (ix2 n k))
    (fun (k : Fin 64) (j : Fin 128) => V5 m ρ c main_v23 (ix2 k j)) (fun (k : Fin 64) (j : Fin 128) => V5 m ρ c main_v25 (ix2 k j))
    (fun j : Fin 128 => V5 m ρ c main_v27 (ix2 0 j)) (fun (j : Fin 128) (l : Fin 64) => V5 m ρ c main_v26 (ix2 j l))
    (fun l : Fin 64 => V5 m ρ c main_v28 (ix2 0 l)) (fun l : Fin 64 => V5 m ρ c main_v29 (ix2 0 l)) (fun l : Fin 64 => V5 m ρ c main_v30 (ix2 0 l)) q
    = Cert.Spec.nodeOut (fun n k => (m ((c : Thread nD τ).loc main_arg1)) (ix2 n k)) (fun n k => aggOf m c (edgeArr m c) (ix2 n k))
    (fun k j => (m ((c : Thread nD τ).loc main_arg10)) (ix2 k j)) (fun j => (m ((c : Thread nD τ).loc main_arg11)) (ix1 j)) (fun j l => (m ((c : Thread nD τ).loc main_arg12)) (ix2 j l))
    (fun l => (m ((c : Thread nD τ).loc main_arg13)) (ix1 l)) (fun l => (m ((c : Thread nD τ).loc main_arg14)) (ix1 l)) (fun l => (m ((c : Thread nD τ).loc main_arg15)) (ix1 l)) n q
  unfold Cert.Spec.nodeOut
  simp only [V5_v21_eq m ρ hpay c hidx, KHost.V5_arg1 m ρ c, KHost.V5_v23 m ρ c, KHost.V5_v25 m ρ c, KHost.V5_v26 m ρ c, KHost.V5_v27 m ρ c, KHost.V5_v28 m ρ c, KHost.V5_v29 m ρ c, KHost.V5_v30 m ρ c]

/-- THE KERNEL'S RUN, READ: the two results at the specification's arrays, the arguments as launched. -/
theorem run (hpay0 : KValue.Pay0) (hpay1 : KValue.Pay1) (hidx : ∀ (c : Dev nD) i, ((m ((c : Thread nD τ).loc main_arg2)) i).toNat < 50000) :
    θ_run defs (onTc (τ := τ) (main (F := Ideal))) ⟨m, fun _ => 0, ρ⟩ (fun r => ∀ c : Dev nD,
      r.2.mem ((c.tc : Thread nD τ).loc main_v18) = edgeArr m c
      ∧ r.2.mem ((c.tc : Thread nD τ).loc main_v31) = nodeArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (G0_eq m ρ c (hidx c)), (h c).2.1.trans (G1_eq m ρ hpay0 c (hidx c)), (h c).2.2⟩)
    (KFinal.run m ρ hpay0 hpay1)

end Cert.KernelIdeal.KBridge

end
-- ==== Proof.KBody0.lean ====
/-
  The edge kernel body's arithmetic, read entry by entry on the extended reals.

  The body is a pure term over the blocks it loads.  Read at row `p` and place `q` it is the row function of the
  common specification applied to row `p` of the two input blocks: a product into a zero accumulator is a sum over the
  contracted axis, a lane sum is a sum over the 64 places, and the layout operations (casts to the same shape, a row
  spread over all rows, a column spread over all places) only rename indices.
-/
import proofs.«425826_j50044958933334_3_alg».proof.Proof.Spec
import proofs.«425826_j50044958933334_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KBody

open Cert.KernelIdeal Cert.KernelIdeal.Gen Idealize.ShloMosaic Idealize.ShloMosaic.ValueIdx

/-! ### The product `[8000, 128] × [128, 128]` into a zero accumulator -/

theorem lhs0_a_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide),
    dif_pos (show (0 : Fin S8000x128.rank) ∈ dot_S8000x128_S128x128_S8000x128_1_0_0_1_n_n.lhsNonContracting by decide)]
  rfl

theorem lhs0_a_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q

theorem rhs0_a_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q

theorem rhs0_a_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide),
    dif_pos (show (1 : Fin S128x128.rank) ∈ dot_S8000x128_S128x128_S8000x128_1_0_0_1_n_n.rhsNonContracting by decide)]
  rfl

/-- Entry `(p, j)` of the product is the sum over the 128 contracted places. -/
theorem mm0_a_apply {φ₁ φ₂ : FTy} (x : FVec Ideal S8000x128 φ₁) (w : FVec Ideal S128x128 φ₂) (p : Fin 8000) (j : Fin 128) :
    matmul dot_S8000x128_S128x128_S8000x128_1_0_0_1_n_n none x w (constant S8000x128 .f32 0x00000000#32) (ix2 p j)
      = ∑ k : Fin 128, x (ix2 p k) * w (ix2 k j) := by
  refine (Ideal.matmul_constant_zero_apply dot_S8000x128_S128x128_S8000x128_1_0_0_1_n_n none x w (ix2 p j)).trans ?_
  rw [← Equiv.sum_comp (contrEquiv1 dot_S8000x128_S128x128_S8000x128_1_0_0_1_n_n 128 rfl rfl).symm]
  refine Finset.sum_congr rfl fun k _ => ?_
  have hk := contrEquiv1_symm_val dot_S8000x128_S128x128_S8000x128_1_0_0_1_n_n 128 rfl rfl k
  have el : dot_S8000x128_S128x128_S8000x128_1_0_0_1_n_n.lhsIdx (ix2 p j) ((contrEquiv1 dot_S8000x128_S128x128_S8000x128_1_0_0_1_n_n 128 rfl rfl).symm k) = ix2 p k :=
    funext fun a => Fin.ext (by
      match a with
      | ⟨0, _⟩ => exact lhs0_a_0 _ _
      | ⟨1, _⟩ => exact (lhs0_a_1 _ _).trans hk)
  have er : dot_S8000x128_S128x128_S8000x128_1_0_0_1_n_n.rhsIdx (ix2 p j) ((contrEquiv1 dot_S8000x128_S128x128_S8000x128_1_0_0_1_n_n 128 rfl rfl).symm k) = ix2 k j :=
    funext fun a => Fin.ext (by
      match a with
      | ⟨0, _⟩ => exact (rhs0_a_0 _ _).trans hk
      | ⟨1, _⟩ => exact rhs0_a_1 _ _)
  rw [el, er]

/-! ### The product `[8000, 64] × [64, 128]` into a zero accumulator -/

theorem lhs0_b_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide),
    dif_pos (show (0 : Fin S8000x64.rank) ∈ dot_S8000x64_S64x128_S8000x128_1_0_0_1_n_n.lhsNonContracting by decide)]
  rfl

theorem lhs0_b_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q

theorem rhs0_b_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q

theorem rhs0_b_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide),
    dif_pos (show (1 : Fin S64x128.rank) ∈ dot_S8000x64_S64x128_S8000x128_1_0_0_1_n_n.rhsNonContracting by decide)]
  rfl

/-- Entry `(p, j)` of the product is the sum over the 64 contracted places. -/
theorem mm0_b_apply {φ₁ φ₂ : FTy} (x : FVec Ideal S8000x64 φ₁) (w : FVec Ideal S64x128 φ₂) (p : Fin 8000) (j : Fin 128) :
    matmul dot_S8000x64_S64x128_S8000x128_1_0_0_1_n_n none x w (constant S8000x128 .f32 0x00000000#32) (ix2 p j)
      = ∑ k : Fin 64, x (ix2 p k) * w (ix2 k j) := by
  refine (Ideal.matmul_constant_zero_apply dot_S8000x64_S64x128_S8000x128_1_0_0_1_n_n none x w (ix2 p j)).trans ?_
  rw [← Equiv.sum_comp (contrEquiv1 dot_S8000x64_S64x128_S8000x128_1_0_0_1_n_n 64 rfl rfl).symm]
  refine Finset.sum_congr rfl fun k _ => ?_
  have hk := contrEquiv1_symm_val dot_S8000x64_S64x128_S8000x128_1_0_0_1_n_n 64 rfl rfl k
  have el : dot_S8000x64_S64x128_S8000x128_1_0_0_1_n_n.lhsIdx (ix2 p j) ((contrEquiv1 dot_S8000x64_S64x128_S8000x128_1_0_0_1_n_n 64 rfl rfl).symm k) = ix2 p k :=
    funext fun a => Fin.ext (by
      match a with
      | ⟨0, _⟩ => exact lhs0_b_0 _ _
      | ⟨1, _⟩ => exact (lhs0_b_1 _ _).trans hk)
  have er : dot_S8000x64_S64x128_S8000x128_1_0_0_1_n_n.rhsIdx (ix2 p j) ((contrEquiv1 dot_S8000x64_S64x128_S8000x128_1_0_0_1_n_n 64 rfl rfl).symm k) = ix2 k j :=
    funext fun a => Fin.ext (by
      match a with
      | ⟨0, _⟩ => exact (rhs0_b_0 _ _).trans hk
      | ⟨1, _⟩ => exact rhs0_b_1 _ _)
  rw [el, er]

/-! ### The product `[8000, 128] × [128, 64]` into a zero accumulator -/

theorem lhs0_c_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide),
    dif_pos (show (0 : Fin S8000x128.rank) ∈ dot_S8000x128_S128x64_S8000x64_1_0_0_1_n_n.lhsNonContracting by decide)]
  rfl

theorem lhs0_c_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q

theorem rhs0_c_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q

theorem rhs0_c_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide),
    dif_pos (show (1 : Fin S128x64.rank) ∈ dot_S8000x128_S128x64_S8000x64_1_0_0_1_n_n.rhsNonContracting by decide)]
  rfl

/-- Entry `(p, j)` of the product is the sum over the 128 contracted places. -/
theorem mm0_c_apply {φ₁ φ₂ : FTy} (x : FVec Ideal S8000x128 φ₁) (w : FVec Ideal S128x64 φ₂) (p : Fin 8000) (j : Fin 64) :
    matmul dot_S8000x128_S128x64_S8000x64_1_0_0_1_n_n none x w (constant S8000x64 .f32 0x00000000#32) (ix2 p j)
      = ∑ k : Fin 128, x (ix2 p k) * w (ix2 k j) := by
  refine (Ideal.matmul_constant_zero_apply dot_S8000x128_S128x64_S8000x64_1_0_0_1_n_n none x w (ix2 p j)).trans ?_
  rw [← Equiv.sum_comp (contrEquiv1 dot_S8000x128_S128x64_S8000x64_1_0_0_1_n_n 128 rfl rfl).symm]
  refine Finset.sum_congr rfl fun k _ => ?_
  have hk := contrEquiv1_symm_val dot_S8000x128_S128x64_S8000x64_1_0_0_1_n_n 128 rfl rfl k
  have el : dot_S8000x128_S128x64_S8000x64_1_0_0_1_n_n.lhsIdx (ix2 p j) ((contrEquiv1 dot_S8000x128_S128x64_S8000x64_1_0_0_1_n_n 128 rfl rfl).symm k) = ix2 p k :=
    funext fun a => Fin.ext (by
      match a with
      | ⟨0, _⟩ => exact lhs0_c_0 _ _
      | ⟨1, _⟩ => exact (lhs0_c_1 _ _).trans hk)
  have er : dot_S8000x128_S128x64_S8000x64_1_0_0_1_n_n.rhsIdx (ix2 p j) ((contrEquiv1 dot_S8000x128_S128x64_S8000x64_1_0_0_1_n_n 128 rfl rfl).symm k) = ix2 k j :=
    funext fun a => Fin.ext (by
      match a with
      | ⟨0, _⟩ => exact (rhs0_c_0 _ _).trans hk
      | ⟨1, _⟩ => exact rhs0_c_1 _ _)
  rw [el, er]

/-! ### Layout: a vector as a column, a column spread over the places, a lane sum -/

section Layout
variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum over the 64 lanes of row `p`. -/
theorem laneSum0_apply (x : FVec Ideal S8000x64 .f32) (p : Fin 8000) :
    multiReduction .add [1] S8000 x 0x00000000#32 reduces_S8000x64_S8000 (.inl rfl) rfl (ix1 p)
      = ∑ l : Fin 64, x (ix2 p l) := by
  refine (Ideal.multiReduction_add_single x _ reduces_S8000x64_S8000 (.inl rfl) rfl (ix1 p)).trans ?_
  refine Finset.sum_congr rfl fun l _ => congrArg x ?_
  funext a
  match a with
  | ⟨0, _⟩ => rfl
  | ⟨1, _⟩ => rfl

/-! ### The two layers -/

/-- The hidden block: the two products added, the bias row added to every row, the maximum with zero. -/
def hid0 (v0 : Vec Ideal S8000x128 .f32) (v3 : Vec Ideal S8000x64 .f32) (v5 : Vec Ideal S128x128 .bf16) (v8 : Vec Ideal S64x128 .bf16) (v12 : Vec Ideal S1x128 .f32) : FVec Ideal S8000x128 .f32 :=
  maximumf
    (addf
      (addf
        (matmul dot_S8000x128_S128x128_S8000x128_1_0_0_1_n_n none (truncf .bf16 (shapeCast S8000x128 v0 shapeCasts_S8000x128_S8000x128) bitsLt_bf16_f32) (shapeCast S128x128 v5 shapeCasts_S128x128_S128x128 : FVec Ideal S128x128 .bf16) (constant S8000x128 .f32 0x00000000#32))
        (matmul dot_S8000x64_S64x128_S8000x128_1_0_0_1_n_n none (truncf .bf16 v3 bitsLt_bf16_f32) (shapeCast S64x128 v8 shapeCasts_S64x128_S64x128 : FVec Ideal S64x128 .bf16) (constant S8000x128 .f32 0x00000000#32)))
      (broadcastTo S8000x128 (shapeCast S1x128 v12 shapeCasts_S1x128_S1x128) broadcasts_S1x128_S8000x128))
    (broadcast S8000x128 (Scalar.ofBits .f32 0x00000000#32))

/-- Row `p` of the hidden block is the first layer of the specification on row `p` of the two input blocks. -/
theorem hid0_apply (v0 : Vec Ideal S8000x128 .f32) (v3 : Vec Ideal S8000x64 .f32) (v5 : Vec Ideal S128x128 .bf16) (v8 : Vec Ideal S64x128 .bf16) (v12 : Vec Ideal S1x128 .f32) (p : Fin 8000) (j : Fin 128) :
    hid0 v0 v3 v5 v8 v12 (ix2 p j)
      = Cert.Spec.layer1 (fun k : Fin 128 => v0 (ix2 p k)) (fun k : Fin 64 => v3 (ix2 p k)) (fun (k : Fin 128) (j : Fin 128) => v5 (ix2 k j))
        (fun (k : Fin 64) (j : Fin 128) => v8 (ix2 k j)) (fun j : Fin 128 => v12 (ix2 0 j)) j := by
  unfold hid0 Cert.Spec.layer1
  rw [maximumf_apply, addf_apply, addf_apply, mm0_a_apply, mm0_b_apply, broadcast_apply,
    broadcastTo_1b_ab_apply, shapeCast_self, shapeCast_self, shapeCast_self, shapeCast_self]
  show max _ (Ideal.ofBits .f32 0x00000000#32) = _
  rw [Ideal.ofBits_zero_f32]
  rfl

/-- The second layer's block: the product with the second weight matrix, the bias row, the maximum with zero. -/
def out0 (v0 : Vec Ideal S8000x128 .f32) (v3 : Vec Ideal S8000x64 .f32) (v5 : Vec Ideal S128x128 .bf16) (v8 : Vec Ideal S64x128 .bf16) (v12 : Vec Ideal S1x128 .f32) (v19 : Vec Ideal S128x64 .bf16) (v22 : Vec Ideal S1x64 .f32) : FVec Ideal S8000x64 .f32 :=
  maximumf
    (addf
      (matmul dot_S8000x128_S128x64_S8000x64_1_0_0_1_n_n none (truncf .bf16 (hid0 v0 v3 v5 v8 v12) bitsLt_bf16_f32) (shapeCast S128x64 v19 shapeCasts_S128x64_S128x64 : FVec Ideal S128x64 .bf16)
        (constant S8000x64 .f32 0x00000000#32))
      (broadcastTo S8000x64 (shapeCast S1x64 v22 shapeCasts_S1x64_S1x64) broadcasts_S1x64_S8000x64))
    (broadcast S8000x64 (Scalar.ofBits .f32 0x00000000#32))

/-- Row `p` of it is the second layer of the specification on the hidden row. -/
theorem out0_apply (v0 : Vec Ideal S8000x128 .f32) (v3 : Vec Ideal S8000x64 .f32) (v5 : Vec Ideal S128x128 .bf16) (v8 : Vec Ideal S64x128 .bf16) (v12 : Vec Ideal S1x128 .f32) (v19 : Vec Ideal S128x64 .bf16) (v22 : Vec Ideal S1x64 .f32) (p : Fin 8000) (l : Fin 64) :
    out0 v0 v3 v5 v8 v12 v19 v22 (ix2 p l)
      = Cert.Spec.layer2 (Cert.Spec.layer1 (fun k : Fin 128 => v0 (ix2 p k)) (fun k : Fin 64 => v3 (ix2 p k)) (fun (k : Fin 128) (j : Fin 128) => v5 (ix2 k j))
        (fun (k : Fin 64) (j : Fin 128) => v8 (ix2 k j)) (fun j : Fin 128 => v12 (ix2 0 j))) (fun (j : Fin 128) (l : Fin 64) => v19 (ix2 j l))
        (fun l : Fin 64 => v22 (ix2 0 l)) l := by
  unfold out0 Cert.Spec.layer2
  rw [maximumf_apply, addf_apply, mm0_c_apply, broadcast_apply, broadcastTo_1b_ab_apply, shapeCast_self, shapeCast_self]
  show max ((∑ j : Fin 128, hid0 v0 v3 v5 v8 v12 (ix2 p j) * v19 (ix2 j l)) + v22 (ix2 0 l)) (Ideal.ofBits .f32 0x00000000#32) = _
  rw [Ideal.ofBits_zero_f32]
  refine congrArg (fun s => max (s + v22 (ix2 0 l)) 0) ?_
  exact Finset.sum_congr rfl fun j _ => congrArg (· * v19 (ix2 j l)) (hid0_apply v0 v3 v5 v8 v12 p j)

/-! ### The normalisation -/

/-- A block less, in each row, the row's lane sum divided by the word 64.0. -/
def cen0 (h : FVec Ideal S8000x64 .f32) : FVec Ideal S8000x64 .f32 :=
  subf h
    (broadcastTo S8000x64
      (divf (shapeCast S8000x1 (multiReduction .add [1] S8000 h 0x00000000#32 reduces_S8000x64_S8000 (.inl rfl) rfl) shapeCasts_S8000_S8000x1)
        (broadcast S8000x1 (Scalar.ofBits .f32 0x42800000#32)))
      broadcasts_S8000x1_S8000x64)

/-- Row `p` of it is row `p` centred at its mean. -/
theorem cen0_apply (h : FVec Ideal S8000x64 .f32) (p : Fin 8000) (l : Fin 64) :
    cen0 h (ix2 p l) = Cert.Spec.centred (fun l : Fin 64 => h (ix2 p l)) l := by
  unfold cen0 Cert.Spec.centred Cert.Spec.mean
  rw [subf_apply, broadcastTo_a1_ab_apply, divf_apply, shapeCast_a_a1_apply, laneSum0_apply, broadcast_apply]
  rfl

/-- The centred block of the kernel body is the centring of the second layer's block. -/
theorem centred0_eq (v0 : Vec Ideal S8000x128 .f32) (v3 : Vec Ideal S8000x64 .f32) (v5 : Vec Ideal S128x128 .bf16) (v8 : Vec Ideal S64x128 .bf16) (v12 : Vec Ideal S1x128 .f32) (v19 : Vec Ideal S128x64 .bf16) (v22 : Vec Ideal S1x64 .f32) :
    k0_pay2 v0 v3 v5 v8 v12 v19 v22 = cen0 (out0 v0 v3 v5 v8 v12 v19 v22) := rfl

/-- The column of the squares' lane sums, read at row `p`. -/
theorem squares0_apply (v0 : Vec Ideal S8000x128 .f32) (v3 : Vec Ideal S8000x64 .f32) (v5 : Vec Ideal S128x128 .bf16) (v8 : Vec Ideal S64x128 .bf16) (v12 : Vec Ideal S1x128 .f32) (v19 : Vec Ideal S128x64 .bf16) (v22 : Vec Ideal S1x64 .f32) (p : Fin 8000) (u : Fin 1) :
    k0_pay3 v0 v3 v5 v8 v12 v19 v22 (ix2 p u)
      = ∑ l : Fin 64, k0_pay2 v0 v3 v5 v8 v12 v19 v22 (ix2 p l) * k0_pay2 v0 v3 v5 v8 v12 v19 v22 (ix2 p l) := by
  unfold k0_pay3
  show shapeCast S8000x1 (multiReduction .add [1] S8000 (mulf (k0_pay2 v0 v3 v5 v8 v12 v19 v22) (k0_pay2 v0 v3 v5 v8 v12 v19 v22)) 0x00000000#32
    reduces_S8000x64_S8000 (.inl rfl) rfl) shapeCasts_S8000_S8000x1 (ix2 p u) = _
  rw [shapeCast_a_a1_apply, laneSum0_apply]
  rfl

/-- The stored block at `(p, q)`: the centred entry times the reciprocal root of (squares' sum over 64.0, plus the
    offset word), times the scale row, plus the shift row. -/
theorem stored0_apply (v33 : FVec Ideal S8000x64 .f32) (v36 : FVec Ideal S8000x1 .f32) (v44 v48 : Vec Ideal S1x64 .f32)
    (p : Fin 8000) (q : Fin 64) :
    k0_pay1 v33 v36 v44 v48 (ix2 p q)
      = v33 (ix2 p q) * Ideal.rsqrt (Ideal.div (v36 (ix2 p 0)) Cert.Spec.c64 + Cert.Spec.ceps) * v44 (ix2 0 q) + v48 (ix2 0 q) := by
  unfold k0_pay1
  show addf
      (mulf
        (mulf v33
          (broadcastTo S8000x64
            (rsqrt (addf (divf v36 (broadcast S8000x1 (Scalar.ofBits .f32 0x42800000#32)))
              (broadcast S8000x1 (Scalar.ofBits .f32 0x3727C5AC#32))))
            broadcasts_S8000x1_S8000x64))
        (broadcastTo S8000x64 (shapeCast S1x64 v44 shapeCasts_S1x64_S1x64) broadcasts_S1x64_S8000x64))
      (broadcastTo S8000x64 (shapeCast S1x64 v48 shapeCasts_S1x64_S1x64) broadcasts_S1x64_S8000x64) (ix2 p q) = _
  rw [addf_apply, mulf_apply, mulf_apply, broadcastTo_a1_ab_apply, broadcastTo_1b_ab_apply, broadcastTo_1b_ab_apply,
    shapeCast_self, shapeCast_self]
  rfl

/-! ### The whole body -/

theorem pay0_apply (v0 : Vec Ideal S8000x128 .f32) (v3 : Vec Ideal S8000x64 .f32) (v5 : Vec Ideal S128x128 .bf16) (v8 : Vec Ideal S64x128 .bf16) (v12 : Vec Ideal S1x128 .f32) (v19 : Vec Ideal S128x64 .bf16) (v22 : Vec Ideal S1x64 .f32) (v44 v48 : Vec Ideal S1x64 .f32) (p : Fin 8000) (q : Fin 64) :
    k0_pay1 (k0_pay2 v0 v3 v5 v8 v12 v19 v22) (k0_pay3 v0 v3 v5 v8 v12 v19 v22) v44 v48 (ix2 p q)
      = Cert.Spec.rowOut (fun k : Fin 128 => v0 (ix2 p k)) (fun k : Fin 64 => v3 (ix2 p k)) (fun (k : Fin 128) (j : Fin 128) => v5 (ix2 k j))
        (fun (k : Fin 64) (j : Fin 128) => v8 (ix2 k j)) (fun j : Fin 128 => v12 (ix2 0 j)) (fun (j : Fin 128) (l : Fin 64) => v19 (ix2 j l))
        (fun l : Fin 64 => v22 (ix2 0 l)) (fun l : Fin 64 => v44 (ix2 0 l)) (fun l : Fin 64 => v48 (ix2 0 l)) q := by
  have hrow : (fun l : Fin 64 => out0 v0 v3 v5 v8 v12 v19 v22 (ix2 p l))
      = Cert.Spec.layer2 (Cert.Spec.layer1 (fun k : Fin 128 => v0 (ix2 p k)) (fun k : Fin 64 => v3 (ix2 p k)) (fun (k : Fin 128) (j : Fin 128) => v5 (ix2 k j))
        (fun (k : Fin 64) (j : Fin 128) => v8 (ix2 k j)) (fun j : Fin 128 => v12 (ix2 0 j))) (fun (j : Fin 128) (l : Fin 64) => v19 (ix2 j l))
        (fun l : Fin 64 => v22 (ix2 0 l)) :=
    funext fun l => out0_apply v0 v3 v5 v8 v12 v19 v22 p l
  have hc : ∀ l : Fin 64, k0_pay2 v0 v3 v5 v8 v12 v19 v22 (ix2 p l)
      = Cert.Spec.centred (fun l : Fin 64 => out0 v0 v3 v5 v8 v12 v19 v22 (ix2 p l)) l := fun l =>
    (congrFun (centred0_eq v0 v3 v5 v8 v12 v19 v22) (ix2 p l)).trans (cen0_apply _ p l)
  rw [stored0_apply, squares0_apply, hc q, Finset.sum_congr rfl fun l _ => by rw [hc l], hrow]
  rfl

end Cert.KernelIdeal.KBody

end
-- ==== Proof.KBody1.lean ====
/-
  The node kernel body's arithmetic, read entry by entry on the extended reals.

  The body is a pure term over the blocks it loads.  Read at row `p` and place `q` it is the row function of the
  common specification applied to row `p` of the two input blocks: a product into a zero accumulator is a sum over the
  contracted axis, a lane sum is a sum over the 64 places, and the layout operations (casts to the same shape, a row
  spread over all rows, a column spread over all places) only rename indices.
-/
import proofs.«425826_j50044958933334_3_alg».proof.Proof.Spec
import proofs.«425826_j50044958933334_3_alg».proof.Proof.KBody0
import proofs.«425826_j50044958933334_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KBody

open Cert.KernelIdeal Cert.KernelIdeal.Gen Idealize.ShloMosaic Idealize.ShloMosaic.ValueIdx

/-! ### The product `[10000, 64] × [64, 128]` into a zero accumulator -/

theorem lhs1_b_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide),
    dif_pos (show (0 : Fin S10000x64.rank) ∈ dot_S10000x64_S64x128_S10000x128_1_0_0_1_n_n.lhsNonContracting by decide)]
  rfl

theorem lhs1_b_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q

theorem rhs1_b_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q

theorem rhs1_b_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide),
    dif_pos (show (1 : Fin S64x128.rank) ∈ dot_S10000x64_S64x128_S10000x128_1_0_0_1_n_n.rhsNonContracting by decide)]
  rfl

/-- Entry `(p, j)` of the product is the sum over the 64 contracted places. -/
theorem mm1_b_apply {φ₁ φ₂ : FTy} (x : FVec Ideal S10000x64 φ₁) (w : FVec Ideal S64x128 φ₂) (p : Fin 10000) (j : Fin 128) :
    matmul dot_S10000x64_S64x128_S10000x128_1_0_0_1_n_n none x w (constant S10000x128 .f32 0x00000000#32) (ix2 p j)
      = ∑ k : Fin 64, x (ix2 p k) * w (ix2 k j) := by
  refine (Ideal.matmul_constant_zero_apply dot_S10000x64_S64x128_S10000x128_1_0_0_1_n_n none x w (ix2 p j)).trans ?_
  rw [← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p j) ((contrEquiv1 dot_S10000x64_S64x128_S10000x128_1_0_0_1_n_n 64 rfl rfl).symm k) = ix2 p k :=
    funext fun a => Fin.ext (by
      match a with
      | ⟨0, _⟩ => exact lhs1_b_0 _ _
      | ⟨1, _⟩ => exact (lhs1_b_1 _ _).trans hk)
  have er : dot_S10000x64_S64x128_S10000x128_1_0_0_1_n_n.rhsIdx (ix2 p j) ((contrEquiv1 dot_S10000x64_S64x128_S10000x128_1_0_0_1_n_n 64 rfl rfl).symm k) = ix2 k j :=
    funext fun a => Fin.ext (by
      match a with
      | ⟨0, _⟩ => exact (rhs1_b_0 _ _).trans hk
      | ⟨1, _⟩ => exact rhs1_b_1 _ _)
  rw [el, er]

/-! ### The product `[10000, 128] × [128, 64]` into a zero accumulator -/

theorem lhs1_c_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide),
    dif_pos (show (0 : Fin S10000x128.rank) ∈ dot_S10000x128_S128x64_S10000x64_1_0_0_1_n_n.lhsNonContracting by decide)]
  rfl

theorem lhs1_c_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q

theorem rhs1_c_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q

theorem rhs1_c_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide),
    dif_pos (show (1 : Fin S128x64.rank) ∈ dot_S10000x128_S128x64_S10000x64_1_0_0_1_n_n.rhsNonContracting by decide)]
  rfl

/-- Entry `(p, j)` of the product is the sum over the 128 contracted places. -/
theorem mm1_c_apply {φ₁ φ₂ : FTy} (x : FVec Ideal S10000x128 φ₁) (w : FVec Ideal S128x64 φ₂) (p : Fin 10000) (j : Fin 64) :
    matmul dot_S10000x128_S128x64_S10000x64_1_0_0_1_n_n none x w (constant S10000x64 .f32 0x00000000#32) (ix2 p j)
      = ∑ k : Fin 128, x (ix2 p k) * w (ix2 k j) := by
  refine (Ideal.matmul_constant_zero_apply dot_S10000x128_S128x64_S10000x64_1_0_0_1_n_n none x w (ix2 p j)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p j) ((contrEquiv1 dot_S10000x128_S128x64_S10000x64_1_0_0_1_n_n 128 rfl rfl).symm k) = ix2 p k :=
    funext fun a => Fin.ext (by
      match a with
      | ⟨0, _⟩ => exact lhs1_c_0 _ _
      | ⟨1, _⟩ => exact (lhs1_c_1 _ _).trans hk)
  have er : dot_S10000x128_S128x64_S10000x64_1_0_0_1_n_n.rhsIdx (ix2 p j) ((contrEquiv1 dot_S10000x128_S128x64_S10000x64_1_0_0_1_n_n 128 rfl rfl).symm k) = ix2 k j :=
    funext fun a => Fin.ext (by
      match a with
      | ⟨0, _⟩ => exact (rhs1_c_0 _ _).trans hk
      | ⟨1, _⟩ => exact rhs1_c_1 _ _)
  rw [el, er]

/-! ### The lane sum -/

/-- The sum over the 64 lanes of row `p`. -/
theorem laneSum1_apply (x : FVec Ideal S10000x64 .f32) (p : Fin 10000) :
    multiReduction .add [1] S10000 x 0x00000000#32 reduces_S10000x64_S10000 (.inl rfl) rfl (ix1 p)
      = ∑ l : Fin 64, x (ix2 p l) := by
  refine (Ideal.multiReduction_add_single x _ reduces_S10000x64_S10000 (.inl rfl) rfl (ix1 p)).trans ?_
  refine Finset.sum_congr rfl fun l _ => congrArg x ?_
  funext a
  match a with
  | ⟨0, _⟩ => rfl
  | ⟨1, _⟩ => rfl

/-! ### The two layers -/

/-- The hidden block: the two products added, the bias row added to every row, the maximum with zero. -/
def hid1 (v0 : Vec Ideal S10000x64 .f32) (v2 : Vec Ideal S10000x64 .f32) (v5 : Vec Ideal S64x128 .bf16) (v8 : Vec Ideal S64x128 .bf16) (v12 : Vec Ideal S1x128 .f32) : FVec Ideal S10000x128 .f32 :=
  maximumf
    (addf
      (addf
        (matmul dot_S10000x64_S64x128_S10000x128_1_0_0_1_n_n none (truncf .bf16 v0 bitsLt_bf16_f32) (shapeCast S64x128 v5 shapeCasts_S64x128_S64x128 : FVec Ideal S64x128 .bf16) (constant S10000x128 .f32 0x00000000#32))
        (matmul dot_S10000x64_S64x128_S10000x128_1_0_0_1_n_n none (truncf .bf16 (shapeCast S10000x64 v2 shapeCasts_S10000x64_S10000x64) bitsLt_bf16_f32) (shapeCast S64x128 v8 shapeCasts_S64x128_S64x128 : FVec Ideal S64x128 .bf16) (constant S10000x128 .f32 0x00000000#32)))
      (broadcastTo S10000x128 (shapeCast S1x128 v12 shapeCasts_S1x128_S1x128) broadcasts_S1x128_S10000x128))
    (broadcast S10000x128 (Scalar.ofBits .f32 0x00000000#32))

/-- Row `p` of the hidden block is the first layer of the specification on row `p` of the two input blocks. -/
theorem hid1_apply (v0 : Vec Ideal S10000x64 .f32) (v2 : Vec Ideal S10000x64 .f32) (v5 : Vec Ideal S64x128 .bf16) (v8 : Vec Ideal S64x128 .bf16) (v12 : Vec Ideal S1x128 .f32) (p : Fin 10000) (j : Fin 128) :
    hid1 v0 v2 v5 v8 v12 (ix2 p j)
      = Cert.Spec.layer1 (fun k : Fin 64 => v0 (ix2 p k)) (fun k : Fin 64 => v2 (ix2 p k)) (fun (k : Fin 64) (j : Fin 128) => v5 (ix2 k j))
        (fun (k : Fin 64) (j : Fin 128) => v8 (ix2 k j)) (fun j : Fin 128 => v12 (ix2 0 j)) j := by
  unfold hid1 Cert.Spec.layer1
  rw [maximumf_apply, addf_apply, addf_apply, mm1_b_apply, mm1_b_apply, broadcast_apply,
    broadcastTo_1b_ab_apply, shapeCast_self, shapeCast_self, shapeCast_self, shapeCast_self]
  show max _ (Ideal.ofBits .f32 0x00000000#32) = _
  rw [Ideal.ofBits_zero_f32]
  rfl

/-- The second layer's block: the product with the second weight matrix, the bias row, the maximum with zero. -/
def out1 (v0 : Vec Ideal S10000x64 .f32) (v2 : Vec Ideal S10000x64 .f32) (v5 : Vec Ideal S64x128 .bf16) (v8 : Vec Ideal S64x128 .bf16) (v12 : Vec Ideal S1x128 .f32) (v19 : Vec Ideal S128x64 .bf16) (v22 : Vec Ideal S1x64 .f32) : FVec Ideal S10000x64 .f32 :=
  maximumf
    (addf
      (matmul dot_S10000x128_S128x64_S10000x64_1_0_0_1_n_n none (truncf .bf16 (hid1 v0 v2 v5 v8 v12) bitsLt_bf16_f32) (shapeCast S128x64 v19 shapeCasts_S128x64_S128x64 : FVec Ideal S128x64 .bf16)
        (constant S10000x64 .f32 0x00000000#32))
      (broadcastTo S10000x64 (shapeCast S1x64 v22 shapeCasts_S1x64_S1x64) broadcasts_S1x64_S10000x64))
    (broadcast S10000x64 (Scalar.ofBits .f32 0x00000000#32))

/-- Row `p` of it is the second layer of the specification on the hidden row. -/
theorem out1_apply (v0 : Vec Ideal S10000x64 .f32) (v2 : Vec Ideal S10000x64 .f32) (v5 : Vec Ideal S64x128 .bf16) (v8 : Vec Ideal S64x128 .bf16) (v12 : Vec Ideal S1x128 .f32) (v19 : Vec Ideal S128x64 .bf16) (v22 : Vec Ideal S1x64 .f32) (p : Fin 10000) (l : Fin 64) :
    out1 v0 v2 v5 v8 v12 v19 v22 (ix2 p l)
      = Cert.Spec.layer2 (Cert.Spec.layer1 (fun k : Fin 64 => v0 (ix2 p k)) (fun k : Fin 64 => v2 (ix2 p k)) (fun (k : Fin 64) (j : Fin 128) => v5 (ix2 k j))
        (fun (k : Fin 64) (j : Fin 128) => v8 (ix2 k j)) (fun j : Fin 128 => v12 (ix2 0 j))) (fun (j : Fin 128) (l : Fin 64) => v19 (ix2 j l))
        (fun l : Fin 64 => v22 (ix2 0 l)) l := by
  unfold out1 Cert.Spec.layer2
  rw [maximumf_apply, addf_apply, mm1_c_apply, broadcast_apply, broadcastTo_1b_ab_apply, shapeCast_self, shapeCast_self]
  show max ((∑ j : Fin 128, hid1 v0 v2 v5 v8 v12 (ix2 p j) * v19 (ix2 j l)) + v22 (ix2 0 l)) (Ideal.ofBits .f32 0x00000000#32) = _
  rw [Ideal.ofBits_zero_f32]
  refine congrArg (fun s => max (s + v22 (ix2 0 l)) 0) ?_
  exact Finset.sum_congr rfl fun j _ => congrArg (· * v19 (ix2 j l)) (hid1_apply v0 v2 v5 v8 v12 p j)

/-! ### The normalisation -/

/-- A block less, in each row, the row's lane sum divided by the word 64.0. -/
def cen1 (h : FVec Ideal S10000x64 .f32) : FVec Ideal S10000x64 .f32 :=
  subf h
    (broadcastTo S10000x64
      (divf (shapeCast S10000x1 (multiReduction .add [1] S10000 h 0x00000000#32 reduces_S10000x64_S10000 (.inl rfl) rfl) shapeCasts_S10000_S10000x1)
        (broadcast S10000x1 (Scalar.ofBits .f32 0x42800000#32)))
      broadcasts_S10000x1_S10000x64)

/-- Row `p` of it is row `p` centred at its mean. -/
theorem cen1_apply (h : FVec Ideal S10000x64 .f32) (p : Fin 10000) (l : Fin 64) :
    cen1 h (ix2 p l) = Cert.Spec.centred (fun l : Fin 64 => h (ix2 p l)) l := by
  unfold cen1 Cert.Spec.centred Cert.Spec.mean
  rw [subf_apply, broadcastTo_a1_ab_apply, divf_apply, shapeCast_a_a1_apply, laneSum1_apply, broadcast_apply]
  rfl

/-- The centred block of the kernel body is the centring of the second layer's block. -/
theorem centred1_eq (v0 : Vec Ideal S10000x64 .f32) (v2 : Vec Ideal S10000x64 .f32) (v5 : Vec Ideal S64x128 .bf16) (v8 : Vec Ideal S64x128 .bf16) (v12 : Vec Ideal S1x128 .f32) (v19 : Vec Ideal S128x64 .bf16) (v22 : Vec Ideal S1x64 .f32) :
    k1_pay2 v0 v2 v5 v8 v12 v19 v22 = cen1 (out1 v0 v2 v5 v8 v12 v19 v22) := rfl

/-- The column of the squares' lane sums, read at row `p`. -/
theorem squares1_apply (v0 : Vec Ideal S10000x64 .f32) (v2 : Vec Ideal S10000x64 .f32) (v5 : Vec Ideal S64x128 .bf16) (v8 : Vec Ideal S64x128 .bf16) (v12 : Vec Ideal S1x128 .f32) (v19 : Vec Ideal S128x64 .bf16) (v22 : Vec Ideal S1x64 .f32) (p : Fin 10000) (u : Fin 1) :
    k1_pay3 v0 v2 v5 v8 v12 v19 v22 (ix2 p u)
      = ∑ l : Fin 64, k1_pay2 v0 v2 v5 v8 v12 v19 v22 (ix2 p l) * k1_pay2 v0 v2 v5 v8 v12 v19 v22 (ix2 p l) := by
  unfold k1_pay3
  show shapeCast S10000x1 (multiReduction .add [1] S10000 (mulf (k1_pay2 v0 v2 v5 v8 v12 v19 v22) (k1_pay2 v0 v2 v5 v8 v12 v19 v22)) 0x00000000#32
    reduces_S10000x64_S10000 (.inl rfl) rfl) shapeCasts_S10000_S10000x1 (ix2 p u) = _
  rw [shapeCast_a_a1_apply, laneSum1_apply]
  rfl

/-- The stored block at `(p, q)`: the centred entry times the reciprocal root of (squares' sum over 64.0, plus the
    offset word), times the scale row, plus the shift row. -/
theorem stored1_apply (v33 : FVec Ideal S10000x64 .f32) (v36 : FVec Ideal S10000x1 .f32) (v44 v48 : Vec Ideal S1x64 .f32)
    (p : Fin 10000) (q : Fin 64) :
    k1_pay1 v33 v36 v44 v48 (ix2 p q)
      = v33 (ix2 p q) * Ideal.rsqrt (Ideal.div (v36 (ix2 p 0)) Cert.Spec.c64 + Cert.Spec.ceps) * v44 (ix2 0 q) + v48 (ix2 0 q) := by
  unfold k1_pay1
  show addf
      (mulf
        (mulf v33
          (broadcastTo S10000x64
            (rsqrt (addf (divf v36 (broadcast S10000x1 (Scalar.ofBits .f32 0x42800000#32)))
              (broadcast S10000x1 (Scalar.ofBits .f32 0x3727C5AC#32))))
            broadcasts_S10000x1_S10000x64))
        (broadcastTo S10000x64 (shapeCast S1x64 v44 shapeCasts_S1x64_S1x64) broadcasts_S1x64_S10000x64))
      (broadcastTo S10000x64 (shapeCast S1x64 v48 shapeCasts_S1x64_S1x64) broadcasts_S1x64_S10000x64) (ix2 p q) = _
  rw [addf_apply, mulf_apply, mulf_apply, broadcastTo_a1_ab_apply, broadcastTo_1b_ab_apply, broadcastTo_1b_ab_apply,
    shapeCast_self, shapeCast_self]
  rfl

/-! ### The whole body -/

theorem pay1_apply (v0 : Vec Ideal S10000x64 .f32) (v2 : Vec Ideal S10000x64 .f32) (v5 : Vec Ideal S64x128 .bf16) (v8 : Vec Ideal S64x128 .bf16) (v12 : Vec Ideal S1x128 .f32) (v19 : Vec Ideal S128x64 .bf16) (v22 : Vec Ideal S1x64 .f32) (v44 v48 : Vec Ideal S1x64 .f32) (p : Fin 10000) (q : Fin 64) :
    k1_pay1 (k1_pay2 v0 v2 v5 v8 v12 v19 v22) (k1_pay3 v0 v2 v5 v8 v12 v19 v22) v44 v48 (ix2 p q)
      = Cert.Spec.rowOut (fun k : Fin 64 => v0 (ix2 p k)) (fun k : Fin 64 => v2 (ix2 p k)) (fun (k : Fin 64) (j : Fin 128) => v5 (ix2 k j))
        (fun (k : Fin 64) (j : Fin 128) => v8 (ix2 k j)) (fun j : Fin 128 => v12 (ix2 0 j)) (fun (j : Fin 128) (l : Fin 64) => v19 (ix2 j l))
        (fun l : Fin 64 => v22 (ix2 0 l)) (fun l : Fin 64 => v44 (ix2 0 l)) (fun l : Fin 64 => v48 (ix2 0 l)) q := by
  have hrow : (fun l : Fin 64 => out1 v0 v2 v5 v8 v12 v19 v22 (ix2 p l))
      = Cert.Spec.layer2 (Cert.Spec.layer1 (fun k : Fin 64 => v0 (ix2 p k)) (fun k : Fin 64 => v2 (ix2 p k)) (fun (k : Fin 64) (j : Fin 128) => v5 (ix2 k j))
        (fun (k : Fin 64) (j : Fin 128) => v8 (ix2 k j)) (fun j : Fin 128 => v12 (ix2 0 j))) (fun (j : Fin 128) (l : Fin 64) => v19 (ix2 j l))
        (fun l : Fin 64 => v22 (ix2 0 l)) :=
    funext fun l => out1_apply v0 v2 v5 v8 v12 v19 v22 p l
  have hc : ∀ l : Fin 64, k1_pay2 v0 v2 v5 v8 v12 v19 v22 (ix2 p l)
      = Cert.Spec.centred (fun l : Fin 64 => out1 v0 v2 v5 v8 v12 v19 v22 (ix2 p l)) l := fun l =>
    (congrFun (centred1_eq v0 v2 v5 v8 v12 v19 v22) (ix2 p l)).trans (cen1_apply _ p l)
  rw [stored1_apply, squares1_apply, hc q, Finset.sum_congr rfl fun l _ => by rw [hc l], hrow]
  rfl

end Cert.KernelIdeal.KBody

end
-- ==== Proof.PreDecode.lean ====
/-
  The precondition read back at the index array.  Its last conjunct says that every word of the
  [2, 800000] index array is at least 0 and below 50000 as a signed word; such a word, read unsigned,
  is below 50000.
-/
import proofs.«425826_j50044958933334_3_alg».proof.Pre_finite_inputs
import proofs.«425826_j50044958933334_3_alg».proof.Proof.Gen.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs Cert.Pre_finite_inputs.Gen

/-- The result of a reduction over every axis has one index. -/
instance : Subsingleton S_.Idx := ⟨fun a b => funext fun d => d.elim0⟩

/-- A word in [0, n) signed is below n unsigned. -/
theorem word_lt (w : BitVec 32) (n : Nat) (hn : n < 2 ^ 31) (h0 : IntOp.cmpi .sge w (0#32) = 1#1)
    (h1 : IntOp.cmpi .slt w (BitVec.ofNat 32 n) = 1#1) : w.toNat < n := by
  rw [IntOp.cmpi_sge] at h0
  rw [IntOp.cmpi_slt] at h1
  rw [StableHlo.Predicate.toInt_ofNat_small n hn] at h1
  have hz : (0#32 : BitVec 32).toInt = 0 := by decide
  rw [hz] at h0
  have h32 := w.isLt
  rw [BitVec.toInt_eq_toNat_cond] at h0 h1
  split at h0 <;> omega

/-- THE PRECONDITION DECODED: every word of the index array names one of the 50000 nodes. -/
theorem idx_lt_of_pre {F : FTy → Type} [FloatOps F]
    (a0 : FVec F S800000x64 .f32) (a1 : FVec F S50000x64 .f32) (a2 : IVec S2x800000 32) (a3 : IVec S50000 32)
    (a4 : FVec F S192x128 .f32) (a5 : FVec F S128 .f32) (a6 : FVec F S128x64 .f32) (a7 : FVec F S64 .f32)
    (a8 : FVec F S64 .f32) (a9 : FVec F S64 .f32) (a10 : FVec F S128x128 .f32) (a11 : FVec F S128 .f32)
    (a12 : FVec F S128x64 .f32) (a13 : FVec F S64 .f32) (a14 : FVec F S64 .f32) (a15 : FVec F S64 .f32)
    (h : Cert.Pre_finite_inputs.fn (F := F) a0 a1 a2 a3 a4 a5 a6 a7 a8 a9 a10 a11 a12 a13 a14 a15 = fun _ => 1#1)
    (i : S2x800000.Idx) : (a2 i).toNat < 50000 := by
  have e := congrFun h ValueIdx.ix0
  dsimp only [Cert.Pre_finite_inputs.fn, fn_part1, fn_part2, fn_part3, fn_part4] at e
  have e2 := (IntOp.andi_eq_one.1 e).2
  have e3 := Host.reduce_andi_all _ _ _ _ _ e2 i
  obtain ⟨h0, h1⟩ := IntOp.andi_eq_one.1 e3
  exact word_lt (a2 i) 50000 (by decide) h0 h1

end Cert.PreDecode

end
-- ==== Proof.RefStages.lean ====
/-
  The reference program's values as functions of its argument arrays.

  Each definition composes the operations of the printed program's lines, in their order: the two rows of the index
  array, the wrap of a negative index, the two row gathers and their concatenation with the edge features, the two
  layers and the row normalisation over 800000 rows; the sum of the new edge rows onto their receiver rows; the
  concatenation of the node features with that sum, and the two layers and the normalisation over 50000 rows.
-/
import proofs.«425826_j50044958933334_3_alg».proof.ReferenceIdeal
import proofs.«425826_j50044958933334_3_alg».proof.Proof.Gen.ReferenceIdeal

noncomputable section

namespace Cert.ReferenceIdeal.Stages

open Idealize.ShloMosaic Idealize.SL.Sem
open Cert.ReferenceIdeal Cert.ReferenceIdeal.Facts₀ Cert.ReferenceIdeal.Facts

variable {F : FTy → Type} [FloatOps F] [Facts]

/-- Row 0 of the index array (the senders), as a vector of 800000 words. -/
def idxRow0 (a2 : (⟨S2x800000, .i32⟩ : BufTy).Contents (Elt F)) : (⟨S800000, .i32⟩ : BufTy).Contents (Elt F) :=
  shapeCast S800000 (extractStridedSlice S1x800000 ![0, 0] a2 slices_S2x800000_S1x800000_0_0) shapeCasts_S1x800000_S800000

/-- Row 1 of the index array (the receivers), as a vector of 800000 words. -/
def idxRow1 (a2 : (⟨S2x800000, .i32⟩ : BufTy).Contents (Elt F)) : (⟨S800000, .i32⟩ : BufTy).Contents (Elt F) :=
  shapeCast S800000 (extractStridedSlice S1x800000 ![1, 0] a2 slices_S2x800000_S1x800000_1_0) shapeCasts_S1x800000_S800000

/-- A negative index word has 50000 added; the result as a column. -/
def wrapIdx (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The rows of the node features the wrapped words name. -/
def gatherRows (a1 : (⟨S50000x64, .f32⟩ : BufTy).Contents (Elt F)) (v : (⟨S800000, .i32⟩ : BufTy).Contents (Elt F)) : (⟨S800000x64, .f32⟩ : BufTy).Contents (Elt F) :=
  Host.gather gather_S50000x64_S800000x1_S800000x64_1_0_n_n_0_1_164 a1 (wrapIdx (F := F) v)

/-- The input rows of the edge half: receiver features, sender features, edge features, side by side. -/
def edgeIn (a0 : (⟨S800000x64, .f32⟩ : BufTy).Contents (Elt F)) (a1 : (⟨S50000x64, .f32⟩ : BufTy).Contents (Elt F)) (a2 : (⟨S2x800000, .i32⟩ : BufTy).Contents (Elt F)) :
    (⟨S800000x192, .f32⟩ : BufTy).Contents (Elt F) :=
  concatenate S800000x192 1
    [⟨S800000x64, gatherRows a1 (idxRow1 (F := F) a2)⟩, ⟨S800000x64, gatherRows a1 (idxRow0 (F := F) a2)⟩, ⟨S800000x64, a0⟩]
    concatenates_S800000x64_S800000x64_S800000x64_S800000x192_d1

/-- The hidden rows of the first layer over 800000 rows: the product with the first weight matrix, the bias along each
    row, and the maximum with zero. -/
def hidden1E (x : (⟨S800000x192, .f32⟩ : BufTy).Contents (Elt F)) (w1 : (⟨S192x128, .f32⟩ : BufTy).Contents (Elt F)) (b1 : (⟨S128, .f32⟩ : BufTy).Contents (Elt F)) :
    (⟨S800000x128, .f32⟩ : BufTy).Contents (Elt F) :=
  maximumf
    (addf (Host.dotGeneral dot_S800000x192_S192x128_S800000x128_1_0_0_1_n_n none x w1)
      (broadcastInDim S800000x128 ![0, 1] bcast_S1x128_S800000x128_0_1 (broadcastInDim S1x128 ![1] bcast_S128_S1x128_1 b1)))
    (broadcastInDim S800000x128 ![] bcast_S_S800000x128 (constant S_ .f32 0x00000000#32))

/-- The rows of the second layer over 800000 rows. -/
def hidden2E (h : (⟨S800000x128, .f32⟩ : BufTy).Contents (Elt F)) (w2 : (⟨S128x64, .f32⟩ : BufTy).Contents (Elt F)) (b2 : (⟨S64, .f32⟩ : BufTy).Contents (Elt F)) :
    (⟨S800000x64, .f32⟩ : BufTy).Contents (Elt F) :=
  maximumf
    (addf (Host.dotGeneral dot_S800000x128_S128x64_S800000x64_1_0_0_1_n_n none h w2)
      (broadcastInDim S800000x64 ![0, 1] bcast_S1x64_S800000x64_0_1 (broadcastInDim S1x64 ![1] bcast_S64_S1x64_1 b2)))
    (broadcastInDim S800000x64 ![] bcast_S_S800000x64 (constant S_ .f32 0x00000000#32))

/-- The mean of each row of 64: its sum from the zero word, divided by the word 64.0. -/
def rowMeanE (h : (⟨S800000x64, .f32⟩ : BufTy).Contents (Elt F)) : (⟨S800000x1, .f32⟩ : BufTy).Contents (Elt F) :=
  Host.divf
    (broadcastInDim S800000x1 ![0] bcast_S800000_S800000x1_0
      (Host.reduceAdd h (constant S_ .f32 0x00000000#32) reducesTo_S800000x64_S800000_d1 h_S_))
    (broadcastInDim S800000x1 ![] bcast_S_S800000x1 (constant S_ .f32 0x42800000#32))

/-- Each row less its mean. -/
def rowCentredE (h : (⟨S800000x64, .f32⟩ : BufTy).Contents (Elt F)) : (⟨S800000x64, .f32⟩ : BufTy).Contents (Elt F) :=
  subf h (broadcastInDim S800000x64 ![0, 1] bcast_S800000x1_S800000x64_0_1 (rowMeanE h))

/-- The divisor of the variance: the word 64.0 less the degrees of freedom (the integer zero) as a float. -/
def varDenE : (⟨S_, .f32⟩ : BufTy).Contents (Elt F) :=
  subf (constant S_ .f32 0x42800000#32) (sitofp .f32 (constantI S_ 32 0#32))

/-- The variance of each row: the sum of the squares of the centred row over the divisor, kept where the divisor is
    positive and the not-a-number word elsewhere. -/
def rowVarE (h : (⟨S800000x64, .f32⟩ : BufTy).Contents (Elt F)) : (⟨S800000x1, .f32⟩ : BufTy).Contents (Elt F) :=
  select
    (broadcastInDim S800000x1 ![] bcast_S_S800000x1 (cmpf .ogt (varDenE (F := F)) (constant S_ .f32 0x00000000#32)))
    (Host.divf
      (broadcastInDim S800000x1 ![0] bcast_S800000_S800000x1_0
        (Host.reduceAdd (mulf (rowCentredE h) (rowCentredE h)) (constant S_ .f32 0x00000000#32)
          reducesTo_S800000x64_S800000_d1 h_S_))
      (broadcastInDim S800000x1 ![] bcast_S_S800000x1 (varDenE (F := F))))
    (broadcastInDim S800000x1 ![] bcast_S_S800000x1 (id (constant S_ .f32 0x7FC00000#32)))

/-- The normalisation of each row: centred, scaled by the reciprocal root of variance plus the offset word, then by
    the gain, shifted by the bias. -/
def rowNormE (h : (⟨S800000x64, .f32⟩ : BufTy).Contents (Elt F)) (g bt : (⟨S64, .f32⟩ : BufTy).Contents (Elt F)) : (⟨S800000x64, .f32⟩ : BufTy).Contents (Elt F) :=
  addf
    (mulf
      (mulf (rowCentredE h)
        (broadcastInDim S800000x64 ![0, 1] bcast_S800000x1_S800000x64_0_1
          (Host.rsqrt
            (addf (rowVarE h) (broadcastInDim S800000x1 ![] bcast_S_S800000x1 (constant S_ .f32 0x3727C5AC#32))))))
      (broadcastInDim S800000x64 ![0, 1] bcast_S1x64_S800000x64_0_1 (broadcastInDim S1x64 ![1] bcast_S64_S1x64_1 g)))
    (broadcastInDim S800000x64 ![0, 1] bcast_S1x64_S800000x64_0_1 (broadcastInDim S1x64 ![1] bcast_S64_S1x64_1 bt))

/-- Two layers and the normalisation over 800000 rows, as a function of the input rows and the six parameter arrays. -/
def mlpLNE (x : (⟨S800000x192, .f32⟩ : BufTy).Contents (Elt F)) (w1 : (⟨S192x128, .f32⟩ : BufTy).Contents (Elt F)) (b1 : (⟨S128, .f32⟩ : BufTy).Contents (Elt F))
    (w2 : (⟨S128x64, .f32⟩ : BufTy).Contents (Elt F)) (b2 g bt : (⟨S64, .f32⟩ : BufTy).Contents (Elt F)) : (⟨S800000x64, .f32⟩ : BufTy).Contents (Elt F) :=
  rowNormE (hidden2E (hidden1E x w1 b1) w2 b2) g bt

/-- THE UPDATED EDGE FEATURES, as the reference computes them. -/
def edgeNew (a0 : (⟨S800000x64, .f32⟩ : BufTy).Contents (Elt F)) (a1 : (⟨S50000x64, .f32⟩ : BufTy).Contents (Elt F)) (a2 : (⟨S2x800000, .i32⟩ : BufTy).Contents (Elt F))
    (a4 : (⟨S192x128, .f32⟩ : BufTy).Contents (Elt F)) (a5 : (⟨S128, .f32⟩ : BufTy).Contents (Elt F)) (a6 : (⟨S128x64, .f32⟩ : BufTy).Contents (Elt F))
    (a7 a8 a9 : (⟨S64, .f32⟩ : BufTy).Contents (Elt F)) : (⟨S800000x64, .f32⟩ : BufTy).Contents (Elt F) :=
  mlpLNE (edgeIn a0 a1 a2) a4 a5 a6 a7 a8 a9

/-- THE SUM OF THE NEW EDGE ROWS ONTO THEIR RECEIVER ROWS, from an array of zeros. -/
def agg (a2 : (⟨S2x800000, .i32⟩ : BufTy).Contents (Elt F)) (eN : (⟨S800000x64, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (idxRow1 (F := F) a2)) eN

/-- The input rows of the node half: node features and the summed edge rows, side by side. -/
def nodeIn (a1 ag : (⟨S50000x64, .f32⟩ : BufTy).Contents (Elt F)) : (⟨S50000x128, .f32⟩ : BufTy).Contents (Elt F) :=
  concatenate S50000x128 1 [⟨S50000x64, a1⟩, ⟨S50000x64, ag⟩] concatenates_S50000x64_S50000x64_S50000x128_d1

/-- The hidden rows of the first layer over 50000 rows: the product with the first weight matrix, the bias along each
    row, and the maximum with zero. -/
def hidden1N (x : (⟨S50000x128, .f32⟩ : BufTy).Contents (Elt F)) (w1 : (⟨S128x128, .f32⟩ : BufTy).Contents (Elt F)) (b1 : (⟨S128, .f32⟩ : BufTy).Contents (Elt F)) :
    (⟨S50000x128, .f32⟩ : BufTy).Contents (Elt F) :=
  maximumf
    (addf (Host.dotGeneral dot_S50000x128_S128x128_S50000x128_1_0_0_1_n_n none x w1)
      (broadcastInDim S50000x128 ![0, 1] bcast_S1x128_S50000x128_0_1 (broadcastInDim S1x128 ![1] bcast_S128_S1x128_1 b1)))
    (broadcastInDim S50000x128 ![] bcast_S_S50000x128 (constant S_ .f32 0x00000000#32))

/-- The rows of the second layer over 50000 rows. -/
def hidden2N (h : (⟨S50000x128, .f32⟩ : BufTy).Contents (Elt F)) (w2 : (⟨S128x64, .f32⟩ : BufTy).Contents (Elt F)) (b2 : (⟨S64, .f32⟩ : BufTy).Contents (Elt F)) :
    (⟨S50000x64, .f32⟩ : BufTy).Contents (Elt F) :=
  maximumf
    (addf (Host.dotGeneral dot_S50000x128_S128x64_S50000x64_1_0_0_1_n_n none h w2)
      (broadcastInDim S50000x64 ![0, 1] bcast_S1x64_S50000x64_0_1 (broadcastInDim S1x64 ![1] bcast_S64_S1x64_1 b2)))
    (broadcastInDim S50000x64 ![] bcast_S_S50000x64 (constant S_ .f32 0x00000000#32))

/-- The mean of each row of 64: its sum from the zero word, divided by the word 64.0. -/
def rowMeanN (h : (⟨S50000x64, .f32⟩ : BufTy).Contents (Elt F)) : (⟨S50000x1, .f32⟩ : BufTy).Contents (Elt F) :=
  Host.divf
    (broadcastInDim S50000x1 ![0] bcast_S50000_S50000x1_0
      (Host.reduceAdd h (constant S_ .f32 0x00000000#32) reducesTo_S50000x64_S50000_d1 h_S_))
    (broadcastInDim S50000x1 ![] bcast_S_S50000x1 (constant S_ .f32 0x42800000#32))

/-- Each row less its mean. -/
def rowCentredN (h : (⟨S50000x64, .f32⟩ : BufTy).Contents (Elt F)) : (⟨S50000x64, .f32⟩ : BufTy).Contents (Elt F) :=
  subf h (broadcastInDim S50000x64 ![0, 1] bcast_S50000x1_S50000x64_0_1 (rowMeanN h))

/-- The divisor of the variance: the word 64.0 less the degrees of freedom (the integer zero) as a float. -/
def varDenN : (⟨S_, .f32⟩ : BufTy).Contents (Elt F) :=
  subf (constant S_ .f32 0x42800000#32) (sitofp .f32 (constantI S_ 32 0#32))

/-- The variance of each row: the sum of the squares of the centred row over the divisor, kept where the divisor is
    positive and the not-a-number word elsewhere. -/
def rowVarN (h : (⟨S50000x64, .f32⟩ : BufTy).Contents (Elt F)) : (⟨S50000x1, .f32⟩ : BufTy).Contents (Elt F) :=
  select
    (broadcastInDim S50000x1 ![] bcast_S_S50000x1 (cmpf .ogt (varDenN (F := F)) (constant S_ .f32 0x00000000#32)))
    (Host.divf
      (broadcastInDim S50000x1 ![0] bcast_S50000_S50000x1_0
        (Host.reduceAdd (mulf (rowCentredN h) (rowCentredN h)) (constant S_ .f32 0x00000000#32)
          reducesTo_S50000x64_S50000_d1 h_S_))
      (broadcastInDim S50000x1 ![] bcast_S_S50000x1 (varDenN (F := F))))
    (broadcastInDim S50000x1 ![] bcast_S_S50000x1 (id (constant S_ .f32 0x7FC00000#32)))

/-- The normalisation of each row: centred, scaled by the reciprocal root of variance plus the offset word, then by
    the gain, shifted by the bias. -/
def rowNormN (h : (⟨S50000x64, .f32⟩ : BufTy).Contents (Elt F)) (g bt : (⟨S64, .f32⟩ : BufTy).Contents (Elt F)) : (⟨S50000x64, .f32⟩ : BufTy).Contents (Elt F) :=
  addf
    (mulf
      (mulf (rowCentredN h)
        (broadcastInDim S50000x64 ![0, 1] bcast_S50000x1_S50000x64_0_1
          (Host.rsqrt
            (addf (rowVarN h) (broadcastInDim S50000x1 ![] bcast_S_S50000x1 (constant S_ .f32 0x3727C5AC#32))))))
      (broadcastInDim S50000x64 ![0, 1] bcast_S1x64_S50000x64_0_1 (broadcastInDim S1x64 ![1] bcast_S64_S1x64_1 g)))
    (broadcastInDim S50000x64 ![0, 1] bcast_S1x64_S50000x64_0_1 (broadcastInDim S1x64 ![1] bcast_S64_S1x64_1 bt))

/-- Two layers and the normalisation over 50000 rows, as a function of the input rows and the six parameter arrays. -/
def mlpLNN (x : (⟨S50000x128, .f32⟩ : BufTy).Contents (Elt F)) (w1 : (⟨S128x128, .f32⟩ : BufTy).Contents (Elt F)) (b1 : (⟨S128, .f32⟩ : BufTy).Contents (Elt F))
    (w2 : (⟨S128x64, .f32⟩ : BufTy).Contents (Elt F)) (b2 g bt : (⟨S64, .f32⟩ : BufTy).Contents (Elt F)) : (⟨S50000x64, .f32⟩ : BufTy).Contents (Elt F) :=
  rowNormN (hidden2N (hidden1N x w1 b1) w2 b2) g bt

/-- THE UPDATED NODE FEATURES, as the reference computes them from the node features and the summed edge rows. -/
def nodeNew (a1 ag : (⟨S50000x64, .f32⟩ : BufTy).Contents (Elt F)) (a10 : (⟨S128x128, .f32⟩ : BufTy).Contents (Elt F)) (a11 : (⟨S128, .f32⟩ : BufTy).Contents (Elt F))
    (a12 : (⟨S128x64, .f32⟩ : BufTy).Contents (Elt F)) (a13 a14 a15 : (⟨S64, .f32⟩ : BufTy).Contents (Elt F)) : (⟨S50000x64, .f32⟩ : BufTy).Contents (Elt F) :=
  mlpLNN (nodeIn a1 ag) a10 a11 a12 a13 a14 a15

end Cert.ReferenceIdeal.Stages

end
-- ==== Proof.RefRunA.lean ====
/-
  The reference's first sixty statements as a list of operations, and what the list leaves in the buffers.

  Each call of a module-local function is its body's operations written in place over the call's own buffers: the two
  rectifiers are three operations each (the zero, its broadcast, the maximum); the variance is twenty of its own (two
  row sums, the two divisions, the centring and squaring, the count `64 - 0` and its sign test) followed by the three of
  the selection it calls (the not-a-number word converted, broadcast, the select).  The window is then one straight line
  of eighty-six operations, and running it is folding their results over the launch contents: the buffer of %46 ends at
  the updated edge features, the buffer of %50 at the node features beside the summed edge rows, both as the stage
  functions of the argument buffers; a buffer no operation writes keeps what it held.
-/
import proofs.«425826_j50044958933334_3_alg».proof.ReferenceIdeal
import proofs.«425826_j50044958933334_3_alg».proof.Proof.Gen.ReferenceIdeal
import Idealize.ShloMosaic.Lib.StableHlo.Run
import proofs.«425826_j50044958933334_3_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60, the calls unfolded: eighty-six operations in order. -/
abbrev ops0 : List (HloOp τ sig (Elt F)) :=
  [ unary main_arg2 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg2 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg1 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_c_1 (constantI S_ 32 0#32),
    unary main_c_1 main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_arg1 main_v16 main_v17 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nary ![main_v17, main_v10, main_arg0] main_v18 (fun u => concatenate S800000x192 1 [⟨S800000x64, u 0⟩, ⟨S800000x64, u 1⟩, ⟨S800000x64, u 2⟩] concatenates_S800000x64_S800000x64_S800000x64_S800000x192_d1),
    binary main_v18 main_arg4 main_v19 ((fun l r => Host.dotGeneral dot_S800000x192_S192x128_S800000x128_1_0_0_1_n_n none l r) : (⟨S800000x192, .f32⟩ : BufTy).Contents (Elt F) → (⟨S192x128, .f32⟩ : BufTy).Contents (Elt F) → (⟨S800000x128, .f32⟩ : BufTy).Contents (Elt F)),
    unary main_arg5 main_v20 (broadcastInDim S1x128 ![1] bcast_S128_S1x128_1 : (⟨S128, .f32⟩ : BufTy).Contents (Elt F) → (⟨S1x128, .f32⟩ : BufTy).Contents (Elt F)),
    unary main_v20 main_v21 (broadcastInDim S800000x128 ![0, 1] bcast_S1x128_S800000x128_0_1 : (⟨S1x128, .f32⟩ : BufTy).Contents (Elt F) → (⟨S800000x128, .f32⟩ : BufTy).Contents (Elt F)),
    binary main_v19 main_v21 main_v22 (addf : (⟨S800000x128, .f32⟩ : BufTy).Contents (Elt F) → (⟨S800000x128, .f32⟩ : BufTy).Contents (Elt F) → (⟨S800000x128, .f32⟩ : BufTy).Contents (Elt F)),
    TRef.nullary main_call0.cst (constant S_ .f32 0x00000000#32),
    TRef.unary main_call0.cst main_call0.v0 (broadcastInDim S800000x128 ![] bcast_S_S800000x128),
    TRef.binary (.of main_v22 : TRef sig ⟨S800000x128, .f32⟩) main_call0.v0 main_call0.v1 maximumf,
    binary main_v23 main_arg6 main_v24 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg7 main_v25 (broadcastInDim S1x64 ![1] bcast_S64_S1x64_1 : (⟨S64, .f32⟩ : BufTy).Contents (Elt F) → (⟨S1x64, .f32⟩ : BufTy).Contents (Elt F)),
    unary main_v25 main_v26 (broadcastInDim S800000x64 ![0, 1] bcast_S1x64_S800000x64_0_1 : (⟨S1x64, .f32⟩ : BufTy).Contents (Elt F) → (⟨S800000x64, .f32⟩ : BufTy).Contents (Elt F)),
    binary main_v24 main_v26 main_v27 (addf : (⟨S800000x64, .f32⟩ : BufTy).Contents (Elt F) → (⟨S800000x64, .f32⟩ : BufTy).Contents (Elt F) → (⟨S800000x64, .f32⟩ : BufTy).Contents (Elt F)),
    TRef.nullary main_call1.cst (constant S_ .f32 0x00000000#32),
    TRef.unary main_call1.cst main_call1.v0 (broadcastInDim S800000x64 ![] bcast_S_S800000x64),
    TRef.binary (.of main_v27 : TRef sig ⟨S800000x64, .f32⟩) main_call1.v0 main_call1.v1 maximumf,
    nullary main_cst (constant S_ .f32 0x00000000#32),
    binary main_v28 main_cst main_v29 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),
    unary main_v29 main_v30 (broadcastInDim S800000x1 ![0] bcast_S800000_S800000x1_0 : (⟨S800000, .f32⟩ : BufTy).Contents (Elt F) → (⟨S800000x1, .f32⟩ : BufTy).Contents (Elt F)),
    nullary main_cst_3 (constant S_ .f32 0x42800000#32),
    unary main_cst_3 main_v31 (broadcastInDim S800000x1 ![] bcast_S_S800000x1 : (⟨S_, .f32⟩ : BufTy).Contents (Elt F) → (⟨S800000x1, .f32⟩ : BufTy).Contents (Elt F)),
    binary main_v30 main_v31 main_v32 (Host.divf : (⟨S800000x1, .f32⟩ : BufTy).Contents (Elt F) → (⟨S800000x1, .f32⟩ : BufTy).Contents (Elt F) → (⟨S800000x1, .f32⟩ : BufTy).Contents (Elt F)),
    nullary main_c_4 (constantI S_ 32 0#32),
    TRef.nullary main_call2.cst (constant S_ .f32 0x00000000#32),
    TRef.binary (.of main_v28 : TRef sig ⟨S800000x64, .f32⟩) main_call2.cst main_call2.v0 (fun x v => Host.reduceAdd x v reducesTo_S800000x64_S800000_d1 h_S_),
    TRef.unary main_call2.v0 main_call2.v1 (broadcastInDim S800000x1 ![0] bcast_S800000_S800000x1_0),
    TRef.nullary main_call2.cst_0 (constant S_ .f32 0x42800000#32),
    TRef.unary main_call2.cst_0 main_call2.v2 (broadcastInDim S800000x1 ![] bcast_S_S800000x1),
    TRef.binary main_call2.v1 main_call2.v2 main_call2.v3 Host.divf,
    TRef.unary main_call2.v3 main_call2.v4 (broadcastInDim S800000x64 ![0, 1] bcast_S800000x1_S800000x64_0_1),
    TRef.binary (.of main_v28 : TRef sig ⟨S800000x64, .f32⟩) main_call2.v4 main_call2.v5 subf,
    TRef.binary main_call2.v5 main_call2.v5 main_call2.v6 mulf,
    TRef.unary (.of main_c_4 : TRef sig ⟨S_, .i32⟩) main_call2.v7 (sitofp .f32),
    TRef.nullary main_call2.cst_1 (constant S_ .f32 0x42800000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S800000x64_S800000_d1 h_S_),
    TRef.unary main_call2.v9 main_call2.v10 (broadcastInDim S800000x1 ![0] bcast_S800000_S800000x1_0),
    TRef.unary main_call2.v8 main_call2.v11 (broadcastInDim S800000x1 ![] bcast_S_S800000x1),
    TRef.binary main_call2.v10 main_call2.v11 main_call2.v12 Host.divf,
    TRef.nullary main_call2.cst_3 (constant S_ .f32 0x00000000#32),
    TRef.binary main_call2.v8 main_call2.cst_3 main_call2.v13 (cmpf .ogt),
    TRef.nullary main_call2.cst_4 (constant S_ .f32 0x7FC00000#32),
    TRef.unary main_call2.cst_4 main_call2.call0.v0 id,
    TRef.unary main_call2.call0.v0 main_call2.call0.v1 (broadcastInDim S800000x1 ![] bcast_S_S800000x1),
    TRef.ternary main_call2.v13 main_call2.v12 main_call2.call0.v1 main_call2.call0.v2 (fun p a b => select (broadcastInDim S800000x1 ![] bcast_S_S800000x1 p) a b),
    unary main_v32 main_v34 (broadcastInDim S800000x64 ![0, 1] bcast_S800000x1_S800000x64_0_1 : (⟨S800000x1, .f32⟩ : BufTy).Contents (Elt F) → (⟨S800000x64, .f32⟩ : BufTy).Contents (Elt F)),
    binary main_v28 main_v34 main_v35 (subf : (⟨S800000x64, .f32⟩ : BufTy).Contents (Elt F) → (⟨S800000x64, .f32⟩ : BufTy).Contents (Elt F) → (⟨S800000x64, .f32⟩ : BufTy).Contents (Elt F)),
    nullary main_cst_5 (constant S_ .f32 0x3727C5AC#32),
    unary main_cst_5 main_v36 (broadcastInDim S800000x1 ![] bcast_S_S800000x1 : (⟨S_, .f32⟩ : BufTy).Contents (Elt F) → (⟨S800000x1, .f32⟩ : BufTy).Contents (Elt F)),
    binary main_v33 main_v36 main_v37 (addf : (⟨S800000x1, .f32⟩ : BufTy).Contents (Elt F) → (⟨S800000x1, .f32⟩ : BufTy).Contents (Elt F) → (⟨S800000x1, .f32⟩ : BufTy).Contents (Elt F)),
    unary main_v37 main_v38 (Host.rsqrt : (⟨S800000x1, .f32⟩ : BufTy).Contents (Elt F) → (⟨S800000x1, .f32⟩ : BufTy).Contents (Elt F)),
    unary main_v38 main_v39 (broadcastInDim S800000x64 ![0, 1] bcast_S800000x1_S800000x64_0_1 : (⟨S800000x1, .f32⟩ : BufTy).Contents (Elt F) → (⟨S800000x64, .f32⟩ : BufTy).Contents (Elt F)),
    binary main_v35 main_v39 main_v40 (mulf : (⟨S800000x64, .f32⟩ : BufTy).Contents (Elt F) → (⟨S800000x64, .f32⟩ : BufTy).Contents (Elt F) → (⟨S800000x64, .f32⟩ : BufTy).Contents (Elt F)),
    unary main_arg8 main_v41 (broadcastInDim S1x64 ![1] bcast_S64_S1x64_1 : (⟨S64, .f32⟩ : BufTy).Contents (Elt F) → (⟨S1x64, .f32⟩ : BufTy).Contents (Elt F)),
    unary main_v41 main_v42 (broadcastInDim S800000x64 ![0, 1] bcast_S1x64_S800000x64_0_1 : (⟨S1x64, .f32⟩ : BufTy).Contents (Elt F) → (⟨S800000x64, .f32⟩ : BufTy).Contents (Elt F)),
    binary main_v40 main_v42 main_v43 (mulf : (⟨S800000x64, .f32⟩ : BufTy).Contents (Elt F) → (⟨S800000x64, .f32⟩ : BufTy).Contents (Elt F) → (⟨S800000x64, .f32⟩ : BufTy).Contents (Elt F)),
    unary main_arg9 main_v44 (broadcastInDim S1x64 ![1] bcast_S64_S1x64_1 : (⟨S64, .f32⟩ : BufTy).Contents (Elt F) → (⟨S1x64, .f32⟩ : BufTy).Contents (Elt F)),
    unary main_v44 main_v45 (broadcastInDim S800000x64 ![0, 1] bcast_S1x64_S800000x64_0_1 : (⟨S1x64, .f32⟩ : BufTy).Contents (Elt F) → (⟨S800000x64, .f32⟩ : BufTy).Contents (Elt F)),
    binary main_v43 main_v45 main_v46 (addf : (⟨S800000x64, .f32⟩ : BufTy).Contents (Elt F) → (⟨S800000x64, .f32⟩ : BufTy).Contents (Elt F) → (⟨S800000x64, .f32⟩ : BufTy).Contents (Elt F)),
    nullary main_cst_6 (constant S_ .f32 0x00000000#32),
    unary main_cst_6 main_v47 (broadcastInDim S50000x64 ![] bcast_S_S50000x64 : (⟨S_, .f32⟩ : BufTy).Contents (Elt F) → (⟨S50000x64, .f32⟩ : BufTy).Contents (Elt F)),
    unary main_v3 main_v48 (broadcastInDim S800000x1 ![0] bcast_S800000_S800000x1_0 : (⟨S800000, .i32⟩ : BufTy).Contents (Elt F) → (⟨S800000x1, .i32⟩ : BufTy).Contents (Elt F)),
    ternary main_v47 main_v48 main_v46 main_v49 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_arg1 main_v49 main_v50 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)) ]

-- eighty-six binds re-associated: the rewriting under the chain recurses once per statement
set_option maxRecDepth 4096 in
set_option maxHeartbeats 1600000 in
/-- The first window is that straight line: the functions' definitions unfolded at their calls, both sides are one chain
    of steps once sequencing is re-associated. -/
theorem part0_eq (c : Dev nD) : main_part0 (F := F) c = seq ops0 := by
  simp only [main_part0, fn_relu.body, fn_relu_0.body, fn_var.body, fn_where.body, seq, bind_assoc, pure_bind]
  rfl

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., binary_bufs_sub .., unary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., unary_bufs_sub ..,
    binary_bufs_sub .., nullary_bufs_sub .., binary_bufs_sub .., nullary_bufs_sub .., unary_bufs_sub .., unary_bufs_sub ..,
    ternary_bufs_sub .., unary_bufs_sub .., binary_bufs_sub .., nullary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., unary_bufs_sub ..,
    ternary_bufs_sub .., binary_bufs_sub ..⟩

/-- The buffers the window's operations write, in order. -/
abbrev ops0_W : List (Ref sig .tc) :=
  [main_v0, main_v1, main_v2, main_v3, main_c, main_v4, main_v5, main_c_0,
   main_v6, main_v7, main_v8, main_v9, main_v10, main_c_1, main_v11, main_v12,
   main_c_2, main_v13, main_v14, main_v15, main_v16, main_v17, main_v18, main_v19,
   main_v20, main_v21, main_v22, main_call0_cst, main_call0_v0, main_v23, main_v24, main_v25,
   main_v26, main_v27, main_call1_cst, main_call1_v0, main_v28, main_cst, main_v29, main_v30,
   main_cst_3, main_v31, main_v32, main_c_4, main_call2_cst, main_call2_v0, main_call2_v1, main_call2_cst_0,
   main_call2_v2, main_call2_v3, main_call2_v4, main_call2_v5, main_call2_v6, main_call2_v7, main_call2_cst_1, main_call2_v8,
   main_call2_cst_2, main_call2_v9, main_call2_v10, main_call2_v11, main_call2_v12, main_call2_cst_3, main_call2_v13, main_call2_cst_4,
   main_call2_call0_v0, main_call2_call0_v1, main_v33, main_v34, main_v35, main_cst_5, main_v36, main_v37,
   main_v38, main_v39, main_v40, main_v41, main_v42, main_v43, main_v44, main_v45,
   main_v46, main_cst_6, main_v47, main_v48, main_v49, main_v50]

set_option maxRecDepth 4096 in
theorem ops0_writes : (ops0 : List (HloOp τ sig (Elt F))).Forall fun op =>
    op.writes ⊆ (ops0_W.map (Proc.devRef (τ := τ) .tc)).toFinset := by
  simp only [List.Forall, nullary_writes, unary_writes, binary_writes, ternary_writes, reshape_writes, nary_writes,
    Finset.singleton_subset_iff, List.mem_toFinset]
  repeat' apply And.intro
  all_goals exact List.mem_map_of_mem (by decide)

/-- A buffer the window does not write keeps its contents through it. -/
theorem ops0_keep (V : Valuation τ sig (Elt F)) (r : Ref sig .tc) (h : r ∉ ops0_W) :
    after ops0 V (Proc.devRef .tc r) = V (Proc.devRef .tc r) :=
  after_of_writes_sub ops0 V ops0_writes h

/-- The result of an operation over a literal family of three operand buffers, each operand's contents at its own
    reference (the family applied to a bound index names no literal reference, and no further result could be read under
    the binder). -/
theorem nary3_result' {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

set_option maxRecDepth 8192 in
set_option maxHeartbeats 1600000 in
/-- The buffer of %46 after the window: each operation's result read at its own buffer and passed over at every other,
    the composed term is the stage function's own body. -/
theorem part0_v46 (V : Valuation τ sig (Elt F)) :
    after ops0 V (main_v46 : DevRef τ sig) = Stages.edgeNew (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  simp (disch := decide) only [after_cons, after_nil, nullary_result', unary_result', binary_result', ternary_result', reshape_result', nary3_result',
    nullary_result_ne', unary_result_ne', binary_result_ne', ternary_result_ne', reshape_result_ne', nary_result_ne']
  rfl

set_option maxRecDepth 8192 in
set_option maxHeartbeats 1600000 in
/-- The buffer of %50 after the window: the node features beside the sum of the new edge rows onto their receivers. -/
theorem part0_v50 (V : Valuation τ sig (Elt F)) :
    after ops0 V (main_v50 : DevRef τ sig)
      = Stages.nodeIn (V (main_arg1 : DevRef τ sig)) (Stages.agg (V (main_arg2 : DevRef τ sig)) (Stages.edgeNew (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)))) := by
  simp (disch := decide) only [after_cons, after_nil, nullary_result', unary_result', binary_result', ternary_result', reshape_result', nary3_result',
    nullary_result_ne', unary_result_ne', binary_result_ne', ternary_result_ne', reshape_result_ne', nary_result_ne']
  rfl

end Cert.ReferenceIdeal.Hand

end
-- ==== Proof.RefRunB.lean ====
/-
  The reference's statements 61 to 93 as a list of operations, and what the list leaves in the buffers.

  The calls are written in place as in the first window: two rectifiers of three operations, the variance's twenty and
  the three of the selection it calls, over 50000 rows.  The fifty-eight operations read the buffer of %50 (the node
  features beside the summed edge rows, left by the first window) and the six parameter buffers; the buffer of %78 ends
  at the two layers and the normalisation of those rows, and a buffer no operation writes keeps what it held.
-/
import proofs.«425826_j50044958933334_3_alg».proof.ReferenceIdeal
import proofs.«425826_j50044958933334_3_alg».proof.Proof.Gen.ReferenceIdeal
import Idealize.ShloMosaic.Lib.StableHlo.Run
import proofs.«425826_j50044958933334_3_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 61 … 93, the calls unfolded: fifty-eight operations in order. -/
abbrev ops1 : List (HloOp τ sig (Elt F)) :=
  [ binary main_v50 main_arg10 main_v51 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v52 (broadcastInDim S1x128 ![1] bcast_S128_S1x128_1 : (⟨S128, .f32⟩ : BufTy).Contents (Elt F) → (⟨S1x128, .f32⟩ : BufTy).Contents (Elt F)),
    unary main_v52 main_v53 (broadcastInDim S50000x128 ![0, 1] bcast_S1x128_S50000x128_0_1 : (⟨S1x128, .f32⟩ : BufTy).Contents (Elt F) → (⟨S50000x128, .f32⟩ : BufTy).Contents (Elt F)),
    binary main_v51 main_v53 main_v54 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v54 : TRef sig ⟨S50000x128, .f32⟩) main_call3.v0 main_call3.v1 maximumf,
    binary main_v55 main_arg12 main_v56 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg13 main_v57 (broadcastInDim S1x64 ![1] bcast_S64_S1x64_1 : (⟨S64, .f32⟩ : BufTy).Contents (Elt F) → (⟨S1x64, .f32⟩ : BufTy).Contents (Elt F)),
    unary main_v57 main_v58 (broadcastInDim S50000x64 ![0, 1] bcast_S1x64_S50000x64_0_1 : (⟨S1x64, .f32⟩ : BufTy).Contents (Elt F) → (⟨S50000x64, .f32⟩ : BufTy).Contents (Elt F)),
    binary main_v56 main_v58 main_v59 (addf : (⟨S50000x64, .f32⟩ : BufTy).Contents (Elt F) → (⟨S50000x64, .f32⟩ : BufTy).Contents (Elt F) → (⟨S50000x64, .f32⟩ : BufTy).Contents (Elt F)),
    TRef.nullary main_call4.cst (constant S_ .f32 0x00000000#32),
    TRef.unary main_call4.cst main_call4.v0 (broadcastInDim S50000x64 ![] bcast_S_S50000x64),
    TRef.binary (.of main_v59 : TRef sig ⟨S50000x64, .f32⟩) main_call4.v0 main_call4.v1 maximumf,
    nullary main_cst_7 (constant S_ .f32 0x00000000#32),
    binary main_v60 main_cst_7 main_v61 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v61 main_v62 (broadcastInDim S50000x1 ![0] bcast_S50000_S50000x1_0 : (⟨S50000, .f32⟩ : BufTy).Contents (Elt F) → (⟨S50000x1, .f32⟩ : BufTy).Contents (Elt F)),
    nullary main_cst_8 (constant S_ .f32 0x42800000#32),
    unary main_cst_8 main_v63 (broadcastInDim S50000x1 ![] bcast_S_S50000x1 : (⟨S_, .f32⟩ : BufTy).Contents (Elt F) → (⟨S50000x1, .f32⟩ : BufTy).Contents (Elt F)),
    binary main_v62 main_v63 main_v64 (Host.divf : (⟨S50000x1, .f32⟩ : BufTy).Contents (Elt F) → (⟨S50000x1, .f32⟩ : BufTy).Contents (Elt F) → (⟨S50000x1, .f32⟩ : BufTy).Contents (Elt F)),
    nullary main_c_9 (constantI S_ 32 0#32),
    TRef.nullary main_call5.cst (constant S_ .f32 0x00000000#32),
    TRef.binary (.of main_v60 : TRef sig ⟨S50000x64, .f32⟩) main_call5.cst main_call5.v0 (fun x v => Host.reduceAdd x v reducesTo_S50000x64_S50000_d1 h_S_),
    TRef.unary main_call5.v0 main_call5.v1 (broadcastInDim S50000x1 ![0] bcast_S50000_S50000x1_0),
    TRef.nullary main_call5.cst_0 (constant S_ .f32 0x42800000#32),
    TRef.unary main_call5.cst_0 main_call5.v2 (broadcastInDim S50000x1 ![] bcast_S_S50000x1),
    TRef.binary main_call5.v1 main_call5.v2 main_call5.v3 Host.divf,
    TRef.unary main_call5.v3 main_call5.v4 (broadcastInDim S50000x64 ![0, 1] bcast_S50000x1_S50000x64_0_1),
    TRef.binary (.of main_v60 : TRef sig ⟨S50000x64, .f32⟩) main_call5.v4 main_call5.v5 subf,
    TRef.binary main_call5.v5 main_call5.v5 main_call5.v6 mulf,
    TRef.unary (.of main_c_9 : TRef sig ⟨S_, .i32⟩) main_call5.v7 (sitofp .f32),
    TRef.nullary main_call5.cst_1 (constant S_ .f32 0x42800000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S50000x64_S50000_d1 h_S_),
    TRef.unary main_call5.v9 main_call5.v10 (broadcastInDim S50000x1 ![0] bcast_S50000_S50000x1_0),
    TRef.unary main_call5.v8 main_call5.v11 (broadcastInDim S50000x1 ![] bcast_S_S50000x1),
    TRef.binary main_call5.v10 main_call5.v11 main_call5.v12 Host.divf,
    TRef.nullary main_call5.cst_3 (constant S_ .f32 0x00000000#32),
    TRef.binary main_call5.v8 main_call5.cst_3 main_call5.v13 (cmpf .ogt),
    TRef.nullary main_call5.cst_4 (constant S_ .f32 0x7FC00000#32),
    TRef.unary main_call5.cst_4 main_call5.call0.v0 id,
    TRef.unary main_call5.call0.v0 main_call5.call0.v1 (broadcastInDim S50000x1 ![] bcast_S_S50000x1),
    TRef.ternary main_call5.v13 main_call5.v12 main_call5.call0.v1 main_call5.call0.v2 (fun p a b => select (broadcastInDim S50000x1 ![] bcast_S_S50000x1 p) a b),
    unary main_v64 main_v66 (broadcastInDim S50000x64 ![0, 1] bcast_S50000x1_S50000x64_0_1 : (⟨S50000x1, .f32⟩ : BufTy).Contents (Elt F) → (⟨S50000x64, .f32⟩ : BufTy).Contents (Elt F)),
    binary main_v60 main_v66 main_v67 (subf : (⟨S50000x64, .f32⟩ : BufTy).Contents (Elt F) → (⟨S50000x64, .f32⟩ : BufTy).Contents (Elt F) → (⟨S50000x64, .f32⟩ : BufTy).Contents (Elt F)),
    nullary main_cst_10 (constant S_ .f32 0x3727C5AC#32),
    unary main_cst_10 main_v68 (broadcastInDim S50000x1 ![] bcast_S_S50000x1 : (⟨S_, .f32⟩ : BufTy).Contents (Elt F) → (⟨S50000x1, .f32⟩ : BufTy).Contents (Elt F)),
    binary main_v65 main_v68 main_v69 (addf : (⟨S50000x1, .f32⟩ : BufTy).Contents (Elt F) → (⟨S50000x1, .f32⟩ : BufTy).Contents (Elt F) → (⟨S50000x1, .f32⟩ : BufTy).Contents (Elt F)),
    unary main_v69 main_v70 (Host.rsqrt : (⟨S50000x1, .f32⟩ : BufTy).Contents (Elt F) → (⟨S50000x1, .f32⟩ : BufTy).Contents (Elt F)),
    unary main_v70 main_v71 (broadcastInDim S50000x64 ![0, 1] bcast_S50000x1_S50000x64_0_1 : (⟨S50000x1, .f32⟩ : BufTy).Contents (Elt F) → (⟨S50000x64, .f32⟩ : BufTy).Contents (Elt F)),
    binary main_v67 main_v71 main_v72 (mulf : (⟨S50000x64, .f32⟩ : BufTy).Contents (Elt F) → (⟨S50000x64, .f32⟩ : BufTy).Contents (Elt F) → (⟨S50000x64, .f32⟩ : BufTy).Contents (Elt F)),
    unary main_arg14 main_v73 (broadcastInDim S1x64 ![1] bcast_S64_S1x64_1 : (⟨S64, .f32⟩ : BufTy).Contents (Elt F) → (⟨S1x64, .f32⟩ : BufTy).Contents (Elt F)),
    unary main_v73 main_v74 (broadcastInDim S50000x64 ![0, 1] bcast_S1x64_S50000x64_0_1 : (⟨S1x64, .f32⟩ : BufTy).Contents (Elt F) → (⟨S50000x64, .f32⟩ : BufTy).Contents (Elt F)),
    binary main_v72 main_v74 main_v75 (mulf : (⟨S50000x64, .f32⟩ : BufTy).Contents (Elt F) → (⟨S50000x64, .f32⟩ : BufTy).Contents (Elt F) → (⟨S50000x64, .f32⟩ : BufTy).Contents (Elt F)),
    unary main_arg15 main_v76 (broadcastInDim S1x64 ![1] bcast_S64_S1x64_1 : (⟨S64, .f32⟩ : BufTy).Contents (Elt F) → (⟨S1x64, .f32⟩ : BufTy).Contents (Elt F)),
    unary main_v76 main_v77 (broadcastInDim S50000x64 ![0, 1] bcast_S1x64_S50000x64_0_1 : (⟨S1x64, .f32⟩ : BufTy).Contents (Elt F) → (⟨S50000x64, .f32⟩ : BufTy).Contents (Elt F)),
    binary main_v75 main_v77 main_v78 (addf : (⟨S50000x64, .f32⟩ : BufTy).Contents (Elt F) → (⟨S50000x64, .f32⟩ : BufTy).Contents (Elt F) → (⟨S50000x64, .f32⟩ : BufTy).Contents (Elt F)) ]

-- fifty-eight binds re-associated: the rewriting under the chain recurses once per statement
set_option maxRecDepth 4096 in
set_option maxHeartbeats 1600000 in
/-- The second window is that straight line: the functions' definitions unfolded at their calls, both sides are one
    chain of steps once sequencing is re-associated. -/
theorem part1_eq (c : Dev nD) : main_part1 (F := F) c = seq ops1 := by
  simp only [main_part1, fn_relu_1.body, fn_relu_2.body, fn_var_3.body, fn_where_4.body, seq, bind_assoc, pure_bind]

theorem ops1_sub : (ops1 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub ..⟩

/-- The buffers the window's operations write, in order. -/
abbrev ops1_W : List (Ref sig .tc) :=
  [main_v51, main_v52, main_v53, main_v54, main_call3_cst, main_call3_v0, main_v55, main_v56,
   main_v57, main_v58, main_v59, main_call4_cst, main_call4_v0, main_v60, main_cst_7, main_v61,
   main_v62, main_cst_8, main_v63, main_v64, main_c_9, main_call5_cst, main_call5_v0, main_call5_v1,
   main_call5_cst_0, main_call5_v2, main_call5_v3, main_call5_v4, main_call5_v5, main_call5_v6, main_call5_v7, main_call5_cst_1,
   main_call5_v8, main_call5_cst_2, main_call5_v9, main_call5_v10, main_call5_v11, main_call5_v12, main_call5_cst_3, main_call5_v13,
   main_call5_cst_4, main_call5_call0_v0, main_call5_call0_v1, main_v65, main_v66, main_v67, main_cst_10, main_v68,
   main_v69, main_v70, main_v71, main_v72, main_v73, main_v74, main_v75, main_v76,
   main_v77, main_v78]

set_option maxRecDepth 4096 in
theorem ops1_writes : (ops1 : List (HloOp τ sig (Elt F))).Forall fun op =>
    op.writes ⊆ (ops1_W.map (Proc.devRef (τ := τ) .tc)).toFinset := by
  simp only [List.Forall, nullary_writes, unary_writes, binary_writes, ternary_writes,
    Finset.singleton_subset_iff, List.mem_toFinset]
  repeat' apply And.intro
  all_goals exact List.mem_map_of_mem (by decide)

/-- A buffer the window does not write keeps its contents through it. -/
theorem ops1_keep (W : Valuation τ sig (Elt F)) (r : Ref sig .tc) (h : r ∉ ops1_W) :
    after ops1 W (Proc.devRef .tc r) = W (Proc.devRef .tc r) :=
  after_of_writes_sub ops1 W ops1_writes h

set_option maxRecDepth 8192 in
set_option maxHeartbeats 1600000 in
/-- The buffer of %78 after the window, from contents `W`: each operation's result read at its own buffer and passed over
    at every other, the composed term is the stage function's own body over the buffer of %50 and the parameters. -/
theorem part1_v78 (W : Valuation τ sig (Elt F)) :
    after ops1 W (main_v78 : DevRef τ sig) = Stages.mlpLNN (W (main_v50 : DevRef τ sig)) (W (main_arg10 : DevRef τ sig)) (W (main_arg11 : DevRef τ sig)) (W (main_arg12 : DevRef τ sig)) (W (main_arg13 : DevRef τ sig)) (W (main_arg14 : DevRef τ sig)) (W (main_arg15 : DevRef τ sig)) := by
  simp (disch := decide) only [after_cons, after_nil, nullary_result', unary_result', binary_result', ternary_result',
    nullary_result_ne', unary_result_ne', binary_result_ne', ternary_result_ne']
  rfl

end Cert.ReferenceIdeal.Hand

end
-- ==== Proof.RefRun.lean ====
/-
  The reference's run: the two windows joined.

  @main runs its first sixty statements and then the rest, so its operations are the first window's list followed by the
  second's, and the fold over the whole list is the second window's fold over what the first leaves.  The buffer of %46
  is written by the first window and by nothing after it; the buffer of %78 is the second window's result over the
  buffer of %50 and six parameter buffers, which the first window leaves at the stage functions of the arguments and
  untouched; no operation writes an argument buffer.  Every weakly fair execution therefore ends with the two result
  buffers at the stage functions of the launch contents of the arguments, and the sixteen arguments as launched.
-/
import proofs.«425826_j50044958933334_3_alg».proof.Proof.RefRunA
import proofs.«425826_j50044958933334_3_alg».proof.Proof.RefRunB

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, the calls unfolded: the first window's eighty-six, then the second's fifty-eight. -/
abbrev ops : List (HloOp τ sig (Elt F)) := ops0 ++ ops1

/-- @main is that straight line: each window is its list run in order, and two lines run one after the other are their
    concatenation run as one. -/
theorem main_eq (c : Dev nD) : main (F := F) c = seq ops :=
  (congrArg₂ (fun p q => p >>= fun _ => q) (part0_eq c) (part1_eq c)).trans (seq_append ops0 ops1).symm

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨ops0_sub, ops1_sub⟩

/-- Every operation of the first window determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl⟩

/-- Every operation of the second window determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

theorem ops_fresh : ∀ op ∈ (ops : List (HloOp τ sig (Elt F))), op.fresh = ∅ := fun op h =>
  (List.mem_append.mp h).elim (List.forall_iff_forall_mem.mp ops0_fresh op) (List.forall_iff_forall_mem.mp ops1_fresh op)

/-- The fold over two lines in a row is the second line's fold over what the first leaves. -/
theorem after_two : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two l₁ l₂]

/-- The buffer of %46 after @main: the first window's result, which the second window does not write. -/
theorem ops_v46 (V : Valuation τ sig (Elt F)) :
    after ops V (main_v46 : DevRef τ sig) = Stages.edgeNew (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  rw [after_two]
  exact (ops1_keep _ main_v46 (by decide)).trans (part0_v46 V)

/-- The buffer of %78 after @main: the second window's result over what the first leaves in the buffer of %50 and in the
    six parameter buffers. -/
theorem ops_v78 (V : Valuation τ sig (Elt F)) :
    after ops V (main_v78 : DevRef τ sig)
      = Stages.nodeNew (V (main_arg1 : DevRef τ sig)) (Stages.agg (V (main_arg2 : DevRef τ sig)) (Stages.edgeNew (V (main_arg0 : DevRef τ sig)) (V (main_arg1 : DevRef τ sig)) (V (main_arg2 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig))))
          (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [after_two, part1_v78, part0_v50, ops0_keep V main_arg10 (by decide), ops0_keep V main_arg11 (by decide), ops0_keep V main_arg12 (by decide), ops0_keep V main_arg13 (by decide), ops0_keep V main_arg14 (by decide), ops0_keep V main_arg15 (by decide)]
  rfl

/-- A buffer neither window writes keeps its contents through @main. -/
theorem ops_keep (V : Valuation τ sig (Elt F)) (r : Ref sig .tc) (h0 : r ∉ ops0_W) (h1 : r ∉ ops1_W) :
    after ops V (Proc.devRef .tc r) = V (Proc.devRef .tc r) := by
  rw [after_two, ops1_keep _ r h1, ops0_keep V r h0]

/-- On every device, for any float values, from any memory with zero counters: every weakly fair execution of @main
    terminates with the buffer of %46 at the updated edge features and the buffer of %78 at the updated node features,
    each the stage function of the arguments' launch contents, and the sixteen arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v46) = Stages.edgeNew (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v78)
          = Stages.nodeNew (m ((c.tc : Thread nD τ).loc main_arg1)) (Stages.agg (m ((c.tc : Thread nD τ).loc main_arg2)) (Stages.edgeNew (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))))
              (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(h c main_v46).trans (ops_v46 _), (h c main_v78).trans (ops_v78 _),
      (h c main_arg0).trans (ops_keep _ main_arg0 (by decide) (by decide)),
      (h c main_arg1).trans (ops_keep _ main_arg1 (by decide) (by decide)),
      (h c main_arg2).trans (ops_keep _ main_arg2 (by decide) (by decide)),
      (h c main_arg3).trans (ops_keep _ main_arg3 (by decide) (by decide)),
      (h c main_arg4).trans (ops_keep _ main_arg4 (by decide) (by decide)),
      (h c main_arg5).trans (ops_keep _ main_arg5 (by decide) (by decide)),
      (h c main_arg6).trans (ops_keep _ main_arg6 (by decide) (by decide)),
      (h c main_arg7).trans (ops_keep _ main_arg7 (by decide) (by decide)),
      (h c main_arg8).trans (ops_keep _ main_arg8 (by decide) (by decide)),
      (h c main_arg9).trans (ops_keep _ main_arg9 (by decide) (by decide)),
      (h c main_arg10).trans (ops_keep _ main_arg10 (by decide) (by decide)),
      (h c main_arg11).trans (ops_keep _ main_arg11 (by decide) (by decide)),
      (h c main_arg12).trans (ops_keep _ main_arg12 (by decide) (by decide)),
      (h c main_arg13).trans (ops_keep _ main_arg13 (by decide) (by decide)),
      (h c main_arg14).trans (ops_keep _ main_arg14 (by decide) (by decide)),
      (h c main_arg15).trans (ops_keep _ main_arg15 (by decide) (by decide))⟩)
    (run_seq scopedRefs_eq scopedSems_eq defs main (fun _ => ops) main_eq (fun _ => ops_sub) m ρ (fun _ => ops_fresh))

end Cert.ReferenceIdeal.Hand

end
-- ==== Proof.RefRead1.lean ====
/-
  Reading the host operations of the reference at an index, on the extended reals.

  A bias of length C spread along the rows of an R × C array reads the bias at the column; a column of R sums spread
  along C places reads the sum of the row; a sum along the rows from the zero word is the finite sum of the row; a
  product of an M × K by a K × N array is the sum over the K places of the products of the entries.  The word 64.0 is
  the real number 64, which is positive.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«425826_j50044958933334_3_alg».proof.Proof.Spec

noncomputable section

open scoped BigOperators
open Idealize.ShloMosaic Idealize.ShloMosaic.ValueIdx

namespace Cert.RefRead

variable {α : Type}

/-- The host's division, place by place. -/
theorem hostDivf_apply {s : Shape} {φ : FTy} (a b : FVec Ideal s φ) (i : s.Idx) :
    Host.divf a b i = Ideal.div (a i) (b i) := rfl

/-- The host's reciprocal root, place by place. -/
theorem hostRsqrt_apply {s : Shape} {φ : FTy} (a : FVec Ideal s φ) (i : s.Idx) :
    Host.rsqrt a i = Ideal.rsqrt (a i) := rfl

/-- A vector of length C, made a 1 × C array and spread over R rows, reads the vector at the column. -/
theorem bcast_row_apply {R C : Nat} (h1 : (⟨1, ![C]⟩ : Shape).BroadcastsInDim ⟨2, ![1, C]⟩ ![1])
    (h2 : (⟨2, ![1, C]⟩ : Shape).BroadcastsInDim ⟨2, ![R, C]⟩ ![0, 1]) (v : (⟨1, ![C]⟩ : Shape).Idx → α)
    (r : Fin R) (c : Fin C) :
    broadcastInDim ⟨2, ![R, C]⟩ ![0, 1] h2 (broadcastInDim ⟨2, ![1, C]⟩ ![1] h1 v) (ix2 r c) = v (ix1 c) := by
  rw [broadcastInDim_apply ![0, 1] h2 _ (ix2 r c) (ix2 (0 : Fin 1) c) (fun a => by
    match a with
    | ⟨0, _⟩ => rfl
    | ⟨1, _⟩ =>
      show c.val = if C = 1 then 0 else c.val
      split <;> omega)]
  exact broadcastInDim_apply ![1] h1 v (ix2 (0 : Fin 1) c) (ix1 c) (fun a => by
    match a with
    | ⟨0, _⟩ =>
      show c.val = if C = 1 then 0 else c.val
      split <;> omega)

/-- A vector of length R made an R × 1 column reads the vector at the row. -/
theorem bcast_col_apply {R : Nat} (h : (⟨1, ![R]⟩ : Shape).BroadcastsInDim ⟨2, ![R, 1]⟩ ![0])
    (v : (⟨1, ![R]⟩ : Shape).Idx → α) (r : Fin R) (z : Fin 1) :
    broadcastInDim ⟨2, ![R, 1]⟩ ![0] h v (ix2 r z) = v (ix1 r) :=
  broadcastInDim_apply ![0] h v (ix2 r z) (ix1 r) (fun a => by
    match a with
    | ⟨0, _⟩ =>
      show r.val = if R = 1 then 0 else r.val
      split <;> omega)

/-- An R × 1 column spread along C places reads the column at the row. -/
theorem bcast_colrow_apply {R C : Nat} (h : (⟨2, ![R, 1]⟩ : Shape).BroadcastsInDim ⟨2, ![R, C]⟩ ![0, 1])
    (v : (⟨2, ![R, 1]⟩ : Shape).Idx → α) (r : Fin R) (c : Fin C) :
    broadcastInDim ⟨2, ![R, C]⟩ ![0, 1] h v (ix2 r c) = v (ix2 r (0 : Fin 1)) :=
  broadcastInDim_apply ![0, 1] h v (ix2 r c) (ix2 r (0 : Fin 1)) (fun a => by
    match a with
    | ⟨0, _⟩ =>
      show r.val = if R = 1 then 0 else r.val
      split <;> omega
    | ⟨1, _⟩ => rfl)

/-- The sum along each row from the zero word is the finite sum of the row. -/
theorem rowSum_apply {R C : Nat} (h' : (⟨2, ![R, C]⟩ : Shape).ReducesTo [1] ⟨1, ![R]⟩)
    (h : (⟨2, ![R, C]⟩ : Shape).Reduces [1] ⟨1, ![R]⟩) (hu : 0 < (⟨0, ![]⟩ : Shape).numel)
    (x : FVec Ideal ⟨2, ![R, C]⟩ .f32) (r : Fin R) :
    Host.reduceAdd x (constant ⟨0, ![]⟩ .f32 0x00000000#32) h' hu (ix1 r) = ∑ l : Fin C, x (ix2 r l) := by
  rw [hostReduceAdd_apply, Ideal.hostReduceAdd_single h' h, constant_apply, Ideal.ofBits_zero_f32, zero_add]
  refine Finset.sum_congr rfl fun l _ => congrArg x ?_
  funext a
  apply Fin.ext
  match a with
  | ⟨0, _⟩ => rfl
  | ⟨1, _⟩ => rfl

/-- The product of an M × K by a K × N array at (a, b): the sum over the K places of the products of the entries. -/
theorem dot_apply {M K N : Nat}
    (w : DotDims.WF ⟨2, ![M, K]⟩ ⟨2, ![K, N]⟩ ⟨2, ![M, N]⟩ [1] [0] [0] [1] [] [])
    (A : FVec Ideal ⟨2, ![M, K]⟩ .f32) (B : FVec Ideal ⟨2, ![K, N]⟩ .f32) (a : Fin M) (b : Fin N) :
    Host.dotGeneral (⟨[1], [0], [0], [1], [], [], w⟩ : DotDims ⟨2, ![M, K]⟩ ⟨2, ![K, N]⟩ ⟨2, ![M, N]⟩) none A B (ix2 a b)
      = ∑ c : Fin K, A (ix2 a c) * B (ix2 c b) := by
  show FloatOps.dotGeneral _ none _ A B (ix2 a b) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The word 64.0 is the real number 64. -/
theorem c64_eq : Cert.Spec.c64 = ((64 : ℝ) : EReal) := by
  unfold Cert.Spec.c64
  simp [Ideal.ofBits, Ideal.ieee, -EReal.coe_mul]
  norm_num

/-- So it is positive. -/
theorem c64_pos : (0 : EReal) < Cert.Spec.c64 := by
  rw [c64_eq]
  exact_mod_cast (by norm_num : (0 : ℝ) < 64)

/-- The divisor of the variance: 64.0 less the integer zero as a float is 64.0. -/
theorem c64_sub_zero : Cert.Spec.c64 - (((0#32 : BitVec 32).toInt : ℝ) : EReal) = Cert.Spec.c64 := by
  have : ((0#32 : BitVec 32).toInt : ℝ) = 0 := by simp
  rw [this, EReal.coe_zero, sub_zero]

/-- The comparison "64.0 above zero" is the word one. -/
theorem cmp_c64 : Ideal.cmp .ogt Cert.Spec.c64 (Ideal.ofBits .f32 0x00000000#32) = 1#1 := by
  rw [Ideal.ofBits_zero_f32]
  show BitVec.ofBool (decide ((0 : EReal) < Cert.Spec.c64)) = 1#1
  rw [decide_eq_true c64_pos]
  rfl

end Cert.RefRead

end
-- ==== Proof.RefRead2.lean ====
/-
  The two layers and the row normalisation of the reference over 800000 rows (the edge half), read at a row and a place:
  the specification's normalised row of the second layer of the hidden row, the hidden row a sum over the 192 input
  places.
-/
import proofs.«425826_j50044958933334_3_alg».proof.Proof.RefStages
import proofs.«425826_j50044958933334_3_alg».proof.Proof.RefRead1

noncomputable section

open scoped BigOperators
open Idealize.ShloMosaic Idealize.ShloMosaic.ValueIdx
open Cert.ReferenceIdeal Cert.ReferenceIdeal.Stages

namespace Cert.RefRead

/-- The hidden rows of the first layer, at row r and unit j. -/
theorem hidden1E_apply (x : (⟨S800000x192, .f32⟩ : BufTy).Contents (Elt Ideal)) (w1 : (⟨S192x128, .f32⟩ : BufTy).Contents (Elt Ideal)) (b1 : (⟨S128, .f32⟩ : BufTy).Contents (Elt Ideal))
    (r : Fin 800000) (j : Fin 128) :
    hidden1E (F := Ideal) x w1 b1 (ix2 r j)
      = max ((∑ k : Fin 192, x (ix2 r k) * w1 (ix2 k j)) + b1 (ix1 j)) 0 := by
  unfold hidden1E
  rw [maximumf_apply, addf_apply, broadcastInDim_scalar_apply, constant_apply, Ideal.ofBits_zero_f32, bcast_row_apply,
    show dot_S800000x192_S192x128_S800000x128_1_0_0_1_n_n = (⟨[1], [0], [0], [1], [], [], Facts₀.dot_S800000x192_S192x128_S800000x128_1_0_0_1_n_n_wf⟩ : DotDims _ _ _) from rfl, dot_apply]

/-- The rows of the second layer, at row r and unit l. -/
theorem hidden2E_apply (h : (⟨S800000x128, .f32⟩ : BufTy).Contents (Elt Ideal)) (w2 : (⟨S128x64, .f32⟩ : BufTy).Contents (Elt Ideal)) (b2 : (⟨S64, .f32⟩ : BufTy).Contents (Elt Ideal))
    (r : Fin 800000) (l : Fin 64) :
    hidden2E (F := Ideal) h w2 b2 (ix2 r l)
      = max ((∑ j : Fin 128, h (ix2 r j) * w2 (ix2 j l)) + b2 (ix1 l)) 0 := by
  unfold hidden2E
  rw [maximumf_apply, addf_apply, broadcastInDim_scalar_apply, constant_apply, Ideal.ofBits_zero_f32, bcast_row_apply,
    show dot_S800000x128_S128x64_S800000x64_1_0_0_1_n_n = (⟨[1], [0], [0], [1], [], [], Facts₀.dot_S800000x128_S128x64_S800000x64_1_0_0_1_n_n_wf⟩ : DotDims _ _ _) from rfl, dot_apply]

/-- The mean of row r. -/
theorem rowMeanE_apply (h : (⟨S800000x64, .f32⟩ : BufTy).Contents (Elt Ideal)) (r : Fin 800000) :
    rowMeanE (F := Ideal) h (ix2 r (0 : Fin 1)) = Cert.Spec.mean (fun l => h (ix2 r l)) := by
  have hs := rowSum_apply Facts₀.reducesTo_S800000x64_S800000_d1 (by decide) Facts₀.h_S_ h r
  unfold rowMeanE
  rw [hostDivf_apply, broadcastInDim_scalar_apply, constant_apply, bcast_col_apply, hs]
  rfl

/-- The centred row r at place l. -/
theorem rowCentredE_apply (h : (⟨S800000x64, .f32⟩ : BufTy).Contents (Elt Ideal)) (r : Fin 800000) (l : Fin 64) :
    rowCentredE (F := Ideal) h (ix2 r l) = Cert.Spec.centred (fun l => h (ix2 r l)) l := by
  unfold rowCentredE
  rw [subf_apply, bcast_colrow_apply, rowMeanE_apply]
  rfl

/-- The divisor of the variance is the word 64.0. -/
theorem varDenE_apply : varDenE (F := Ideal) ix0 = Cert.Spec.c64 := by
  unfold varDenE
  rw [subf_apply, constant_apply, sitofp_apply]
  exact c64_sub_zero

/-- The variance of row r. -/
theorem rowVarE_apply (h : (⟨S800000x64, .f32⟩ : BufTy).Contents (Elt Ideal)) (r : Fin 800000) :
    rowVarE (F := Ideal) h (ix2 r (0 : Fin 1)) = Cert.Spec.variance (fun l => h (ix2 r l)) := by
  have hs := rowSum_apply Facts₀.reducesTo_S800000x64_S800000_d1 (by decide) Facts₀.h_S_
    (mulf (rowCentredE (F := Ideal) h) (rowCentredE (F := Ideal) h)) r
  unfold rowVarE
  rw [select_apply, broadcastInDim_scalar_apply, cmpf_apply, varDenE_apply, constant_apply, Ideal.cmpf_def, cmp_c64,
    select_one]
  rw [hostDivf_apply, broadcastInDim_scalar_apply, varDenE_apply, bcast_col_apply, hs]
  unfold Cert.Spec.variance
  refine congrArg (fun s => Ideal.div s Cert.Spec.c64) (Finset.sum_congr rfl fun l _ => ?_)
  rw [mulf_apply, rowCentredE_apply]

/-- The normalised row r at place l. -/
theorem rowNormE_apply (h : (⟨S800000x64, .f32⟩ : BufTy).Contents (Elt Ideal)) (g bt : (⟨S64, .f32⟩ : BufTy).Contents (Elt Ideal)) (r : Fin 800000) (l : Fin 64) :
    rowNormE (F := Ideal) h g bt (ix2 r l)
      = Cert.Spec.layerNorm (fun l => h (ix2 r l)) (fun l => g (ix1 l)) (fun l => bt (ix1 l)) l := by
  have e1 : broadcastInDim S800000x64 ![0, 1] Facts₀.bcast_S800000x1_S800000x64_0_1
      (Host.rsqrt (F := Ideal) (addf (rowVarE (F := Ideal) h)
        (broadcastInDim (s := S_) S800000x1 ![] Facts₀.bcast_S_S800000x1 (constant S_ .f32 0x3727C5AC#32)))) (ix2 r l)
      = Ideal.rsqrt (Cert.Spec.variance (fun l => h (ix2 r l)) + Cert.Spec.ceps) := by
    rw [bcast_colrow_apply, hostRsqrt_apply, addf_apply, rowVarE_apply, broadcastInDim_scalar_apply, constant_apply]
    rfl
  have e2 : broadcastInDim S800000x64 ![0, 1] Facts₀.bcast_S1x64_S800000x64_0_1
      (broadcastInDim S1x64 ![1] Facts₀.bcast_S64_S1x64_1 g) (ix2 r l) = g (ix1 l) := bcast_row_apply _ _ g r l
  have e3 : broadcastInDim S800000x64 ![0, 1] Facts₀.bcast_S1x64_S800000x64_0_1
      (broadcastInDim S1x64 ![1] Facts₀.bcast_S64_S1x64_1 bt) (ix2 r l) = bt (ix1 l) := bcast_row_apply _ _ bt r l
  unfold rowNormE
  rw [addf_apply, mulf_apply, mulf_apply, rowCentredE_apply, e1, e2, e3]
  rfl

/-- Two layers and the normalisation at row r, place q, over any input rows. -/
theorem mlpLNE_apply (x : (⟨S800000x192, .f32⟩ : BufTy).Contents (Elt Ideal)) (w1 : (⟨S192x128, .f32⟩ : BufTy).Contents (Elt Ideal)) (b1 : (⟨S128, .f32⟩ : BufTy).Contents (Elt Ideal))
    (w2 : (⟨S128x64, .f32⟩ : BufTy).Contents (Elt Ideal)) (b2 g bt : (⟨S64, .f32⟩ : BufTy).Contents (Elt Ideal)) (r : Fin 800000) (q : Fin 64) :
    mlpLNE (F := Ideal) x w1 b1 w2 b2 g bt (ix2 r q)
      = Cert.Spec.layerNorm
          (Cert.Spec.layer2 (fun j => max ((∑ k : Fin 192, x (ix2 r k) * w1 (ix2 k j)) + b1 (ix1 j)) 0)
            (fun j l => w2 (ix2 j l)) (fun l => b2 (ix1 l)))
          (fun l => g (ix1 l)) (fun l => bt (ix1 l)) q := by
  unfold mlpLNE
  rw [rowNormE_apply]
  refine congrArg (fun f => Cert.Spec.layerNorm f (fun l => g (ix1 l)) (fun l => bt (ix1 l)) q) (funext fun l => ?_)
  rw [hidden2E_apply]
  unfold Cert.Spec.layer2
  refine congrArg (fun s => max (s + b2 (ix1 l)) 0) (Finset.sum_congr rfl fun j _ => ?_)
  rw [hidden1E_apply]

end Cert.RefRead

end
-- ==== Proof.RefRead3.lean ====
/-
  The two layers and the row normalisation of the reference over 50000 rows (the node half), read at a row and a place:
  the specification's normalised row of the second layer of the hidden row, the hidden row a sum over the 128 input
  places.
-/
import proofs.«425826_j50044958933334_3_alg».proof.Proof.RefStages
import proofs.«425826_j50044958933334_3_alg».proof.Proof.RefRead1

noncomputable section

open scoped BigOperators
open Idealize.ShloMosaic Idealize.ShloMosaic.ValueIdx
open Cert.ReferenceIdeal Cert.ReferenceIdeal.Stages

namespace Cert.RefRead

/-- The hidden rows of the first layer, at row r and unit j. -/
theorem hidden1N_apply (x : (⟨S50000x128, .f32⟩ : BufTy).Contents (Elt Ideal)) (w1 : (⟨S128x128, .f32⟩ : BufTy).Contents (Elt Ideal)) (b1 : (⟨S128, .f32⟩ : BufTy).Contents (Elt Ideal))
    (r : Fin 50000) (j : Fin 128) :
    hidden1N (F := Ideal) x w1 b1 (ix2 r j)
      = max ((∑ k : Fin 128, x (ix2 r k) * w1 (ix2 k j)) + b1 (ix1 j)) 0 := by
  unfold hidden1N
  rw [maximumf_apply, addf_apply, broadcastInDim_scalar_apply, constant_apply, Ideal.ofBits_zero_f32, bcast_row_apply,
    show dot_S50000x128_S128x128_S50000x128_1_0_0_1_n_n = (⟨[1], [0], [0], [1], [], [], Facts₀.dot_S50000x128_S128x128_S50000x128_1_0_0_1_n_n_wf⟩ : DotDims _ _ _) from rfl, dot_apply]

/-- The rows of the second layer, at row r and unit l. -/
theorem hidden2N_apply (h : (⟨S50000x128, .f32⟩ : BufTy).Contents (Elt Ideal)) (w2 : (⟨S128x64, .f32⟩ : BufTy).Contents (Elt Ideal)) (b2 : (⟨S64, .f32⟩ : BufTy).Contents (Elt Ideal))
    (r : Fin 50000) (l : Fin 64) :
    hidden2N (F := Ideal) h w2 b2 (ix2 r l)
      = max ((∑ j : Fin 128, h (ix2 r j) * w2 (ix2 j l)) + b2 (ix1 l)) 0 := by
  unfold hidden2N
  rw [maximumf_apply, addf_apply, broadcastInDim_scalar_apply, constant_apply, Ideal.ofBits_zero_f32, bcast_row_apply,
    show dot_S50000x128_S128x64_S50000x64_1_0_0_1_n_n = (⟨[1], [0], [0], [1], [], [], Facts₀.dot_S50000x128_S128x64_S50000x64_1_0_0_1_n_n_wf⟩ : DotDims _ _ _) from rfl, dot_apply]

/-- The mean of row r. -/
theorem rowMeanN_apply (h : (⟨S50000x64, .f32⟩ : BufTy).Contents (Elt Ideal)) (r : Fin 50000) :
    rowMeanN (F := Ideal) h (ix2 r (0 : Fin 1)) = Cert.Spec.mean (fun l => h (ix2 r l)) := by
  have hs := rowSum_apply Facts₀.reducesTo_S50000x64_S50000_d1 (by decide) Facts₀.h_S_ h r
  unfold rowMeanN
  rw [hostDivf_apply, broadcastInDim_scalar_apply, constant_apply, bcast_col_apply, hs]
  rfl

/-- The centred row r at place l. -/
theorem rowCentredN_apply (h : (⟨S50000x64, .f32⟩ : BufTy).Contents (Elt Ideal)) (r : Fin 50000) (l : Fin 64) :
    rowCentredN (F := Ideal) h (ix2 r l) = Cert.Spec.centred (fun l => h (ix2 r l)) l := by
  unfold rowCentredN
  rw [subf_apply, bcast_colrow_apply, rowMeanN_apply]
  rfl

/-- The divisor of the variance is the word 64.0. -/
theorem varDenN_apply : varDenN (F := Ideal) ix0 = Cert.Spec.c64 := by
  unfold varDenN
  rw [subf_apply, constant_apply, sitofp_apply]
  exact c64_sub_zero

/-- The variance of row r. -/
theorem rowVarN_apply (h : (⟨S50000x64, .f32⟩ : BufTy).Contents (Elt Ideal)) (r : Fin 50000) :
    rowVarN (F := Ideal) h (ix2 r (0 : Fin 1)) = Cert.Spec.variance (fun l => h (ix2 r l)) := by
  have hs := rowSum_apply Facts₀.reducesTo_S50000x64_S50000_d1 (by decide) Facts₀.h_S_
    (mulf (rowCentredN (F := Ideal) h) (rowCentredN (F := Ideal) h)) r
  unfold rowVarN
  rw [select_apply, broadcastInDim_scalar_apply, cmpf_apply, varDenN_apply, constant_apply, Ideal.cmpf_def, cmp_c64,
    select_one]
  rw [hostDivf_apply, broadcastInDim_scalar_apply, varDenN_apply, bcast_col_apply, hs]
  unfold Cert.Spec.variance
  refine congrArg (fun s => Ideal.div s Cert.Spec.c64) (Finset.sum_congr rfl fun l _ => ?_)
  rw [mulf_apply, rowCentredN_apply]

/-- The normalised row r at place l. -/
theorem rowNormN_apply (h : (⟨S50000x64, .f32⟩ : BufTy).Contents (Elt Ideal)) (g bt : (⟨S64, .f32⟩ : BufTy).Contents (Elt Ideal)) (r : Fin 50000) (l : Fin 64) :
    rowNormN (F := Ideal) h g bt (ix2 r l)
      = Cert.Spec.layerNorm (fun l => h (ix2 r l)) (fun l => g (ix1 l)) (fun l => bt (ix1 l)) l := by
  have e1 : broadcastInDim S50000x64 ![0, 1] Facts₀.bcast_S50000x1_S50000x64_0_1
      (Host.rsqrt (F := Ideal) (addf (rowVarN (F := Ideal) h)
        (broadcastInDim (s := S_) S50000x1 ![] Facts₀.bcast_S_S50000x1 (constant S_ .f32 0x3727C5AC#32)))) (ix2 r l)
      = Ideal.rsqrt (Cert.Spec.variance (fun l => h (ix2 r l)) + Cert.Spec.ceps) := by
    rw [bcast_colrow_apply, hostRsqrt_apply, addf_apply, rowVarN_apply, broadcastInDim_scalar_apply, constant_apply]
    rfl
  have e2 : broadcastInDim S50000x64 ![0, 1] Facts₀.bcast_S1x64_S50000x64_0_1
      (broadcastInDim S1x64 ![1] Facts₀.bcast_S64_S1x64_1 g) (ix2 r l) = g (ix1 l) := bcast_row_apply _ _ g r l
  have e3 : broadcastInDim S50000x64 ![0, 1] Facts₀.bcast_S1x64_S50000x64_0_1
      (broadcastInDim S1x64 ![1] Facts₀.bcast_S64_S1x64_1 bt) (ix2 r l) = bt (ix1 l) := bcast_row_apply _ _ bt r l
  unfold rowNormN
  rw [addf_apply, mulf_apply, mulf_apply, rowCentredN_apply, e1, e2, e3]
  rfl

/-- Two layers and the normalisation at row r, place q, over any input rows. -/
theorem mlpLNN_apply (x : (⟨S50000x128, .f32⟩ : BufTy).Contents (Elt Ideal)) (w1 : (⟨S128x128, .f32⟩ : BufTy).Contents (Elt Ideal)) (b1 : (⟨S128, .f32⟩ : BufTy).Contents (Elt Ideal))
    (w2 : (⟨S128x64, .f32⟩ : BufTy).Contents (Elt Ideal)) (b2 g bt : (⟨S64, .f32⟩ : BufTy).Contents (Elt Ideal)) (r : Fin 50000) (q : Fin 64) :
    mlpLNN (F := Ideal) x w1 b1 w2 b2 g bt (ix2 r q)
      = Cert.Spec.layerNorm
          (Cert.Spec.layer2 (fun j => max ((∑ k : Fin 128, x (ix2 r k) * w1 (ix2 k j)) + b1 (ix1 j)) 0)
            (fun j l => w2 (ix2 j l)) (fun l => b2 (ix1 l)))
          (fun l => g (ix1 l)) (fun l => bt (ix1 l)) q := by
  unfold mlpLNN
  rw [rowNormN_apply]
  refine congrArg (fun f => Cert.Spec.layerNorm f (fun l => g (ix1 l)) (fun l => bt (ix1 l)) q) (funext fun l => ?_)
  rw [hidden2N_apply]
  unfold Cert.Spec.layer2
  refine congrArg (fun s => max (s + b2 (ix1 l)) 0) (Finset.sum_congr rfl fun j _ => ?_)
  rw [hidden1N_apply]

end Cert.RefRead

end
-- ==== Proof.RefRead.lean ====
/-
  The reference's updated edge and node features, read at an index, are the specification's.

  A row of the index array read at an edge is that entry of the array; a word below 50000 is not negative, so the wrap
  leaves it and the gather's clamp names the node of that word; the concatenation of receiver, sender and edge features
  read at place k is the receiver's features for k below 64, the sender's for k below 128, the edge's own after that; the
  sum over the 192 places is cut after the first 128.  The node half likewise, cut after the first 64.
-/
import proofs.«425826_j50044958933334_3_alg».proof.Proof.RefStages
import proofs.«425826_j50044958933334_3_alg».proof.Proof.RefRead1
import proofs.«425826_j50044958933334_3_alg».proof.Proof.RefRead2
import proofs.«425826_j50044958933334_3_alg».proof.Proof.RefRead3
import proofs.«425826_j50044958933334_3_alg».proof.Proof.LibGatherScatter

noncomputable section

open scoped BigOperators
open Idealize.ShloMosaic Idealize.ShloMosaic.ValueIdx
open Cert.ReferenceIdeal Cert.ReferenceIdeal.Stages

namespace Cert.RefRead

/-- Row 0 of the index array at edge e. -/
theorem idxRow0_apply (a2 : (⟨S2x800000, .i32⟩ : BufTy).Contents (Elt Ideal)) (e : Fin 800000) :
    idxRow0 (F := Ideal) a2 (ix1 e) = a2 (ix2 (0 : Fin 2) e) := by
  unfold idxRow0
  rw [shapeCast_apply _ _ (ix1 e) (ix2 (0 : Fin 1) e) (by
      rw [Shape.rowMajor_val_two, Shape.rowMajor_val_one]
      show (0 : ℕ) * 800000 + e.val = e.val
      omega),
    extractStridedSlice_apply ![0, 0] a2 _ (ix2 (0 : Fin 1) e) (ix2 (0 : Fin 2) e) (fun a => by
      match a with
      | ⟨0, _⟩ => rfl
      | ⟨1, _⟩ => show e.val = 0 + e.val; omega)]

/-- Row 1 of the index array at edge e. -/
theorem idxRow1_apply (a2 : (⟨S2x800000, .i32⟩ : BufTy).Contents (Elt Ideal)) (e : Fin 800000) :
    idxRow1 (F := Ideal) a2 (ix1 e) = a2 (ix2 (1 : Fin 2) e) := by
  unfold idxRow1
  rw [shapeCast_apply _ _ (ix1 e) (ix2 (0 : Fin 1) e) (by
      rw [Shape.rowMajor_val_two, Shape.rowMajor_val_one]
      show (0 : ℕ) * 800000 + e.val = e.val
      omega),
    extractStridedSlice_apply ![1, 0] a2 _ (ix2 (0 : Fin 1) e) (ix2 (1 : Fin 2) e) (fun a => by
      match a with
      | ⟨0, _⟩ => rfl
      | ⟨1, _⟩ => show e.val = 0 + e.val; omega)]

/-- A word below 50000 is not negative as a signed integer. -/
theorem slt_zero_of_lt (w : BitVec 32) (h : w.toNat < 50000) : IntOp.cmpi .slt w 0#32 = 0#1 := by
  have h2 : w.toInt = (w.toNat : ℤ) := BitVec.toInt_eq_toNat_of_lt (by omega)
  have h3 : w.slt 0#32 = false := by
    rw [BitVec.slt_eq_decide, h2]
    simp
  show BitVec.ofBool (w.slt 0#32) = 0#1
  rw [h3]
  rfl

/-- The wrap leaves a word below 50000 as it is. -/
theorem wrapIdx_apply (v : (⟨S800000, .i32⟩ : BufTy).Contents (Elt Ideal)) (e : Fin 800000) (h : (v (ix1 e)).toNat < 50000) :
    wrapIdx (F := Ideal) v (ix2 e (0 : Fin 1)) = v (ix1 e) := by
  unfold wrapIdx
  rw [bcast_col_apply, select_apply]
  show Scalar.select (IntOp.cmpi .slt (v (ix1 e)) (broadcastInDim S800000 ![] _ (constantI S_ 32 0#32) (ix1 e))) _ _ = _
  rw [broadcastInDim_scalar_apply]
  show Scalar.select (IntOp.cmpi .slt (v (ix1 e)) 0#32) _ _ = _
  rw [slt_zero_of_lt _ h, select_zero]

/-- The clamp of a word below 50000 names the node of that word. -/
theorem clampRow_eq_nodeOf (w : BitVec 32) (h : w.toNat < 50000) :
    Cert.Lib.clampRow 50000 (by decide) w = Cert.Spec.nodeOf w := by
  have h2 : w.toInt = (w.toNat : ℤ) := BitVec.toInt_eq_toNat_of_lt (by omega)
  apply Fin.ext
  show min w.toInt.toNat (50000 - 1) = w.toNat % 50000
  rw [h2, Int.toNat_natCast, Nat.mod_eq_of_lt h]
  omega

/-- The gathered rows at edge e: the node features at the node the word names. -/
theorem gatherRows_apply (a1 : (⟨S50000x64, .f32⟩ : BufTy).Contents (Elt Ideal)) (v : (⟨S800000, .i32⟩ : BufTy).Contents (Elt Ideal)) (e : Fin 800000) (k : Fin 64)
    (h : (v (ix1 e)).toNat < 50000) :
    gatherRows (F := Ideal) a1 v (ix2 e k) = a1 (ix2 (Cert.Spec.nodeOf (v (ix1 e))) k) := by
  unfold gatherRows
  rw [show gather_S50000x64_S800000x1_S800000x64_1_0_n_n_0_1_164
      = Cert.Lib.rowGatherDims 50000 64 800000 Facts₀.gather_S50000x64_S800000x1_S800000x64_1_0_n_n_0_1_164_wf from rfl,
    Cert.Lib.gather_rows_apply (by decide), wrapIdx_apply v e h, clampRow_eq_nodeOf _ h]

/-- The edge half's input row at a place below 64: the receiver's features. -/
theorem edgeIn_recv (a0 : (⟨S800000x64, .f32⟩ : BufTy).Contents (Elt Ideal)) (a1 : (⟨S50000x64, .f32⟩ : BufTy).Contents (Elt Ideal)) (a2 : (⟨S2x800000, .i32⟩ : BufTy).Contents (Elt Ideal))
    (e : Fin 800000) (k : Fin 64) :
    edgeIn (F := Ideal) a0 a1 a2 (ix2 e (⟨k.val, by omega⟩ : Fin 192)) = gatherRows (F := Ideal) a1 (idxRow1 (F := Ideal) a2) (ix2 e k) := by
  unfold edgeIn
  exact concatenate_apply_piece 1 _ _ (ix2 e (⟨k.val, by omega⟩ : Fin 192)) 0 (by simp) S800000x64 _ rfl rfl 0 rfl
    (ix2 e k) (fun b hb => by
      match b with
      | ⟨0, _⟩ => rfl
      | ⟨1, _⟩ => exact absurd rfl hb) (by show 0 + k.val = k.val; omega)

/-- At a place from 64 and below 128: the sender's features. -/
theorem edgeIn_send (a0 : (⟨S800000x64, .f32⟩ : BufTy).Contents (Elt Ideal)) (a1 : (⟨S50000x64, .f32⟩ : BufTy).Contents (Elt Ideal)) (a2 : (⟨S2x800000, .i32⟩ : BufTy).Contents (Elt Ideal))
    (e : Fin 800000) (k : Fin 64) :
    edgeIn (F := Ideal) a0 a1 a2 (ix2 e (⟨64 + k.val, by omega⟩ : Fin 192)) = gatherRows (F := Ideal) a1 (idxRow0 (F := Ideal) a2) (ix2 e k) := by
  unfold edgeIn
  exact concatenate_apply_piece 1 _ _ (ix2 e (⟨64 + k.val, by omega⟩ : Fin 192)) 1 (by simp) S800000x64 _ rfl rfl 64 rfl
    (ix2 e k) (fun b hb => by
      match b with
      | ⟨0, _⟩ => rfl
      | ⟨1, _⟩ => exact absurd rfl hb) rfl

/-- At a place from 128: the edge's own features. -/
theorem edgeIn_edge (a0 : (⟨S800000x64, .f32⟩ : BufTy).Contents (Elt Ideal)) (a1 : (⟨S50000x64, .f32⟩ : BufTy).Contents (Elt Ideal)) (a2 : (⟨S2x800000, .i32⟩ : BufTy).Contents (Elt Ideal))
    (e : Fin 800000) (k : Fin 64) :
    edgeIn (F := Ideal) a0 a1 a2 (ix2 e (⟨128 + k.val, by omega⟩ : Fin 192)) = a0 (ix2 e k) := by
  unfold edgeIn
  exact concatenate_apply_piece 1 _ _ (ix2 e (⟨128 + k.val, by omega⟩ : Fin 192)) 2 (by simp) S800000x64 _ rfl rfl 128 rfl
    (ix2 e k) (fun b hb => by
      match b with
      | ⟨0, _⟩ => rfl
      | ⟨1, _⟩ => exact absurd rfl hb) rfl

/-- The node half's input row at a place below 64: the node's features. -/
theorem nodeIn_left (a1 ag : (⟨S50000x64, .f32⟩ : BufTy).Contents (Elt Ideal)) (n : Fin 50000) (k : Fin 64) :
    nodeIn (F := Ideal) a1 ag (ix2 n (⟨k.val, by omega⟩ : Fin 128)) = a1 (ix2 n k) := by
  unfold nodeIn
  exact concatenate_apply_piece 1 _ _ (ix2 n (⟨k.val, by omega⟩ : Fin 128)) 0 (by simp) S50000x64 _ rfl rfl 0 rfl
    (ix2 n k) (fun b hb => by
      match b with
      | ⟨0, _⟩ => rfl
      | ⟨1, _⟩ => exact absurd rfl hb) (by show 0 + k.val = k.val; omega)

/-- At a place from 64: the summed edge rows. -/
theorem nodeIn_right (a1 ag : (⟨S50000x64, .f32⟩ : BufTy).Contents (Elt Ideal)) (n : Fin 50000) (k : Fin 64) :
    nodeIn (F := Ideal) a1 ag (ix2 n (⟨64 + k.val, by omega⟩ : Fin 128)) = ag (ix2 n k) := by
  unfold nodeIn
  exact concatenate_apply_piece 1 _ _ (ix2 n (⟨64 + k.val, by omega⟩ : Fin 128)) 1 (by simp) S50000x64 _ rfl rfl 64 rfl
    (ix2 n k) (fun b hb => by
      match b with
      | ⟨0, _⟩ => rfl
      | ⟨1, _⟩ => exact absurd rfl hb) rfl

end Cert.RefRead

namespace Cert.ReferenceIdeal.Stages

open Cert.RefRead

/-- THE REFERENCE'S UPDATED EDGE FEATURES at edge e, place q, are the specification's. -/
theorem edgeNew_apply (a0 : (⟨S800000x64, .f32⟩ : BufTy).Contents (Elt Ideal)) (a1 : (⟨S50000x64, .f32⟩ : BufTy).Contents (Elt Ideal)) (a2 : (⟨S2x800000, .i32⟩ : BufTy).Contents (Elt Ideal))
    (a4 : (⟨S192x128, .f32⟩ : BufTy).Contents (Elt Ideal)) (a5 : (⟨S128, .f32⟩ : BufTy).Contents (Elt Ideal)) (a6 : (⟨S128x64, .f32⟩ : BufTy).Contents (Elt Ideal))
    (a7 a8 a9 : (⟨S64, .f32⟩ : BufTy).Contents (Elt Ideal)) (hidx : ∀ i, (a2 i).toNat < 50000) (e : Fin 800000) (q : Fin 64) :
    edgeNew (F := Ideal) a0 a1 a2 a4 a5 a6 a7 a8 a9 (ix2 e q)
      = Cert.Spec.edgeOut (fun e k => a0 (ix2 e k)) (fun n k => a1 (ix2 n k))
          (fun e => Cert.Spec.nodeOf (a2 (ix2 1 e))) (fun e => Cert.Spec.nodeOf (a2 (ix2 0 e)))
          (fun k j => a4 (ix2 k j)) (fun j => a5 (ix1 j)) (fun j l => a6 (ix2 j l)) (fun l => a7 (ix1 l))
          (fun l => a8 (ix1 l)) (fun l => a9 (ix1 l)) e q := by
  unfold edgeNew
  rw [mlpLNE_apply]
  unfold Cert.Spec.edgeOut Cert.Spec.rowOut
  refine congrArg (fun f => Cert.Spec.layerNorm (Cert.Spec.layer2 f (fun j l => a6 (ix2 j l)) (fun l => a7 (ix1 l)))
    (fun l => a8 (ix1 l)) (fun l => a9 (ix1 l)) q) (funext fun j => ?_)
  unfold Cert.Spec.layer1
  refine congrArg (fun s => max (s + a5 (ix1 j)) 0) ?_
  refine (Cert.Spec.sum_cut 128 64
    (fun k : Fin 192 => edgeIn (F := Ideal) a0 a1 a2 (ix2 e k) * a4 (ix2 k j))).trans ?_
  refine congrArg₂ (· + ·) ?_ ?_
  · refine Finset.sum_congr rfl fun k _ => ?_
    unfold Cert.Spec.ends
    by_cases hk : k.val < 64
    · rw [dif_pos hk]
      have h1 : edgeIn (F := Ideal) a0 a1 a2 (ix2 e (Fin.castAdd 64 k))
          = a1 (ix2 (Cert.Spec.nodeOf (a2 (ix2 1 e))) (⟨k.val, hk⟩ : Fin 64)) := by
        have := edgeIn_recv a0 a1 a2 e ⟨k.val, hk⟩
        rw [gatherRows_apply a1 _ e _ (by rw [idxRow1_apply]; exact hidx _), idxRow1_apply] at this
        exact this
      exact congrArg (· * a4 (ix2 (Fin.castAdd 64 k) j)) h1
    · rw [dif_neg hk]
      have h1 : edgeIn (F := Ideal) a0 a1 a2 (ix2 e (Fin.castAdd 64 k))
          = a1 (ix2 (Cert.Spec.nodeOf (a2 (ix2 0 e))) (⟨k.val - 64, by omega⟩ : Fin 64)) := by
        have hc : (Fin.castAdd 64 k : Fin 192) = (⟨64 + (k.val - 64), by omega⟩ : Fin 192) :=
          Fin.ext (by show k.val = 64 + (k.val - 64); omega)
        have := edgeIn_send a0 a1 a2 e ⟨k.val - 64, by omega⟩
        rw [gatherRows_apply a1 _ e _ (by rw [idxRow0_apply]; exact hidx _), idxRow0_apply] at this
        rw [hc]
        exact this
      exact congrArg (· * a4 (ix2 (Fin.castAdd 64 k) j)) h1
  · refine Finset.sum_congr rfl fun k _ => ?_
    exact congrArg (· * a4 (ix2 (Fin.natAdd 128 k) j)) (edgeIn_edge a0 a1 a2 e k)

/-- THE REFERENCE'S UPDATED NODE FEATURES at node n, place q, are the specification's. -/
theorem nodeNew_apply (a1 ag : (⟨S50000x64, .f32⟩ : BufTy).Contents (Elt Ideal)) (a10 : (⟨S128x128, .f32⟩ : BufTy).Contents (Elt Ideal)) (a11 : (⟨S128, .f32⟩ : BufTy).Contents (Elt Ideal))
    (a12 : (⟨S128x64, .f32⟩ : BufTy).Contents (Elt Ideal)) (a13 a14 a15 : (⟨S64, .f32⟩ : BufTy).Contents (Elt Ideal)) (n : Fin 50000) (q : Fin 64) :
    nodeNew (F := Ideal) a1 ag a10 a11 a12 a13 a14 a15 (ix2 n q)
      = Cert.Spec.nodeOut (fun n k => a1 (ix2 n k)) (fun n k => ag (ix2 n k)) (fun k j => a10 (ix2 k j))
          (fun j => a11 (ix1 j)) (fun j l => a12 (ix2 j l)) (fun l => a13 (ix1 l)) (fun l => a14 (ix1 l))
          (fun l => a15 (ix1 l)) n q := by
  unfold nodeNew
  rw [mlpLNN_apply]
  unfold Cert.Spec.nodeOut Cert.Spec.rowOut
  refine congrArg (fun f => Cert.Spec.layerNorm (Cert.Spec.layer2 f (fun j l => a12 (ix2 j l)) (fun l => a13 (ix1 l)))
    (fun l => a14 (ix1 l)) (fun l => a15 (ix1 l)) q) (funext fun j => ?_)
  unfold Cert.Spec.layer1
  refine congrArg (fun s => max (s + a11 (ix1 j)) 0) ?_
  refine (Cert.Spec.sum_cut 64 64
    (fun k : Fin 128 => nodeIn (F := Ideal) a1 ag (ix2 n k) * a10 (ix2 k j))).trans ?_
  refine congrArg₂ (· + ·) ?_ ?_
  · refine Finset.sum_congr rfl fun k _ => ?_
    exact congrArg (· * a10 (ix2 (Fin.castAdd 64 k) j)) (nodeIn_left a1 ag n k)
  · refine Finset.sum_congr rfl fun k _ => ?_
    exact congrArg (· * a10 (ix2 (Fin.natAdd 64 k) j)) (nodeIn_right a1 ag n k)

end Cert.ReferenceIdeal.Stages

end
-- ==== Proof.lean ====
/-
  The kernel and the reference are one function over the extended reals.

  Both compute, for every edge, a two-layer perceptron with rectifiers and a layer normalisation of the row
  (receiver's features | sender's features | edge's features); sum the results onto the receivers; and do the same for every
  node with the row (node's features | that sum).  The kernel gathers the two end nodes' rows in one gather, multiplies the
  first weight matrix in two pieces and runs each perceptron block by block; the reference concatenates and multiplies
  once.  The pieces add up to the whole product because a sum over 192 (or 128) places is the sum over its first part plus
  the sum over the rest, and the blocks tile the arrays row by row.  The two gathers agree where every index word names one
  of the 50000 nodes, which the precondition says; the scatter-add is the same operation of the same operands on both
  sides and is never opened.

  The frames: the two kernels' by their generated certificates; the reference's by its run, written out operation by
  operation.  The idealisation rewrote nothing, so there is nothing to preserve.
-/
import proofs.«425826_j50044958933334_3_alg».proof.Defs
import proofs.«425826_j50044958933334_3_alg».proof.Proof.Gen.Kernel.Frame
import proofs.«425826_j50044958933334_3_alg».proof.Proof.Gen.Pre_finite_inputs
import proofs.«425826_j50044958933334_3_alg».proof.Proof.KBridge
import proofs.«425826_j50044958933334_3_alg».proof.Proof.KBody0
import proofs.«425826_j50044958933334_3_alg».proof.Proof.KBody1
import proofs.«425826_j50044958933334_3_alg».proof.Proof.PreDecode
import proofs.«425826_j50044958933334_3_alg».proof.Proof.RefRun
import proofs.«425826_j50044958933334_3_alg».proof.Proof.RefRead

set_option maxRecDepth 16384

noncomputable section

namespace Cert.Proof

open Idealize.ShloMosaic Idealize.ShloMosaic.TcCoe Idealize.ShloMosaic.ValueIdx Idealize.SL.Sem

/-- The word-level kernel runs and keeps its arguments: the generated frame of its two regions. -/
theorem frame_k : Cert.frame_Kernel := fun m ρ _ => Cert.Kernel.Gen.frame m ρ
/-- So does the kernel read over the extended reals. -/
theorem frame_ki : Cert.frame_KernelIdeal := fun m ρ _ => Cert.KernelIdeal.Gen.frame m ρ
/-- The reference's run, with its two results dropped. -/
theorem frame_ri : Cert.frame_ReferenceIdeal := fun m ρ _ =>
  (θ_run Cert.ReferenceIdeal.defs _ _).mono (fun _ h c => (h c).2.2) (Cert.ReferenceIdeal.Hand.run m ρ)

/-- The reference's aggregation and the kernel's are one scatter-add of one edge array at one index column. -/
theorem agg_eq (m : (ℓ : Loc Cert.KernelIdeal.nD Cert.KernelIdeal.τ Cert.KernelIdeal.sig) → Buf (Elt Ideal) ℓ) (c : Dev Cert.KernelIdeal.nD) (E : Cert.KernelIdeal.S800000x64.Idx → EReal) :
    Cert.ReferenceIdeal.Stages.agg (F := Ideal) (m ((c.tc : Thread Cert.KernelIdeal.nD Cert.KernelIdeal.τ).loc Cert.KernelIdeal.main_arg2)) E = Cert.KernelIdeal.KBridge.aggOf m c E := rfl

/-- Over the extended reals, from memories that agree on the arguments, both programs end with the specification's two
    arrays: the kernel by its two regions' blocks, the reference by its operations read at an index. -/
theorem algebraic : Cert.algebraic_KernelIdeal_ReferenceIdeal := by
  intro m ρ m' ρ' hpre hagree
  have hidx : ∀ (c : Dev Cert.KernelIdeal.nD) i, (m ((c.tc : Thread Cert.KernelIdeal.nD Cert.KernelIdeal.τ).loc Cert.KernelIdeal.main_arg2) i).toNat < 50000 :=
    fun c i => Cert.PreDecode.idx_lt_of_pre _ _ _ _ _ _ _ _ _ _ _ _ _ _ _ _ (hpre c) i
  refine ⟨fun c => Cert.KernelIdeal.KBridge.edgeArr m c, fun c => Cert.KernelIdeal.KBridge.nodeArr m c,
    Cert.KernelIdeal.KBridge.run m ρ Cert.KernelIdeal.KBody.pay0_apply Cert.KernelIdeal.KBody.pay1_apply hidx, ?_⟩
  have hE : ∀ c : Dev Cert.KernelIdeal.nD, Cert.ReferenceIdeal.Stages.edgeNew (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.KernelIdeal.KBridge.edgeArr m c := by
    intro c
    funext i
    obtain ⟨e, q, rfl⟩ : ∃ (e : Fin 800000) (q : Fin 64), i = ix2 e q := ⟨i 0, i 1, eq_ix2 i⟩
    exact Cert.ReferenceIdeal.Stages.edgeNew_apply _ _ _ _ _ _ _ _ _ (hidx c) e q
  refine (θ_run Cert.ReferenceIdeal.defs _ _).mono (fun r h c => ⟨(h c).1.trans ?_, (h c).2.1.trans ?_, (h c).2.2⟩)
    (Cert.ReferenceIdeal.Hand.run m' ρ')
  · obtain ⟨h0, h1, h2, h3, h4, h5, h6, h7, h8, h9, -⟩ := hagree c
    rw [h0, h1, h2, h4, h5, h6, h7, h8, h9]
    exact hE c
  · obtain ⟨h0, h1, h2, h3, h4, h5, h6, h7, h8, h9, h10, h11, h12, h13, h14, h15⟩ := hagree c
    rw [h0, h1, h2, h4, h5, h6, h7, h8, h9, h10, h11, h12, h13, h14, h15, hE c, agg_eq m c]
    funext i
    obtain ⟨n, q, rfl⟩ : ∃ (n : Fin 50000) (q : Fin 64), i = ix2 n q := ⟨i 0, i 1, eq_ix2 i⟩
    exact Cert.ReferenceIdeal.Stages.nodeNew_apply _ _ _ _ _ _ _ _ n q

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
